-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part1 {F : FTy → Type} [FloatOps F] (main_arg4 : FVec F S4x64x64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  main_v23

def fn {F : FTy → Type} [FloatOps F] (main_arg0 : FVec F S4096x64 .f32) (main_arg1 : FVec F S4x4096x4096 .f32) (main_arg2 : FVec F S64x64 .f32) (main_arg3 : FVec F S4x64x64 .f32) (main_arg4 : FVec F S4x64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_v13 main_v16
-- ==== Kernel.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S1x512x4096 : Shape := ⟨3, ![1, 512, 4096]⟩
abbrev S1x64x64 : Shape := ⟨3, ![1, 64, 64]⟩
abbrev S64x4096 : Shape := ⟨2, ![64, 4096]⟩
abbrev S4096x128 : Shape := ⟨2, ![4096, 128]⟩
abbrev S72x4096 : Shape := ⟨2, ![72, 4096]⟩
abbrev S512x4096 : Shape := ⟨2, ![512, 4096]⟩
abbrev S8x4096 : Shape := ⟨2, ![8, 4096]⟩
abbrev S512x128 : Shape := ⟨2, ![512, 128]⟩
abbrev S512x1 : Shape := ⟨2, ![512, 1]⟩
abbrev S512x64 : Shape := ⟨2, ![512, 64]⟩
abbrev S72x512 : Shape := ⟨2, ![72, 512]⟩
abbrev S1x4096 : Shape := ⟨2, ![1, 4096]⟩

abbrev nBuf : Space → Nat
  | .hbm => 6
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S4x4096x4096, .f32⟩
  | .hbm, ⟨2, _⟩ => ⟨S64x64, .f32⟩
  | .hbm, ⟨3, _⟩ => ⟨S4x64x64, .f32⟩
  | .hbm, ⟨4, _⟩ => ⟨S4x64x64, .f32⟩
  | .hbm, ⟨5, _⟩ => ⟨S4096x64, .f32⟩
  | .local _ .vmem, ⟨0, _⟩ => ⟨S4096x64, .f32⟩
  | .local _ .vmem, ⟨1, _⟩ => ⟨S1x512x4096, .f32⟩
  | .local _ .vmem, ⟨2, _⟩ => ⟨S1x512x4096, .f32⟩
  | .local _ .vmem, ⟨3, _⟩ => ⟨S64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S4096x64, .f32⟩
  | .local _ .vmem, ⟨9, _⟩ => ⟨S64x4096, .f32⟩
  | .local _ .vmem, ⟨10, _⟩ => ⟨S4096x128, .bf16⟩
  | .local _ .vmem, ⟨11, _⟩ => ⟨S72x4096, .bf16⟩
  | .local _ .vmem, ⟨12, _⟩ => ⟨S72x4096, .f32⟩
  | .local _ .vmem, ⟨13, _⟩ => ⟨S512x4096, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg1 : BitVec 32 := BitVec.ofNat 32 (i 1).val
  let c512_i32 : BitVec 32 := 512#32
  let v22 : BitVec 32 := Scalar.muli arg1 c512_i32
  let v23 : Index := Scalar.indexCast v22
  let c0_14 : Index := 0#32
  ![v23.toNat, 0]
def k0_off2 (i : grid0.Coords) : Fin 2 → Nat :=
  let c0_19 : Index := 0#32
  let arg1 : BitVec 32 := BitVec.ofNat 32 (i 1).val
  let c512_i32_18 : BitVec 32 := 512#32
  let v33 : BitVec 32 := Scalar.muli arg1 c512_i32_18
  let v34 : Index := Scalar.indexCast v33
  ![0, v34.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  iota_S4096x64_d1_w32 : S4096x64.Iotas .tc 32 [1]
  bitsLt_bf16_f32 : FTy.bits .bf16 < FTy.bits .f32
  inb_S4096x128_S4096x64_0_64 : ∀ a, (![0, 64] : Fin 2 → Nat) a + S4096x64.size a ≤ S4096x128.size a
  shapeCasts_S4096x64_S4096x64 : S4096x64.ShapeCasts S4096x64
  packedbf16_S4096x128_S4096x64_0_64 : (Rect.unit (s := S4096x128) ![0, 64] S4096x64.size inb_S4096x128_S4096x64_0_64).PackedRows (EltTy.packing .bf16)
  iota_S8x4096_d0_w32 : S8x4096.Iotas .tc 32 [0]
  inb_S72x4096_S8x4096_64_0 : ∀ a, (![64, 0] : Fin 2 → Nat) a + S8x4096.size a ≤ S72x4096.size a
  h_S8x4096 : 0 < S8x4096.numel
  shapeCasts_S8x4096_S8x4096 : S8x4096.ShapeCasts S8x4096
  packedbf16_S72x4096_S8x4096_64_0 : (Rect.unit (s := S72x4096) ![64, 0] S8x4096.size inb_S72x4096_S8x4096_64_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S4096x128_S4096x64_0_0 : ∀ a, (![0, 0] : Fin 2 → Nat) a + S4096x64.size a ≤ S4096x128.size a
  packedbf16_S4096x128_S4096x64_0_0 : (Rect.unit (s := S4096x128) ![0, 0] S4096x64.size inb_S4096x128_S4096x64_0_0).PackedRows (EltTy.packing .bf16)
  inb_S72x4096_S64x4096_0_0 : ∀ a, (![0, 0] : Fin 2 → Nat) a + S64x4096.size a ≤ S72x4096.size a
  packedbf16_S72x4096_S64x4096_0_0 : (Rect.unit (s := S72x4096) ![0, 0] S64x4096.size inb_S72x4096_S64x4096_0_0).PackedRows (EltTy.packing .bf16)
  inb_S72x4096_S72x4096_0_0 : ∀ a, (![0, 0] : Fin 2 → Nat) a + S72x4096.size a ≤ S72x4096.size a
  h_S72x4096 : 0 < S72x4096.numel
  shapeCasts_S72x4096_S72x4096 : S72x4096.ShapeCasts S72x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S4096x128_S4096x128_0_0 : ∀ a, (![0, 0] : Fin 2 → Nat) a + S4096x128.size a ≤ S4096x128.size a
  h_S4096x128 : 0 < S4096x128.numel
  slices_S512x128_o0_64_S512x1 : S512x128.Slices ![0, 64] S512x1
  h_S512x64 : 0 < S512x64.numel
  shapeCasts_S512x64_S512x64 : S512x64.ShapeCasts S512x64
  slices_S512x128_o0_0_S512x64 : S512x128.Slices ![0, 0] S512x64
  broadcasts_S512x1_S512x64 : S512x1.Broadcasts S512x64
  h_S72x512 : 0 < S72x512.numel
  inb_S72x4096_S1x4096_64_0 : ∀ a, (![64, 0] : Fin 2 → Nat) a + S1x4096.size a ≤ S72x4096.size a
  h_S1x4096 : 0 < S1x4096.numel
  broadcasts_S1x4096_S64x4096 : S1x4096.Broadcasts S64x4096
  transposes_S64x4096_p1_0_S4096x64 : S64x4096.Transposes [1, 0] S4096x64
  dot_S4096x64_S64x64_S4096x64_1_0_0_1_n_n_wf : DotDims.WF S4096x64 S64x64 S4096x64 [1] [0] [0] [1] [] []
  dot_S64x64_S64x4096_S64x4096_0_0_1_1_n_n_wf : DotDims.WF S64x64 S64x4096 S64x4096 [0] [0] [1] [1] [] []
  dot_S512x4096_S4096x128_S512x128_1_0_0_1_n_n_wf : DotDims.WF S512x4096 S4096x128 S512x128 [1] [0] [0] [1] [] []
  dot_S72x512_S512x4096_S72x4096_1_0_0_1_n_n_wf : DotDims.WF S72x512 S512x4096 S72x4096 [1] [0] [0] [1] [] []
  hrank0 : 0 < grid0.rank
  k0_off1_inb : ∀ i : grid0.Coords, ∀ a, (k0_off1 i) a + S512x64.size a ≤ S4096x64.size a
  k0_off2_inb : ∀ i : grid0.Coords, ∀ a, (k0_off2 i) a + S72x512.size a ≤ S72x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S4x4096x4096.size a
  hwx0_1 : ∀ i : grid0.Coords, EltTy.bits .f32 = 32 ∨ (Rect.block (s := S4x4096x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S4x64x64.size a
  hwx0_3 : ∀ i : grid0.Coords, EltTy.bits .f32 = 32 ∨ (Rect.block (s := S4x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S4x64x64.size a
  hwx0_4 : ∀ i : grid0.Coords, EltTy.bits .f32 = 32 ∨ (Rect.block (s := S4x64x64) S1x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .f32 = 32 ∨ (Rect.block (s := S4096x64) S4096x64.size (cc0_transform_5 i) (hinb0_5 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S72x512_S512x4096_S72x4096_1_0_0_1_n_n : DotDims S72x512 S512x4096 S72x4096 where
  lhsContracting := [1]
  rhsContracting := [0]
  lhsNonContracting := [0]
  rhsNonContracting := [1]
  lhsBatch := []
  rhsBatch := []
  wf := dot_S72x512_S512x4096_S72x4096_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S4x4096x4096 : Shape := ⟨3, ![4, 4096, 4096]⟩
abbrev S64x64 : Shape := ⟨2, ![64, 64]⟩
abbrev S4x64x64 : Shape := ⟨3, ![4, 64, 64]⟩
abbrev S1x4096x4096 : Shape := ⟨3, ![1, 4096, 4096]⟩
abbrev S4096x4096 : Shape := ⟨2, ![4096, 4096]⟩
abbrev S1x64x64 : Shape := ⟨3, ![1, 64, 64]⟩
abbrev S_ : Shape := ⟨0, ![]⟩
abbrev S4096 : Shape := ⟨1, ![4096]⟩
abbrev S4096x1 : Shape := ⟨2, ![4096, 1]⟩

abbrev nBuf : Space → Nat
  | .hbm => 122
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4x4096x4096, .f32⟩
  | .hbm, ⟨2, _⟩ => ⟨S64x64, .f32⟩
  | .hbm, ⟨3, _⟩ => ⟨S4x64x64, .f32⟩
  | .hbm, ⟨4, _⟩ => ⟨S4x64x64, .f32⟩
  | .hbm, ⟨5, _⟩ => ⟨S4096x64, .f32⟩
  | .hbm, ⟨6, _⟩ => ⟨S1x4096x4096, .f32⟩
  | .hbm, ⟨7, _⟩ => ⟨S4096x4096, .f32⟩
  | .hbm, ⟨8, _⟩ => ⟨S1x64x64, .f32⟩
  | .hbm, ⟨9, _⟩ => ⟨S64x64, .f32⟩
  | .hbm, ⟨10, _⟩ => ⟨S4096x64, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x64, .f32⟩
  | .hbm, ⟨20, _⟩ => ⟨S4096x64, .f32⟩
  | .hbm, ⟨21, _⟩ => ⟨S4096x4096, .f32⟩
  | .hbm, ⟨22, _⟩ => ⟨S1x64x64, .f32⟩
  | .hbm, ⟨23, _⟩ => ⟨S64x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x64, .f32⟩
  | .hbm, ⟨34, _⟩ => ⟨S4096x64, .f32⟩
  | .hbm, ⟨35, _⟩ => ⟨S1x4096x4096, .f32⟩
  | .hbm, ⟨36, _⟩ => ⟨S4096x4096, .f32⟩
  | .hbm, ⟨37, _⟩ => ⟨S1x64x64, .f32⟩
  | .hbm, ⟨38, _⟩ => ⟨S64x64, .f32⟩
  | .hbm, ⟨39, _⟩ => ⟨S4096x64, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x64, .f32⟩
  | .hbm, ⟨49, _⟩ => ⟨S4096x64, .f32⟩
  | .hbm, ⟨50, _⟩ => ⟨S4096x4096, .f32⟩
  | .hbm, ⟨51, _⟩ => ⟨S1x64x64, .f32⟩
  | .hbm, ⟨52, _⟩ => ⟨S64x64, .f32⟩
  | .hbm, ⟨53, _⟩ => ⟨S4096x64, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x4096, .f32⟩
  | .hbm, ⟨61, _⟩ => ⟨S4096x4096, .f32⟩
  | .hbm, ⟨62, _⟩ => ⟨S4096x64, .f32⟩
  | .hbm, ⟨63, _⟩ => ⟨S4096x64, .f32⟩
  | .hbm, ⟨64, _⟩ => ⟨S1x4096x4096, .f32⟩
  | .hbm, ⟨65, _⟩ => ⟨S4096x4096, .f32⟩
  | .hbm, ⟨66, _⟩ => ⟨S1x64x64, .f32⟩
  | .hbm, ⟨67, _⟩ => ⟨S64x64, .f32⟩
  | .hbm, ⟨68, _⟩ => ⟨S4096x64, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x4096, .f32⟩
  | .hbm, ⟨76, _⟩ => ⟨S4096x4096, .f32⟩
  | .hbm, ⟨77, _⟩ => ⟨S4096x64, .f32⟩
  | .hbm, ⟨78, _⟩ => ⟨S4096x64, .f32⟩
  | .hbm, ⟨79, _⟩ => ⟨S4096x4096, .f32⟩
  | .hbm, ⟨80, _⟩ => ⟨S1x64x64, .f32⟩
  | .hbm, ⟨81, _⟩ => ⟨S64x64, .f32⟩
  | .hbm, ⟨82, _⟩ => ⟨S4096x64, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x4096, .f32⟩
  | .hbm, ⟨90, _⟩ => ⟨S4096x4096, .f32⟩
  | .hbm, ⟨91, _⟩ => ⟨S4096x64, .f32⟩
  | .hbm, ⟨92, _⟩ => ⟨S4096x64, .f32⟩
  | .hbm, ⟨93, _⟩ => ⟨S1x4096x4096, .f32⟩
  | .hbm, ⟨94, _⟩ => ⟨S4096x4096, .f32⟩
  | .hbm, ⟨95, _⟩ => ⟨S1x64x64, .f32⟩
  | .hbm, ⟨96, _⟩ => ⟨S64x64, .f32⟩
  | .hbm, ⟨97, _⟩ => ⟨S4096x64, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S4096x4096, .f32⟩
  | .hbm, ⟨105, _⟩ => ⟨S4096x4096, .f32⟩
  | .hbm, ⟨106, _⟩ => ⟨S4096x64, .f32⟩
  | .hbm, ⟨107, _⟩ => ⟨S4096x64, .f32⟩
  | .hbm, ⟨108, _⟩ => ⟨S4096x4096, .f32⟩
  | .hbm, ⟨109, _⟩ => ⟨S1x64x64, .f32⟩
  | .hbm, ⟨110, _⟩ => ⟨S64x64, .f32⟩
  | .hbm, ⟨111, _⟩ => ⟨S4096x64, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S4096x4096, .f32⟩
  | .hbm, ⟨119, _⟩ => ⟨S4096x4096, .f32⟩
  | .hbm, ⟨120, _⟩ => ⟨S4096x64, .f32⟩
  | .hbm, ⟨121, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x64x64_S1x64x64_0_0_0 : S4x64x64.Slices ![0, 0, 0] S1x64x64
  shapeCasts_S1x64x64_S64x64 : S1x64x64.ShapeCasts S64x64
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  slices_S4x4096x4096_S1x4096x4096_1_0_0 : S4x4096x4096.Slices ![1, 0, 0] S1x4096x4096
  slices_S4x64x64_S1x64x64_1_0_0 : S4x64x64.Slices ![1, 0, 0] S1x64x64
  slices_S4x4096x4096_S1x4096x4096_2_0_0 : S4x4096x4096.Slices ![2, 0, 0] S1x4096x4096
  slices_S4x64x64_S1x64x64_2_0_0 : S4x64x64.Slices ![2, 0, 0] S1x64x64
  slices_S4x4096x4096_S1x4096x4096_3_0_0 : S4x4096x4096.Slices ![3, 0, 0] S1x4096x4096
  slices_S4x64x64_S1x64x64_3_0_0 : S4x64x64.Slices ![3, 0, 0] S1x64x64
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Cases.lean ====
/-
  What every case of the kernel body shares: the three branch conditions of the body read off the grid coordinates
  and decided over the 32 grid points (the grid is 4 relations by 8 row strips, point t = 8 r + i: the first branch
  is taken at t = 0 only, the second where i = 0, the third where i = 7), the staging memref of each window at a
  point, the five scratch operands as whole memrefs, and the region invariant with the scratch operands owned
  one by one.
-/
import proofs.«152055_g50646254354673_cont_8to1_c_444_7_alg».proof.Proof.Gen.Kernel.Frame
import proofs.«152055_g50646254354673_cont_8to1_c_444_7_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch (both coordinates zero): the output block, the transposed features and the two constant
    collector strips are initialised. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- The second branch (first row strip of a relation): the relation's two projections are recomputed and the
    transposed accumulator is zeroed. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The third branch (last row strip of a relation): the normalised transposed accumulator is added to the output. -/
abbrev cond2 (i : grid0.Coords) : Prop := (Scalar.cmpi .ne (Scalar.extui (Scalar.cmpi .eq (BitVec.ofNat 32 (i 1).val) 7#32)) 0#32) = 1#1
theorem hcond2 : ∀ t : Fin cfg0.N, cond2 (grid0.coords t) ↔ t.val % 8 = 7 :=
  (by decide +kernel : ∀ t : Fin grid0.N, cond2 (grid0.coords t) ↔ t.val % 8 = 7)

/-- Each window's current staging memref at point `t`, as the pipeline passes it to the body, and its wholeness. -/
abbrev ms0 (t : Fin cfg0.N) : Memref sig .tc .vmem S4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x64 .f32 := win0_5.stage (cfg0.slots t 5)
abbrev hs5 (t : Fin cfg0.N) : (ms5 t).IsWhole := hstage0_5 ((cfg0.slots t 5).cast nbuf0_5)

/-- The scratch operands: the transposed features, the augmented source projection, the augmented transposed
    reverse projection, the transposed accumulator, the quantised strip. -/
abbrev scXT : Memref sig .tc .vmem S64x4096 .f32 := Memref.whole cc0_scratch0
abbrev scHin : Memref sig .tc .vmem S4096x128 .bf16 := Memref.whole cc0_scratch1
abbrev scHout : Memref sig .tc .vmem S72x4096 .bf16 := Memref.whole cc0_scratch2
abbrev scAcc : Memref sig .tc .vmem S72x4096 .f32 := Memref.whole cc0_scratch3
abbrev scStrip : Memref sig .tc .vmem S512x4096 .bf16 := Memref.whole cc0_scratch4

/-- The region invariant as the launch hands it over: each scratch operand owned whole at some contents, and the
    generator register at some state. -/
theorem PhiA_eq (c : Dev nD) :
    (Pipeline.ΦA spec0 c : sProp 𝕄)
      = iprop(iprop((∃ d, owns (c : Thread nD τ) scXT fullShare d) ∗ (∃ d, owns (c : Thread nD τ) scHin fullShare d) ∗ (∃ d, owns (c : Thread nD τ) scHout fullShare d) ∗ (∃ d, owns (c : Thread nD τ) scAcc fullShare d) ∗ (∃ d, owns (c : Thread nD τ) scStrip fullShare d)) ∗ (∃ r, prngReg c r)) := by
  unfold Pipeline.ΦA; rw [scopedRest0_eq]; simp only [scXT, scHin, scHout, scAcc, scStrip, owns_whole]; try rfl

end Cert.Kernel.Body

end
-- ==== Proof.K.RunA.lean ====
/-
  The kernel body at the first grid point (the first and second branches taken): the output block is stored whole
  with the loop term, the features are transposed into their scratch, the constant collector column and row are
  written, the first relation's two projections are stored beside them, the accumulator is zeroed, and the first strip
  is processed. Every carried buffer starts at arbitrary contents (the body's first load of the output block reads a
  value it never uses) and ends covered by its stores.
-/
import proofs.«152055_g50646254354673_cont_8to1_c_444_7_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : cond0 i) (hc1 : cond1 i) (hc2 : ¬cond2 i)
    (x0 : Vec F S4096x64 .f32) (x1 : Vec F S1x512x4096 .f32) (x2 : Vec F S64x64 .f32) (x3 : Vec F S1x64x64 .f32) (x4 : Vec F S1x64x64 .f32) :
    Σ' (L5 : List (View.Piece (Elt F) S4096x64 .f32)), Σ' (LT : List (View.Piece (Elt F) S64x4096 .f32)), Σ' (LH : List (View.Piece (Elt F) S4096x128 .bf16)), Σ' (LG : List (View.Piece (Elt F) S72x4096 .bf16)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LT) ∗ (∃ f, arg9.view.loc (c : Thread nD τ) ↦[arg9.view.set]{fullShare} arg9.view.writes (Elt F) f LH) ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4

    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _, _; isplitr; swap; · iexact HS4
    ipureintro; rfl

end Cert.Kernel.Body

end
-- ==== Proof.K.RunB.lean ====
/-
  The kernel body at a grid point where no branch is taken (a row strip of a relation that is neither its first nor
  its last): the strip of the adjacency is quantised into its scratch, multiplied with the augmented source
  projection, the quotient by the clamped degree column added to the strip's 512 rows of the output block, and the
  product of the transposed reverse projection's 512 columns with the strip added to the transposed accumulator.
  The run is stated on whole memrefs holding named contents; what it leaves in the output block and in the
  accumulator are the piece lists the symbolic run finds.
-/
import proofs.«152055_g50646254354673_cont_8to1_c_444_7_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- No branch taken: the output block keeps the contents `xo` it came with except where the strip's store lands
    (`L5`), the accumulator is stored whole (`LA`), the other carried scratch operands are handed back as they came. -/
noncomputable def runB (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : ¬cond1 i) (hc2 : ¬cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo) L5) ∗ owns (c : Thread nD τ) arg8 fullShare xt ∗ owns (c : Thread nD τ) arg9 fullShare xh ∗ owns (c : Thread nD τ) arg10 fullShare xg ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]; · iexists _; iexact HS3
    iexists _, _; isplitr; swap; · iexact HS4
    ipureintro; rfl

end Cert.Kernel.Body

end
-- ==== Proof.K.RunC.lean ====
/-
  The kernel body at the last row strip of a relation (only the third branch taken): as at an inner strip, and then
  the transposed accumulator's first 64 rows are divided by its clamped 65th row (the column degrees), transposed,
  and added to the whole output block, which is stored whole. The pieces the output block ends with therefore cover
  it; the other carried scratch operands are handed back as they came.
-/
import proofs.«152055_g50646254354673_cont_8to1_c_444_7_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : ¬cond1 i) (hc2 : cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xt ∗ owns (c : Thread nD τ) arg9 fullShare xh ∗ owns (c : Thread nD τ) arg10 fullShare xg ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]; · iexists _; iexact HS3
    iexists _, _; isplitr; swap; · iexact HS4
    ipureintro; rfl

end Cert.Kernel.Body

end
-- ==== Proof.K.RunD.lean ====
/-
  The kernel body at the first row strip of a relation other than the first (only the second branch taken): the
  relation's source projection is stored into the first 64 columns of its augmented scratch and the transposed reverse
  projection into the first 64 rows of its own (the constant collector column and row stay as they are), the
  transposed accumulator is zeroed, and then the strip is processed as at an inner strip. The output block and the two
  augmented scratch operands keep their earlier contents off the stores; the accumulator ends covered.
-/
import proofs.«152055_g50646254354673_cont_8to1_c_444_7_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : cond1 i) (hc2 : ¬cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), Σ' (LH : List (View.Piece (Elt F) S4096x128 .bf16)), Σ' (LG : List (View.Piece (Elt F) S72x4096 .bf16)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo) L5) ∗ owns (c : Thread nD τ) arg8 fullShare xt ∗ (arg9.view.loc (c : Thread nD τ) ↦[arg9.view.set]{fullShare} arg9.view.writes (Elt F) (harg9.unread xh) LH) ∗ (arg10.view.loc (c : Thread nD τ) ↦[arg10.view.set]{fullShare} arg10.view.writes (Elt F) (harg10.unread xg) LG) ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]; · iexact HS1
    isplitl [HS2]; · iexact HS2
    isplitl [HS3]; · iexists _; iexact HS3
    iexists _, _; isplitr; swap; · iexact HS4
    ipureintro; rfl

end Cert.Kernel.Body

end
-- ==== Proof.K.State.lean ====
/-
  What the carried buffers hold after each grid point. The kernel carries five buffers from one grid point to the next:
  the output block (written back only after the last point), the transposed features, the augmented source
  projection, the augmented transposed reverse projection, and the transposed accumulator. For each of the four
  cases of the body the contents it leaves are read off the pieces its run found: over arbitrary prior contents
  where the pieces cover the buffer, over the contents the point before left where they do not (a 512-row strip of the
  output block; the first 64 columns, respectively rows, of the two augmented projections). The contents after point
  `n` are then defined by recursion on `n`, and the region invariant before a point owns the four scratch buffers at
  the contents the point before left.
-/
import proofs.«152055_g50646254354673_cont_8to1_c_444_7_alg».proof.Proof.K.RunA
import proofs.«152055_g50646254354673_cont_8to1_c_444_7_alg».proof.Proof.K.RunB
import proofs.«152055_g50646254354673_cont_8to1_c_444_7_alg».proof.Proof.K.RunC
import proofs.«152055_g50646254354673_cont_8to1_c_444_7_alg».proof.Proof.K.RunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The five carried buffers' contents: output block, transposed features, augmented source projection, augmented
    transposed reverse projection, transposed accumulator. -/
abbrev St (F : FTy → Type) [FloatOps F] : Type :=
  Vec F S4096x64 .f32 × Vec F S64x4096 .f32 × Vec F S4096x128 .bf16 × Vec F S72x4096 .bf16 × Vec F S72x4096 .f32

section cases
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec F S4096x64 .f32) (x1 : Vec F S1x512x4096 .f32) (x2 : Vec F S64x64 .f32) (x3 : Vec F S1x64x64 .f32) (x4 : Vec F S1x64x64 .f32)

/-! ## The first grid point: every buffer ends covered -/
section caseA
variable (hc0 : cond0 i) (hc1 : cond1 i) (hc2 : ¬cond2 i)

theorem coverA_O (y : S4096x64.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).1, y ∈ pc.1.set :=
  View.cover_of_tiledL _ S4096x64.size (by sl_kernel_rfl) y
theorem coverA_T (y : S64x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.1, y ∈ pc.1.set :=
  View.cover_of_tiledL _ S64x4096.size (by sl_kernel_rfl) y
theorem coverA_H (y : S4096x128.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.1, y ∈ pc.1.set :=
  View.cover_of_tiledL (s := S4096x128) _ S4096x64.size (by sl_kernel_rfl) y
theorem coverA_G (y : S72x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.1, y ∈ pc.1.set :=
  View.cover_of_tiledBy (s := S72x4096) _ S8x4096.size (by sl_kernel_rfl) y
theorem coverA_A (y : S72x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.2.1, y ∈ pc.1.set :=
  View.cover_of_tiledL _ S72x4096.size (by sl_kernel_rfl) y

/-- What the first grid point leaves. -/
def soutA : St F :=
  (arg7.view.read (Elt F) (arg7.view.writes (Elt F) arg7.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).1),
   arg8.view.read (Elt F) (arg8.view.writes (Elt F) arg8.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.1),
   arg9.view.read (Elt F) (arg9.view.writes (Elt F) arg9.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.1),
   arg10.view.read (Elt F) (arg10.view.writes (Elt F) arg10.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.1),
   arg11.view.read (Elt F) (arg11.view.writes (Elt F) arg11.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.2.1))
end caseA

variable (xo : Vec F S4096x64 .f32) (xt : Vec F S64x4096 .f32) (xh : Vec F S4096x128 .bf16) (xg : Vec F S72x4096 .bf16) (xa : Vec F S72x4096 .f32)

/-! ## An inner strip: a strip of the output block and the whole accumulator -/
section caseB
variable (hc0 : ¬cond0 i) (hc1 : ¬cond1 i) (hc2 : ¬cond2 i)

theorem coverB_A (y : S72x4096.Idx) : ∃ pc ∈ (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1, y ∈ pc.1.set :=
  View.cover_of_tiledL _ S72x4096.size (by sl_kernel_rfl) y

def soutB : St F :=
  (arg7.view.read (Elt F) (arg7.view.writes (Elt F) (harg7.unread xo) (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt, xh, xg,
   arg11.view.read (Elt F) (arg11.view.writes (Elt F) arg11.view.junk (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1))
end caseB

/-! ## The last strip of a relation: the output block and the accumulator end covered -/
section caseC
variable (hc0 : ¬cond0 i) (hc1 : ¬cond1 i) (hc2 : cond2 i)

theorem coverC_O (y : S4096x64.Idx) : ∃ pc ∈ (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1, y ∈ pc.1.set :=
  View.cover_of_tiledL _ S4096x64.size (by sl_kernel_rfl) y
theorem coverC_A (y : S72x4096.Idx) : ∃ pc ∈ (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1, y ∈ pc.1.set :=
  View.cover_of_tiledL _ S72x4096.size (by sl_kernel_rfl) y

def soutC : St F :=
  (arg7.view.read (Elt F) (arg7.view.writes (Elt F) arg7.view.junk (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt, xh, xg,
   arg11.view.read (Elt F) (arg11.view.writes (Elt F) arg11.view.junk (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1))
end caseC

/-! ## The first strip of a later relation: both projections renewed beside their constant strips -/
section caseD
variable (hc0 : ¬cond0 i) (hc1 : cond1 i) (hc2 : ¬cond2 i)

theorem coverD_A (y : S72x4096.Idx) : ∃ pc ∈ (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.2.1, y ∈ pc.1.set :=
  View.cover_of_tiledL _ S72x4096.size (by sl_kernel_rfl) y

def soutD : St F :=
  (arg7.view.read (Elt F) (arg7.view.writes (Elt F) (harg7.unread xo) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt,
   arg9.view.read (Elt F) (arg9.view.writes (Elt F) (harg9.unread xh) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1),
   arg10.view.read (Elt F) (arg10.view.writes (Elt F) (harg10.unread xg) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.1),
   arg11.view.read (Elt F) (arg11.view.writes (Elt F) arg11.view.junk (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.2.1))
end caseD

end cases

/-! ## Point by point -/

variable (m : (ℓ : Loc nD τ sig) → Buf (Elt F) ℓ)

theorem N32 : cfg0.N = 32 := N_0

/-- Only the first grid point takes the first branch. -/
theorem not_cond0 (t : Fin cfg0.N) (h : t.val ≠ 0) : ¬cond0 (grid0.coords t) := fun hc => by
  have h1 := (hcond0 t).mp hc
  have h2 : t.val < 32 := lt_of_lt_of_eq t.isLt N32
  omega

/-- THE CARRIED CONTENTS after the body at position `n`: at the first point what its case leaves; afterwards the
    case the position selects (first strip, last strip or inner strip of its relation) run on the point's input
    blocks over what the point before left. -/
def outsAt (c : Dev nD) : (n : ℕ) → n < cfg0.N → St F
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scXT (Memref.isWhole_whole _) scHin (Memref.isWhole_whole _) scHout (Memref.isWhole_whole _) scAcc (Memref.isWhole_whole _) scStrip (Memref.isWhole_whole _) (iblk m c 0 ⟨0, hn⟩) (iblk m c 1 ⟨0, hn⟩) (iblk m c 2 ⟨0, hn⟩) (iblk m c 3 ⟨0, hn⟩) (iblk m c 4 ⟨0, hn⟩) ((hcond0 ⟨0, hn⟩).mpr (Nat.zero_mod _)) ((hcond1 ⟨0, hn⟩).mpr (Nat.zero_mod _)) (fun h => by have := (hcond2 ⟨0, hn⟩).mp h; dsimp only at this; omega)
  | n + 1, hn =>
    if h1 : (n + 1) % 8 = 0 then
      soutD c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) ((hcond1 ⟨n + 1, hn⟩).mpr h1) (fun h => by have := (hcond2 ⟨n + 1, hn⟩).mp h; dsimp only at this; omega)
    else if h2 : (n + 1) % 8 = 7 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) (fun h => h1 ((hcond1 ⟨n + 1, hn⟩).mp h)) ((hcond2 ⟨n + 1, hn⟩).mpr h2)
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) (fun h => h1 ((hcond1 ⟨n + 1, hn⟩).mp h)) (fun h => h2 ((hcond2 ⟨n + 1, hn⟩).mp h))

/-- The region invariant before position `n`: before the first point the launch's (every scratch operand at some
    contents); afterwards the four carried scratch operands at what the point before left, the strip scratch at some
    contents, and the generator register at some state. -/
def PhiS (c : Dev nD) : (n : ℕ) → n ≤ cfg0.N → sProp 𝕄
  | 0, _ => Pipeline.ΦA spec0 c
  | n + 1, hn => iprop(iprop(owns (c : Thread nD τ) scXT fullShare ((outsAt m c n hn).2.1) ∗ owns (c : Thread nD τ) scHin fullShare ((outsAt m c n hn).2.2.1) ∗ owns (c : Thread nD τ) scHout fullShare ((outsAt m c n hn).2.2.2.1) ∗ owns (c : Thread nD τ) scAcc fullShare ((outsAt m c n hn).2.2.2.2) ∗ (∃ d, owns (c : Thread nD τ) scStrip fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scXT fullShare ((outsAt m c n hn).2.1) ∗ owns (c : Thread nD τ) scHin fullShare ((outsAt m c n hn).2.2.1) ∗ owns (c : Thread nD τ) scHout fullShare ((outsAt m c n hn).2.2.2.1) ∗ owns (c : Thread nD τ) scAcc fullShare ((outsAt m c n hn).2.2.2.2) ∗ (∃ d, owns (c : Thread nD τ) scStrip fullShare d)) ∗ (∃ r, prngReg c r)) := rfl

theorem PhiS_pos (c : Dev nD) (n : ℕ) (h : n ≤ cfg0.N) (hz : n ≠ 0) :
    PhiS m c n h = iprop(iprop(owns (c : Thread nD τ) scXT fullShare ((outsAt m c (n - 1) (by omega)).2.1) ∗ owns (c : Thread nD τ) scHin fullShare ((outsAt m c (n - 1) (by omega)).2.2.1) ∗ owns (c : Thread nD τ) scHout fullShare ((outsAt m c (n - 1) (by omega)).2.2.2.1) ∗ owns (c : Thread nD τ) scAcc fullShare ((outsAt m c (n - 1) (by omega)).2.2.2.2) ∗ (∃ d, owns (c : Thread nD τ) scStrip fullShare d)) ∗ (∃ r, prngReg c r)) := by
  cases n with
  | zero => exact absurd rfl hz
  | succ n => rfl

/-! ## The recursion's equations, at a grid point -/

theorem outsAt_A (c : Dev nD) (t : Fin cfg0.N) (hz : t.val = 0) (hc0 : cond0 (grid0.coords t)) (hc1 : cond1 (grid0.coords t)) (hc2 : ¬cond2 (grid0.coords t)) :
    outsAt m c t.val t.isLt = soutA c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) hc0 hc1 hc2 := by
  obtain ⟨n, hn⟩ := t
  cases n with
  | zero => rfl
  | succ n => exact absurd hz (Nat.succ_ne_zero n)

theorem outsAt_D (c : Dev nD) (t : Fin cfg0.N) (hz : t.val ≠ 0) (h1 : t.val % 8 = 0) (hc0 : ¬cond0 (grid0.coords t)) (hc1 : cond1 (grid0.coords t)) (hc2 : ¬cond2 (grid0.coords t)) :
    outsAt m c t.val t.isLt = soutD c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd rfl hz
  | succ n => exact (dif_pos h1).trans rfl

theorem outsAt_C (c : Dev nD) (t : Fin cfg0.N) (h1 : ¬t.val % 8 = 0) (h2 : t.val % 8 = 7) (hc0 : ¬cond0 (grid0.coords t)) (hc1 : ¬cond1 (grid0.coords t)) (hc2 : cond2 (grid0.coords t)) :
    outsAt m c t.val t.isLt = soutC c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd (Nat.zero_mod _) h1
  | succ n => exact (dif_neg h1).trans ((dif_pos h2).trans rfl)

theorem outsAt_B (c : Dev nD) (t : Fin cfg0.N) (h1 : ¬t.val % 8 = 0) (h2 : ¬t.val % 8 = 7) (hc0 : ¬cond0 (grid0.coords t)) (hc1 : ¬cond1 (grid0.coords t)) (hc2 : ¬cond2 (grid0.coords t)) :
    outsAt m c t.val t.isLt = soutB c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd (Nat.zero_mod _) h1
  | succ n => exact (dif_neg h1).trans ((dif_neg h2).trans rfl)

end Cert.Kernel.Body

end
-- ==== Proof.K.Frame.lean ====
/-
  The frame of the program: the proof data of its one pipeline, the body obligation at every grid point, and the run.
  After the body at point `t` each input window's buffer holds its block and the output window's buffer holds the
  carried output block; between points the output block is not written back (only after the last point), so before a
  later point its buffer holds what the point before left. The body obligation splits on the point's case; in each the
  case's run applies, the invariant handing the body the four carried scratch operands at what the point before left
  and taking them back at this point's contents.
-/
import proofs.«152055_g50646254354673_cont_8to1_c_444_7_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body at point `t` each input's buffer at its block
    and the output's at the carried output block; the invariant tracking the carried scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Before a later point the output window's buffer holds what the body left at the point before: the window is
    written back after the last point only, and is never idle nor cut. -/
theorem before5 (c : Dev nD) (t : Fin cfg0.N) (hz : t.val ≠ 0) (d) :
    (dats m 0 c).before 5 t d = (outsAt m c (t.val - 1) (Nat.lt_of_le_of_lt (Nat.sub_le _ _) t.isLt)).1 := by
  have hN : t.val < 32 := lt_of_lt_of_eq t.isLt N32
  rw [Dat.before_out_kept _ 5 rfl t hz (Bool.eq_false_iff.mpr fun h => by have := (flush0_5 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.succ = PhiS m c (t.val + 1) t.isLt from rfl, PhiS_succ]
  have hN : t.val < 32 := lt_of_lt_of_eq t.isLt N32
  by_cases hz : t.val = 0
  · -- the first grid point
    rw [outsAt_A m c t hz ((hcond0 t).mpr (by omega)) ((hcond1 t).mpr (by omega)) (fun h => by have := (hcond2 t).mp h; omega)]
    unfold soutA; dsimp only
    rw [PhiS_castSucc m c t, PhiS_zero m c _ _ hz, PhiA_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
    iapply ((runA c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) ((hcond0 t).mpr (by omega)) ((hcond1 t).mpr (by omega)) (fun h => by have := (hcond2 t).mp h; omega) (iblk m c 0 t) (iblk m c 1 t) (iblk m c 2 t) (iblk m c 3 t) (iblk m c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%es0, HS0⟩, ⟨%es1, HS1⟩, ⟨%es2, HS2⟩, ⟨%es3, HS3⟩, HS4⟩
    isplitl [HS0 HS1 HS2 HS3 HS4 Hg]
    · isplitl [HS0 HS1 HS2 HS3 HS4]
      · isplitl [HS0]
        · unfold owns; iexists _; isplitr; swap; · iexact HS0
          ipureintro; exact View.read_writes_of_cover _ _ _ _ _ (coverA_T _ _ _ _ _ _ _ _ _ _ _ _ _ _ _ _ _ _ _ _ _ _ _ _ _ _ _ _ _ _ _ _)
        isplitl [HS1]
        · unfold owns; iexists _; isplitr; swap; · iexact HS1
          ipureintro; exact View.read_writes_of_cover _ _ _ _ _ (coverA_H _ _ _ _ _ _ _ _ _ _ _ _ _ _ _ _ _ _ _ _ _ _ _ _ _ _ _ _ _ _ _ _)
        isplitl [HS2]
        · unfold owns; iexists _; isplitr; swap; · iexact HS2
          ipureintro; exact View.read_writes_of_cover _ _ _ _ _ (coverA_G _ _ _ _ _ _ _ _ _ _ _ _ _ _ _ _ _ _ _ _ _ _ _ _ _ _ _ _ _ _ _ _)
        isplitl [HS3]
        · unfold owns; iexists _; isplitr; swap; · iexact HS3
          ipureintro; exact View.read_writes_of_cover _ _ _ _ _ (coverA_A _ _ _ _ _ _ _ _ _ _ _ _ _ _ _ _ _ _ _ _ _ _ _ _ _ _ _ _ _ _ _ _)
        iexact HS4
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr; swap; · iexact H5
    ipureintro; exact View.read_writes_of_cover _ _ _ _ _ (coverA_O _ _ _ _ _ _ _ _ _ _ _ _ _ _ _ _ _ _ _ _ _ _ _ _ _ _ _ _ _ _ _ _)
  · simp only [before5 m c t hz]
    rw [PhiS_castSucc m c t, PhiS_pos m c _ _ hz]
    by_cases h1 : t.val % 8 = 0
    · -- the first strip of a later relation
      rw [outsAt_D m c t hz h1 (not_cond0 t hz) ((hcond1 t).mpr h1) (fun h => by have := (hcond2 t).mp h; omega)]
      unfold soutD; dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runD c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) ((hcond1 t).mpr h1) (fun h => by have := (hcond2 t).mp h; omega) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, ⟨%es3, HS3⟩, HS4⟩
      isplitl [HS0 HS1 HS2 HS3 HS4 Hg]
      · isplitl [HS0 HS1 HS2 HS3 HS4]
        · isplitl [HS0]
          · iexact HS0
          isplitl [HS1]
          · unfold owns; iexists _; isplitr; swap; · iexact HS1
            ipureintro; rfl
          isplitl [HS2]
          · unfold owns; iexists _; isplitr; swap; · iexact HS2
            ipureintro; rfl
          isplitl [HS3]
          · unfold owns; iexists _; isplitr; swap; · iexact HS3
            ipureintro; exact View.read_writes_of_cover _ _ _ _ _ (coverD_A _ _ _ _ _ _ _ _ _ _ _ _ _ _ _ _ _ _ _ _ _ _ _ _ _ _ _ _ _ _ _ _ _ _ _ _ _)
          iexact HS4
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; · iexact H5
      ipureintro; rfl
    · by_cases h2 : t.val % 8 = 7
      · -- the last strip of a relation
        rw [outsAt_C m c t h1 h2 (not_cond0 t hz) (fun h => h1 ((hcond1 t).mp h)) ((hcond2 t).mpr h2)]
        unfold soutC; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) (fun h => h1 ((hcond1 t).mp h)) ((hcond2 t).mpr h2) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        iintro ⟨H0, H1, H2, H3, H4, ⟨%e5, H5⟩, HS0, HS1, HS2, ⟨%es3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr; swap; · iexact HS3
              ipureintro; exact View.read_writes_of_cover _ _ _ _ _ (coverC_A _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr; swap; · iexact H5
        ipureintro; exact View.read_writes_of_cover _ _ _ _ _ (coverC_O _ _ _ _ _ _ _ _ _ _ _ _ _ _ _ _ _ _ _ _ _ _ _ _ _ _ _ _ _ _ _ _ _ _ _ _ _)
      · -- an inner strip
        rw [outsAt_B m c t h1 h2 (not_cond0 t hz) (fun h => h1 ((hcond1 t).mp h)) (fun h => h2 ((hcond2 t).mp h))]
        unfold soutB; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) (fun h => h1 ((hcond1 t).mp h)) (fun h => h2 ((hcond2 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        iintro ⟨H0, H1, H2, H3, H4, H5, HS0, HS1, HS2, ⟨%es3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr; swap; · iexact HS3
              ipureintro; exact View.read_writes_of_cover _ _ _ _ _ (coverB_A _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr; swap; · iexact H5
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 32 := N32; omega)

set_option backward.isDefEq.respectTransparency.types false in
/-- Every weakly fair execution of @main terminates, and every final state has each array of the pipeline at what
    the proof data gives — an input its entry contents, the output those overwritten by the carried output block at
    the one write-back — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Cases.lean ====
/-
  What every case of the kernel body shares: the three branch conditions of the body read off the grid coordinates
  and decided over the 32 grid points (the grid is 4 relations by 8 row strips, point t = 8 r + i: the first branch
  is taken at t = 0 only, the second where i = 0, the third where i = 7), the staging memref of each window at a
  point, the five scratch operands as whole memrefs, and the region invariant with the scratch operands owned
  one by one.
-/
import proofs.«152055_g50646254354673_cont_8to1_c_444_7_alg».proof.Proof.Gen.KernelIdeal.Frame
import proofs.«152055_g50646254354673_cont_8to1_c_444_7_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch (both coordinates zero): the output block, the transposed features and the two constant
    collector strips are initialised. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- The second branch (first row strip of a relation): the relation's two projections are recomputed and the
    transposed accumulator is zeroed. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The third branch (last row strip of a relation): the normalised transposed accumulator is added to the output. -/
abbrev cond2 (i : grid0.Coords) : Prop := (Scalar.cmpi .ne (Scalar.extui (Scalar.cmpi .eq (BitVec.ofNat 32 (i 1).val) 7#32)) 0#32) = 1#1
theorem hcond2 : ∀ t : Fin cfg0.N, cond2 (grid0.coords t) ↔ t.val % 8 = 7 :=
  (by decide +kernel : ∀ t : Fin grid0.N, cond2 (grid0.coords t) ↔ t.val % 8 = 7)

/-- Each window's current staging memref at point `t`, as the pipeline passes it to the body, and its wholeness. -/
abbrev ms0 (t : Fin cfg0.N) : Memref sig .tc .vmem S4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x64 .f32 := win0_5.stage (cfg0.slots t 5)
abbrev hs5 (t : Fin cfg0.N) : (ms5 t).IsWhole := hstage0_5 ((cfg0.slots t 5).cast nbuf0_5)

/-- The scratch operands: the transposed features, the augmented source projection, the augmented transposed
    reverse projection, the transposed accumulator, the quantised strip. -/
abbrev scXT : Memref sig .tc .vmem S64x4096 .f32 := Memref.whole cc0_scratch0
abbrev scHin : Memref sig .tc .vmem S4096x128 .bf16 := Memref.whole cc0_scratch1
abbrev scHout : Memref sig .tc .vmem S72x4096 .bf16 := Memref.whole cc0_scratch2
abbrev scAcc : Memref sig .tc .vmem S72x4096 .f32 := Memref.whole cc0_scratch3
abbrev scStrip : Memref sig .tc .vmem S512x4096 .bf16 := Memref.whole cc0_scratch4

/-- The region invariant as the launch hands it over: each scratch operand owned whole at some contents, and the
    generator register at some state. -/
theorem PhiA_eq (c : Dev nD) :
    (Pipeline.ΦA spec0 c : sProp 𝕄)
      = iprop(iprop((∃ d, owns (c : Thread nD τ) scXT fullShare d) ∗ (∃ d, owns (c : Thread nD τ) scHin fullShare d) ∗ (∃ d, owns (c : Thread nD τ) scHout fullShare d) ∗ (∃ d, owns (c : Thread nD τ) scAcc fullShare d) ∗ (∃ d, owns (c : Thread nD τ) scStrip fullShare d)) ∗ (∃ r, prngReg c r)) := by
  unfold Pipeline.ΦA; rw [scopedRest0_eq]; simp only [scXT, scHin, scHout, scAcc, scStrip, owns_whole]; try rfl

end Cert.KernelIdeal.Body

end
-- ==== Proof.KI.RunA.lean ====
/-
  The kernel body at the first grid point (the first and second branches taken): the output block is stored whole
  with the loop term, the features are transposed into their scratch, the constant collector column and row are
  written, the first relation's two projections are stored beside them, the accumulator is zeroed, and the first strip
  is processed. Every carried buffer starts at arbitrary contents (the body's first load of the output block reads a
  value it never uses) and ends covered by its stores.
-/
import proofs.«152055_g50646254354673_cont_8to1_c_444_7_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : cond0 i) (hc1 : cond1 i) (hc2 : ¬cond2 i)
    (x0 : Vec F S4096x64 .f32) (x1 : Vec F S1x512x4096 .f32) (x2 : Vec F S64x64 .f32) (x3 : Vec F S1x64x64 .f32) (x4 : Vec F S1x64x64 .f32) :
    Σ' (L5 : List (View.Piece (Elt F) S4096x64 .f32)), Σ' (LT : List (View.Piece (Elt F) S64x4096 .f32)), Σ' (LH : List (View.Piece (Elt F) S4096x128 .bf16)), Σ' (LG : List (View.Piece (Elt F) S72x4096 .bf16)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LT) ∗ (∃ f, arg9.view.loc (c : Thread nD τ) ↦[arg9.view.set]{fullShare} arg9.view.writes (Elt F) f LH) ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4

    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _, _; isplitr; swap; · iexact HS4
    ipureintro; rfl

end Cert.KernelIdeal.Body

end
-- ==== Proof.KI.RunB.lean ====
/-
  The kernel body at a grid point where no branch is taken (a row strip of a relation that is neither its first nor
  its last): the strip of the adjacency is quantised into its scratch, multiplied with the augmented source
  projection, the quotient by the clamped degree column added to the strip's 512 rows of the output block, and the
  product of the transposed reverse projection's 512 columns with the strip added to the transposed accumulator.
  The run is stated on whole memrefs holding named contents; what it leaves in the output block and in the
  accumulator are the piece lists the symbolic run finds.
-/
import proofs.«152055_g50646254354673_cont_8to1_c_444_7_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- No branch taken: the output block keeps the contents `xo` it came with except where the strip's store lands
    (`L5`), the accumulator is stored whole (`LA`), the other carried scratch operands are handed back as they came. -/
noncomputable def runB (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : ¬cond1 i) (hc2 : ¬cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo) L5) ∗ owns (c : Thread nD τ) arg8 fullShare xt ∗ owns (c : Thread nD τ) arg9 fullShare xh ∗ owns (c : Thread nD τ) arg10 fullShare xg ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]; · iexists _; iexact HS3
    iexists _, _; isplitr; swap; · iexact HS4
    ipureintro; rfl

end Cert.KernelIdeal.Body

end
-- ==== Proof.KI.RunC.lean ====
/-
  The kernel body at the last row strip of a relation (only the third branch taken): as at an inner strip, and then
  the transposed accumulator's first 64 rows are divided by its clamped 65th row (the column degrees), transposed,
  and added to the whole output block, which is stored whole. The pieces the output block ends with therefore cover
  it; the other carried scratch operands are handed back as they came.
-/
import proofs.«152055_g50646254354673_cont_8to1_c_444_7_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : ¬cond1 i) (hc2 : cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xt ∗ owns (c : Thread nD τ) arg9 fullShare xh ∗ owns (c : Thread nD τ) arg10 fullShare xg ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]; · iexists _; iexact HS3
    iexists _, _; isplitr; swap; · iexact HS4
    ipureintro; rfl

end Cert.KernelIdeal.Body

end
-- ==== Proof.KI.RunD.lean ====
/-
  The kernel body at the first row strip of a relation other than the first (only the second branch taken): the
  relation's source projection is stored into the first 64 columns of its augmented scratch and the transposed reverse
  projection into the first 64 rows of its own (the constant collector column and row stay as they are), the
  transposed accumulator is zeroed, and then the strip is processed as at an inner strip. The output block and the two
  augmented scratch operands keep their earlier contents off the stores; the accumulator ends covered.
-/
import proofs.«152055_g50646254354673_cont_8to1_c_444_7_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole) (hc0 : ¬cond0 i) (hc1 : cond1 i) (hc2 : ¬cond2 i)
    (x0 : Vec F S4096x64 .f32) (x1 : Vec F S1x512x4096 .f32) (x2 : Vec F S64x64 .f32) (x3 : Vec F S1x64x64 .f32) (x4 : Vec F S1x64x64 .f32) (xo : Vec F S4096x64 .f32) (xt : Vec F S64x4096 .f32) (xh : Vec F S4096x128 .bf16) (xg : Vec F S72x4096 .bf16) (xa : Vec F S72x4096 .f32) :
    Σ' (L5 : List (View.Piece (Elt F) S4096x64 .f32)), Σ' (LH : List (View.Piece (Elt F) S4096x128 .bf16)), Σ' (LG : List (View.Piece (Elt F) S72x4096 .bf16)), { LA : List (View.Piece (Elt F) S72x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xt ∗ owns (c : Thread nD τ) arg9 fullShare xh ∗ owns (c : Thread nD τ) arg10 fullShare xg ∗ owns (c : Thread nD τ) arg11 fullShare xa ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xo) L5) ∗ owns (c : Thread nD τ) arg8 fullShare xt ∗ (arg9.view.loc (c : Thread nD τ) ↦[arg9.view.set]{fullShare} arg9.view.writes (Elt F) (harg9.unread xh) LH) ∗ (arg10.view.loc (c : Thread nD τ) ↦[arg10.view.set]{fullShare} arg10.view.writes (Elt F) (harg10.unread xg) LG) ∗ (∃ f, arg11.view.loc (c : Thread nD τ) ↦[arg11.view.set]{fullShare} arg11.view.writes (Elt F) f LA) ∗ (∃ d, owns (c : Thread nD τ) arg12 fullShare d)) -∗ K ⟨⟩))
          ⊢ wp frame (wpE (defs₀ (F := F)) Variants.none c none) E (cc0__rgcn_body i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__rgcn_body_eq_skeleton]; unfold cc0__rgcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [HS0]
    · iexists _; isplitr; · ipureintro; exact harg8.read_unread _
      iexact HS0
    isplitl [HS1]; · iexact HS1
    isplitl [HS2]; · iexact HS2
    isplitl [HS3]; · iexists _; iexact HS3
    iexists _, _; isplitr; swap; · iexact HS4
    ipureintro; rfl

end Cert.KernelIdeal.Body

end
-- ==== Proof.KI.State.lean ====
/-
  What the carried buffers hold after each grid point. The kernel carries five buffers from one grid point to the next:
  the output block (written back only after the last point), the transposed features, the augmented source
  projection, the augmented transposed reverse projection, and the transposed accumulator. For each of the four
  cases of the body the contents it leaves are read off the pieces its run found: over arbitrary prior contents
  where the pieces cover the buffer, over the contents the point before left where they do not (a 512-row strip of the
  output block; the first 64 columns, respectively rows, of the two augmented projections). The contents after point
  `n` are then defined by recursion on `n`, and the region invariant before a point owns the four scratch buffers at
  the contents the point before left.
-/
import proofs.«152055_g50646254354673_cont_8to1_c_444_7_alg».proof.Proof.KI.RunA
import proofs.«152055_g50646254354673_cont_8to1_c_444_7_alg».proof.Proof.KI.RunB
import proofs.«152055_g50646254354673_cont_8to1_c_444_7_alg».proof.Proof.KI.RunC
import proofs.«152055_g50646254354673_cont_8to1_c_444_7_alg».proof.Proof.KI.RunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The five carried buffers' contents: output block, transposed features, augmented source projection, augmented
    transposed reverse projection, transposed accumulator. -/
abbrev St (F : FTy → Type) [FloatOps F] : Type :=
  Vec F S4096x64 .f32 × Vec F S64x4096 .f32 × Vec F S4096x128 .bf16 × Vec F S72x4096 .bf16 × Vec F S72x4096 .f32

section cases
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec F S4096x64 .f32) (x1 : Vec F S1x512x4096 .f32) (x2 : Vec F S64x64 .f32) (x3 : Vec F S1x64x64 .f32) (x4 : Vec F S1x64x64 .f32)

/-! ## The first grid point: every buffer ends covered -/
section caseA
variable (hc0 : cond0 i) (hc1 : cond1 i) (hc2 : ¬cond2 i)

theorem coverA_O (y : S4096x64.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).1, y ∈ pc.1.set :=
  View.cover_of_tiledL _ S4096x64.size (by sl_kernel_rfl) y
theorem coverA_T (y : S64x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.1, y ∈ pc.1.set :=
  View.cover_of_tiledL _ S64x4096.size (by sl_kernel_rfl) y
theorem coverA_H (y : S4096x128.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.1, y ∈ pc.1.set :=
  View.cover_of_tiledL (s := S4096x128) _ S4096x64.size (by sl_kernel_rfl) y
theorem coverA_G (y : S72x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.1, y ∈ pc.1.set :=
  View.cover_of_tiledBy (s := S72x4096) _ S8x4096.size (by sl_kernel_rfl) y
theorem coverA_A (y : S72x4096.Idx) : ∃ pc ∈ (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.2.1, y ∈ pc.1.set :=
  View.cover_of_tiledL _ S72x4096.size (by sl_kernel_rfl) y

/-- What the first grid point leaves. -/
def soutA : St F :=
  (arg7.view.read (Elt F) (arg7.view.writes (Elt F) arg7.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).1),
   arg8.view.read (Elt F) (arg8.view.writes (Elt F) arg8.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.1),
   arg9.view.read (Elt F) (arg9.view.writes (Elt F) arg9.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.1),
   arg10.view.read (Elt F) (arg10.view.writes (Elt F) arg10.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.1),
   arg11.view.read (Elt F) (arg11.view.writes (Elt F) arg11.view.junk (runA c i arg2 harg2 arg3 harg3 arg4 harg4 arg5 harg5 arg6 harg6 arg7 harg7 arg8 harg8 arg9 harg9 arg10 harg10 arg11 harg11 arg12 harg12 hc0 hc1 hc2 x0 x1 x2 x3 x4).2.2.2.2.1))
end caseA

variable (xo : Vec F S4096x64 .f32) (xt : Vec F S64x4096 .f32) (xh : Vec F S4096x128 .bf16) (xg : Vec F S72x4096 .bf16) (xa : Vec F S72x4096 .f32)

/-! ## An inner strip: a strip of the output block and the whole accumulator -/
section caseB
variable (hc0 : ¬cond0 i) (hc1 : ¬cond1 i) (hc2 : ¬cond2 i)

theorem coverB_A (y : S72x4096.Idx) : ∃ pc ∈ (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1, y ∈ pc.1.set :=
  View.cover_of_tiledL _ S72x4096.size (by sl_kernel_rfl) y

def soutB : St F :=
  (arg7.view.read (Elt F) (arg7.view.writes (Elt F) (harg7.unread xo) (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt, xh, xg,
   arg11.view.read (Elt F) (arg11.view.writes (Elt F) arg11.view.junk (runB c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1))
end caseB

/-! ## The last strip of a relation: the output block and the accumulator end covered -/
section caseC
variable (hc0 : ¬cond0 i) (hc1 : ¬cond1 i) (hc2 : cond2 i)

theorem coverC_O (y : S4096x64.Idx) : ∃ pc ∈ (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1, y ∈ pc.1.set :=
  View.cover_of_tiledL _ S4096x64.size (by sl_kernel_rfl) y
theorem coverC_A (y : S72x4096.Idx) : ∃ pc ∈ (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1, y ∈ pc.1.set :=
  View.cover_of_tiledL _ S72x4096.size (by sl_kernel_rfl) y

def soutC : St F :=
  (arg7.view.read (Elt F) (arg7.view.writes (Elt F) arg7.view.junk (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt, xh, xg,
   arg11.view.read (Elt F) (arg11.view.writes (Elt F) arg11.view.junk (runC c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1))
end caseC

/-! ## The first strip of a later relation: both projections renewed beside their constant strips -/
section caseD
variable (hc0 : ¬cond0 i) (hc1 : cond1 i) (hc2 : ¬cond2 i)

theorem coverD_A (y : S72x4096.Idx) : ∃ pc ∈ (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.2.1, y ∈ pc.1.set :=
  View.cover_of_tiledL _ S72x4096.size (by sl_kernel_rfl) y

def soutD : St F :=
  (arg7.view.read (Elt F) (arg7.view.writes (Elt F) (harg7.unread xo) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).1), xt,
   arg9.view.read (Elt F) (arg9.view.writes (Elt F) (harg9.unread xh) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.1),
   arg10.view.read (Elt F) (arg10.view.writes (Elt F) (harg10.unread xg) (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.1),
   arg11.view.read (Elt F) (arg11.view.writes (Elt F) arg11.view.junk (runD c i arg2 harg2 arg3 harg3 arg4 harg4 arg5 harg5 arg6 harg6 arg7 harg7 arg8 harg8 arg9 harg9 arg10 harg10 arg11 harg11 arg12 harg12 hc0 hc1 hc2 x0 x1 x2 x3 x4 xo xt xh xg xa).2.2.2.1))
end caseD

end cases

/-! ## Point by point -/

variable (m : (ℓ : Loc nD τ sig) → Buf (Elt F) ℓ)

theorem N32 : cfg0.N = 32 := N_0

/-- Only the first grid point takes the first branch. -/
theorem not_cond0 (t : Fin cfg0.N) (h : t.val ≠ 0) : ¬cond0 (grid0.coords t) := fun hc => by
  have h1 := (hcond0 t).mp hc
  have h2 : t.val < 32 := lt_of_lt_of_eq t.isLt N32
  omega

/-- THE CARRIED CONTENTS after the body at position `n`: at the first point what its case leaves; afterwards the
    case the position selects (first strip, last strip or inner strip of its relation) run on the point's input
    blocks over what the point before left. -/
def outsAt (c : Dev nD) : (n : ℕ) → n < cfg0.N → St F
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scXT (Memref.isWhole_whole _) scHin (Memref.isWhole_whole _) scHout (Memref.isWhole_whole _) scAcc (Memref.isWhole_whole _) scStrip (Memref.isWhole_whole _) (iblk m c 0 ⟨0, hn⟩) (iblk m c 1 ⟨0, hn⟩) (iblk m c 2 ⟨0, hn⟩) (iblk m c 3 ⟨0, hn⟩) (iblk m c 4 ⟨0, hn⟩) ((hcond0 ⟨0, hn⟩).mpr (Nat.zero_mod _)) ((hcond1 ⟨0, hn⟩).mpr (Nat.zero_mod _)) (fun h => by have := (hcond2 ⟨0, hn⟩).mp h; dsimp only at this; omega)
  | n + 1, hn =>
    if h1 : (n + 1) % 8 = 0 then
      soutD c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) ((hcond1 ⟨n + 1, hn⟩).mpr h1) (fun h => by have := (hcond2 ⟨n + 1, hn⟩).mp h; dsimp only at this; omega)
    else if h2 : (n + 1) % 8 = 7 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) (fun h => h1 ((hcond1 ⟨n + 1, hn⟩).mp h)) ((hcond2 ⟨n + 1, hn⟩).mpr h2)
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scXT (Memref.isWhole_whole _) scHin (Memref.isWhole_whole _) scHout (Memref.isWhole_whole _) scAcc (Memref.isWhole_whole _) scStrip (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2
        (not_cond0 ⟨n + 1, hn⟩ (Nat.succ_ne_zero n)) (fun h => h1 ((hcond1 ⟨n + 1, hn⟩).mp h)) (fun h => h2 ((hcond2 ⟨n + 1, hn⟩).mp h))

/-- The region invariant before position `n`: before the first point the launch's (every scratch operand at some
    contents); afterwards the four carried scratch operands at what the point before left, the strip scratch at some
    contents, and the generator register at some state. -/
def PhiS (c : Dev nD) : (n : ℕ) → n ≤ cfg0.N → sProp 𝕄
  | 0, _ => Pipeline.ΦA spec0 c
  | n + 1, hn => iprop(iprop(owns (c : Thread nD τ) scXT fullShare ((outsAt m c n hn).2.1) ∗ owns (c : Thread nD τ) scHin fullShare ((outsAt m c n hn).2.2.1) ∗ owns (c : Thread nD τ) scHout fullShare ((outsAt m c n hn).2.2.2.1) ∗ owns (c : Thread nD τ) scAcc fullShare ((outsAt m c n hn).2.2.2.2) ∗ (∃ d, owns (c : Thread nD τ) scStrip fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scXT fullShare ((outsAt m c n hn).2.1) ∗ owns (c : Thread nD τ) scHin fullShare ((outsAt m c n hn).2.2.1) ∗ owns (c : Thread nD τ) scHout fullShare ((outsAt m c n hn).2.2.2.1) ∗ owns (c : Thread nD τ) scAcc fullShare ((outsAt m c n hn).2.2.2.2) ∗ (∃ d, owns (c : Thread nD τ) scStrip fullShare d)) ∗ (∃ r, prngReg c r)) := rfl

theorem PhiS_pos (c : Dev nD) (n : ℕ) (h : n ≤ cfg0.N) (hz : n ≠ 0) :
    PhiS m c n h = iprop(iprop(owns (c : Thread nD τ) scXT fullShare ((outsAt m c (n - 1) (by omega)).2.1) ∗ owns (c : Thread nD τ) scHin fullShare ((outsAt m c (n - 1) (by omega)).2.2.1) ∗ owns (c : Thread nD τ) scHout fullShare ((outsAt m c (n - 1) (by omega)).2.2.2.1) ∗ owns (c : Thread nD τ) scAcc fullShare ((outsAt m c (n - 1) (by omega)).2.2.2.2) ∗ (∃ d, owns (c : Thread nD τ) scStrip fullShare d)) ∗ (∃ r, prngReg c r)) := by
  cases n with
  | zero => exact absurd rfl hz
  | succ n => rfl

/-! ## The recursion's equations, at a grid point -/

theorem outsAt_A (c : Dev nD) (t : Fin cfg0.N) (hz : t.val = 0) (hc0 : cond0 (grid0.coords t)) (hc1 : cond1 (grid0.coords t)) (hc2 : ¬cond2 (grid0.coords t)) :
    outsAt m c t.val t.isLt = soutA c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) hc0 hc1 hc2 := by
  obtain ⟨n, hn⟩ := t
  cases n with
  | zero => rfl
  | succ n => exact absurd hz (Nat.succ_ne_zero n)

theorem outsAt_D (c : Dev nD) (t : Fin cfg0.N) (hz : t.val ≠ 0) (h1 : t.val % 8 = 0) (hc0 : ¬cond0 (grid0.coords t)) (hc1 : cond1 (grid0.coords t)) (hc2 : ¬cond2 (grid0.coords t)) :
    outsAt m c t.val t.isLt = soutD c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd rfl hz
  | succ n => exact (dif_pos h1).trans rfl

theorem outsAt_C (c : Dev nD) (t : Fin cfg0.N) (h1 : ¬t.val % 8 = 0) (h2 : t.val % 8 = 7) (hc0 : ¬cond0 (grid0.coords t)) (hc1 : ¬cond1 (grid0.coords t)) (hc2 : cond2 (grid0.coords t)) :
    outsAt m c t.val t.isLt = soutC c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd (Nat.zero_mod _) h1
  | succ n => exact (dif_neg h1).trans ((dif_pos h2).trans rfl)

theorem outsAt_B (c : Dev nD) (t : Fin cfg0.N) (h1 : ¬t.val % 8 = 0) (h2 : ¬t.val % 8 = 7) (hc0 : ¬cond0 (grid0.coords t)) (hc1 : ¬cond1 (grid0.coords t)) (hc2 : ¬cond2 (grid0.coords t)) :
    outsAt m c t.val t.isLt = soutB c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 hc0 hc1 hc2 := by
  obtain ⟨n, hn⟩ := t
  cases n with
  | zero => exact absurd (Nat.zero_mod _) h1
  | succ n => exact (dif_neg h1).trans ((dif_neg h2).trans rfl)

end Cert.KernelIdeal.Body

end
-- ==== Proof.KI.Closed.lean ====
/-
  The carried contents each case leaves, in closed form over the body's payload terms: a buffer stored whole is the
  store's payload; a buffer stored through one rectangle is its earlier contents with the rectangle overwritten; the
  values the payloads are applied to are the named inputs and earlier contents read through the rectangles the body
  loads them through (a load through the whole-shape rectangle reads the contents themselves; the quantised strip
  read back after its store is its payload).
-/
import proofs.«152055_g50646254354673_cont_8to1_c_444_7_alg».proof.Proof.KI.State
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- The output block's rows the strip of grid coordinates `i` updates, and the columns of the augmented transposed
    projection it is multiplied with. -/
abbrev rowsOf (i : grid0.Coords) : Rect S4096x64 := Rect.unit (s := S4096x64) (k0_off1 i) S512x64.size (k0_off1_inb i)
abbrev colsOf (i : grid0.Coords) : Rect S72x4096 := Rect.unit (s := S72x4096) (k0_off2 i) S72x512.size (k0_off2_inb i)

/-- The sub-rectangles of the two augmented projections and of the accumulator the body stores and loads through. -/
abbrev rLeft : Rect S4096x128 := Rect.unit (s := S4096x128) ![0, 0] S4096x64.size inb_S4096x128_S4096x64_0_0
abbrev rRight : Rect S4096x128 := Rect.unit (s := S4096x128) ![0, 64] S4096x64.size inb_S4096x128_S4096x64_0_64
abbrev rTop : Rect S72x4096 := Rect.unit (s := S72x4096) ![0, 0] S64x4096.size inb_S72x4096_S64x4096_0_0
abbrev rBot : Rect S72x4096 := Rect.unit (s := S72x4096) ![64, 0] S8x4096.size inb_S72x4096_S8x4096_64_0
abbrev rDeg : Rect S72x4096 := Rect.unit (s := S72x4096) ![64, 0] S1x4096.size inb_S72x4096_S1x4096_64_0
abbrev rAll : Rect S4096x64 := Rect.unit (s := S4096x64) ![0, 0] S4096x64.size inb_S4096x64_S4096x64_0_0

section cases
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec F S4096x64 .f32) (x1 : Vec F S1x512x4096 .f32) (x2 : Vec F S64x64 .f32) (x3 : Vec F S1x64x64 .f32) (x4 : Vec F S1x64x64 .f32)
variable (xo : Vec F S4096x64 .f32) (xt : Vec F S64x4096 .f32) (xh : Vec F S4096x128 .bf16) (xg : Vec F S72x4096 .bf16) (xa : Vec F S72x4096 .f32)

/-! ## An inner strip -/
section caseB
variable (hc0 : ¬cond0 i) (hc1 : ¬cond1 i) (hc2 : ¬cond2 i)

theorem soutB_xt : (soutB c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.1 = xt := rfl
theorem soutB_hin : (soutB c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.1 = xh := rfl
theorem soutB_hout : (soutB c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.1 = xg := rfl

theorem soutB_acc : (soutB c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.2 = k0_pay1 xa (View.ld xg (colsOf i)) (k0_pay10 x1) := by
  unfold soutB; dsimp only
  unfold runB; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutB_out : (soutB c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).1 = arg7.view.read (Elt F) (arg7.view.writes (Elt F) (harg7.unread xo)
        [⟨rowsOf i, k0_pay11 (k0_pay10 x1) xh (View.ld xo (rowsOf i))⟩]) := by
  unfold soutB; dsimp only
  unfold runB; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]
end caseB

/-! ## The last strip of a relation -/
section caseC
variable (hc0 : ¬cond0 i) (hc1 : ¬cond1 i) (hc2 : cond2 i)

theorem soutC_xt : (soutC c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.1 = xt := rfl
theorem soutC_hin : (soutC c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.1 = xh := rfl
theorem soutC_hout : (soutC c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.1 = xg := rfl

theorem soutC_acc : (soutC c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.2 = k0_pay1 xa (View.ld xg (colsOf i)) (k0_pay10 x1) := by
  unfold soutC; dsimp only
  unfold runC; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutC_out : (soutC c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).1
    = k0_pay2 (View.ld (k0_pay1 xa (View.ld xg (colsOf i)) (k0_pay10 x1)) rDeg)
        (arg7.view.read (Elt F) (arg7.view.writes (Elt F) (harg7.unread xo)
        [⟨rowsOf i, k0_pay11 (k0_pay10 x1) xh (View.ld xo (rowsOf i))⟩]))
        (View.ld (k0_pay1 xa (View.ld xg (colsOf i)) (k0_pay10 x1)) rTop) := by
  unfold soutC; dsimp only
  unfold runC; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]
end caseC

/-! ## The first strip of a later relation -/
section caseD
variable (hc0 : ¬cond0 i) (hc1 : cond1 i) (hc2 : ¬cond2 i)

theorem soutD_xt : (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.1 = xt := rfl

theorem soutD_hin : (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.1
    = arg9.view.read (Elt F) (arg9.view.writes (Elt F) (harg9.unread xh) [⟨rLeft, k0_pay7 x0 x3⟩]) := by
  unfold soutD; dsimp only
  unfold runD; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutD_hout : (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.1
    = arg10.view.read (Elt F) (arg10.view.writes (Elt F) (harg10.unread xg) [⟨rTop, k0_pay8 x4 xt⟩]) := by
  unfold soutD; dsimp only
  unfold runD; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutD_acc : (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.2 = k0_pay1 k0_pay9 (View.ld (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.1 (colsOf i)) (k0_pay10 x1) := by
  rw [soutD_hout]
  unfold soutD; dsimp only
  unfold runD; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutD_out : (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).1 = arg7.view.read (Elt F) (arg7.view.writes (Elt F) (harg7.unread xo)
        [⟨rowsOf i, k0_pay11 (k0_pay10 x1) (soutD c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.1 (View.ld xo (rowsOf i))⟩]) := by
  rw [soutD_hin]
  unfold soutD; dsimp only
  unfold runD; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]
end caseD

end cases

/-! ## The first grid point -/
section caseA
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec F S4096x64 .f32) (x1 : Vec F S1x512x4096 .f32) (x2 : Vec F S64x64 .f32) (x3 : Vec F S1x64x64 .f32) (x4 : Vec F S1x64x64 .f32)
variable (hc0 : cond0 i) (hc1 : cond1 i) (hc2 : ¬cond2 i)

theorem soutA_xt : (soutA c i arg2 harg2 arg3 harg3 arg4 harg4 arg5 harg5 arg6 harg6 arg7 harg7 arg8 harg8 arg9 harg9 arg10 harg10 arg11 harg11 arg12 harg12 x0 x1 x2 x3 x4 hc0 hc1 hc2).2.1 = k0_pay4 x0 := by
  unfold soutA; dsimp only
  unfold runA; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutA_hin : (soutA c i arg2 harg2 arg3 harg3 arg4 harg4 arg5 harg5 arg6 harg6 arg7 harg7 arg8 harg8 arg9 harg9 arg10 harg10 arg11 harg11 arg12 harg12 x0 x1 x2 x3 x4 hc0 hc1 hc2).2.2.1 = View.canon [⟨rLeft, k0_pay7 x0 x3⟩, ⟨rRight, k0_pay5⟩] := by
  unfold soutA; dsimp only
  unfold runA; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutA_hout : (soutA c i arg2 harg2 arg3 harg3 arg4 harg4 arg5 harg5 arg6 harg6 arg7 harg7 arg8 harg8 arg9 harg9 arg10 harg10 arg11 harg11 arg12 harg12 x0 x1 x2 x3 x4 hc0 hc1 hc2).2.2.2.1 = View.canon [⟨rTop, k0_pay8 x4 (k0_pay4 x0)⟩, ⟨rBot, k0_pay6⟩] := by
  unfold soutA; dsimp only
  unfold runA; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutA_acc : (soutA c i arg2 harg2 arg3 harg3 arg4 harg4 arg5 harg5 arg6 harg6 arg7 harg7 arg8 harg8 arg9 harg9 arg10 harg10 arg11 harg11 arg12 harg12 x0 x1 x2 x3 x4 hc0 hc1 hc2).2.2.2.2 = k0_pay1 k0_pay9 (View.ld (soutA c i arg2 harg2 arg3 harg3 arg4 harg4 arg5 harg5 arg6 harg6 arg7 harg7 arg8 harg8 arg9 harg9 arg10 harg10 arg11 harg11 arg12 harg12 x0 x1 x2 x3 x4 hc0 hc1 hc2).2.2.2.1 (colsOf i)) (k0_pay10 x1) := by
  rw [soutA_hout]
  unfold soutA; dsimp only
  unfold runA; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]

theorem soutA_out : (soutA c i arg2 harg2 arg3 harg3 arg4 harg4 arg5 harg5 arg6 harg6 arg7 harg7 arg8 harg8 arg9 harg9 arg10 harg10 arg11 harg11 arg12 harg12 x0 x1 x2 x3 x4 hc0 hc1 hc2).1
    = View.canon [⟨rowsOf i, k0_pay11 (k0_pay10 x1) (soutA c i arg2 harg2 arg3 harg3 arg4 harg4 arg5 harg5 arg6 harg6 arg7 harg7 arg8 harg8 arg9 harg9 arg10 harg10 arg11 harg11 arg12 harg12 x0 x1 x2 x3 x4 hc0 hc1 hc2).2.2.1 (View.ld (k0_pay3 x0 x2) (rowsOf i))⟩, ⟨rAll, k0_pay3 x0 x2⟩] := by
  rw [soutA_hin]
  unfold soutA; dsimp only
  unfold runA; dsimp only
  sl_unfold_run_names
  simp only [View.readCov, View.readAt_eq_ld, View.read_writes_junk_eq_canon,
    harg2.read_unread, harg3.read_unread, harg4.read_unread, harg5.read_unread, harg6.read_unread, harg7.read_unread,
    harg8.read_unread, harg9.read_unread, harg10.read_unread, harg11.read_unread,
    View.ld_unit_zero (S := S72x4096) hz2, View.ld_unit_zero (S := S4096x128) hz2, View.ld_unit_zero (S := S4096x64) hz2, View.ld_unit_zero (S := S64x4096) hz2, View.ld_unit_zero (S := S64x64) hz2, View.ld_unit_zero (S := S512x4096) hz2,
    View.ld_unit_zero (S := S1x512x4096) hz3, View.ld_unit_zero (S := S1x64x64) hz3,
    View.canon_unit_zero (S := S72x4096) hz2, View.canon_unit_zero (S := S4096x128) hz2, View.canon_unit_zero (S := S4096x64) hz2, View.canon_unit_zero (S := S64x4096) hz2, View.canon_unit_zero (S := S64x64) hz2, View.canon_unit_zero (S := S512x4096) hz2,
    View.canon_cons_unit_zero (S := S72x4096) hz2, View.canon_cons_unit_zero (S := S4096x128) hz2, View.canon_cons_unit_zero (S := S4096x64) hz2, View.canon_cons_unit_zero (S := S64x4096) hz2, View.canon_cons_unit_zero (S := S64x64) hz2, View.canon_cons_unit_zero (S := S512x4096) hz2]
end caseA

end Cert.KernelIdeal.Body

end
-- ==== Proof.Spec.lean ====
/-
  The two sides of the claim as functions of the argument arrays, index by index, on the extended reals.

  The layer is  res = X·W_loop + Σ_r [ N(A_r)·(X·W_in_r) + N(A_rᵀ)·(X·W_out_r) ],  r over four relations, where N divides
  each row of its matrix by the row's sum clamped below by a small positive constant ε.

  The reference normalises first: entry (p, o) of a source term is  Σ_j (A_r(p,j) / max(d_r(p), ε)) · H_r(j,o)  with
  d_r(p) = Σ_j A_r(p,j) the row degree and H_r = X·W_in_r; the reverse term is the same over A_rᵀ (column degree) and
  X·W_out_r. The kernel normalises last: it forms  Σ_j A_r(p,j) · H_r(j,o)  and multiplies by  1 / max(d_r(p), ε), the
  degree itself a product with an all-ones column; for the reverse direction it works transposed, forming
  Σ_j Hᵀ(o,j) · A_r(j,p)  with Hᵀ = W_out_rᵀ·Xᵀ  and multiplying by  1 / max(c_r(p), ε).

  Both accumulate in the same order: the loop term, then for r = 0, 1, 2, 3 the source term and then the reverse term.
-/
import Idealize.ShloMosaic.PureOps.Ideal
import Idealize.ShloMosaic.Lib.ValueIdx

noncomputable section

namespace Cert.Spec

open Idealize.ShloMosaic Idealize.ShloMosaic.ValueIdx

/-- The shapes of the arguments: features (and the result), stacked adjacency, loop weight, stacked relation weights. -/
abbrev SX : Shape := ⟨2, ![4096, 64]⟩
abbrev SA : Shape := ⟨3, ![4, 4096, 4096]⟩
abbrev SW : Shape := ⟨2, ![64, 64]⟩
abbrev SR : Shape := ⟨3, ![4, 64, 64]⟩

/-- The clamp ε: the single-precision word both programs spell for `1e-12`. -/
def eps : EReal := Ideal.ofBits .f32 0x2B8CBCCC#32

/-- The relation a count of finished relations names (counts run 0 … 3). -/
def rel (n : ℕ) : Fin 4 := ⟨n % 4, Nat.mod_lt _ (by decide)⟩

section
variable (X : SX.Idx → EReal) (A : SA.Idx → EReal) (Wl : SW.Idx → EReal) (Win Wout : SR.Idx → EReal)

/-- The loop term X·W_loop. -/
def loopT (p : Fin 4096) (o : Fin 64) : EReal := ∑ d : Fin 64, X (ix2 p d) * Wl (ix2 d o)
/-- The source projection X·W_in_r. -/
def hIn (r : Fin 4) (j : Fin 4096) (o : Fin 64) : EReal := ∑ d : Fin 64, X (ix2 j d) * Win (ix3 r d o)
/-- The reverse projection X·W_out_r. -/
def hOut (r : Fin 4) (j : Fin 4096) (o : Fin 64) : EReal := ∑ d : Fin 64, X (ix2 j d) * Wout (ix3 r d o)
/-- The reverse projection as the kernel forms it, transposed: W_out_rᵀ·Xᵀ. -/
def hOutT (r : Fin 4) (o : Fin 64) (j : Fin 4096) : EReal := ∑ d : Fin 64, Wout (ix3 r d o) * X (ix2 j d)
/-- Row and column degrees of relation r's adjacency. -/
def rowDeg (r : Fin 4) (p : Fin 4096) : EReal := ∑ j : Fin 4096, A (ix3 r p j)
def colDeg (r : Fin 4) (p : Fin 4096) : EReal := ∑ j : Fin 4096, A (ix3 r j p)

/-- The reference's source and reverse terms: normalise, then propagate. -/
def srcRef (r : Fin 4) (p : Fin 4096) (o : Fin 64) : EReal :=
  ∑ j : Fin 4096, Ideal.div (A (ix3 r p j)) (max (rowDeg A r p) eps) * hIn X Win r j o
def revRef (r : Fin 4) (p : Fin 4096) (o : Fin 64) : EReal :=
  ∑ j : Fin 4096, Ideal.div (A (ix3 r j p)) (max (colDeg A r p) eps) * hOut X Wout r j o

/-- The kernel's source and reverse terms: propagate, then normalise. -/
def srcKer (r : Fin 4) (p : Fin 4096) (o : Fin 64) : EReal :=
  (∑ j : Fin 4096, A (ix3 r p j) * hIn X Win r j o) * Ideal.div 1 (max (rowDeg A r p) eps)
def revKer (r : Fin 4) (p : Fin 4096) (o : Fin 64) : EReal :=
  (∑ j : Fin 4096, hOutT X Wout r o j * A (ix3 r j p)) * Ideal.div 1 (max (colDeg A r p) eps)

/-- The reference's running result after `n` relations. -/
def accRef : ℕ → Fin 4096 → Fin 64 → EReal
  | 0 => loopT X Wl
  | n + 1 => fun p o => (accRef n p o + srcRef X A Win (rel n) p o) + revRef X A Wout (rel n) p o

/-- The kernel's running result after `n` relations. -/
def accKer : ℕ → Fin 4096 → Fin 64 → EReal
  | 0 => loopT X Wl
  | n + 1 => fun p o => (accKer n p o + srcKer X A Win (rel n) p o) + revKer X A Wout (rel n) p o

/-- The reference's result array. -/
def Gref (y : SX.Idx) : EReal := accRef X A Wl Win Wout 4 (y 0) (y 1)
/-- The kernel's result array. -/
def Gker (y : SX.Idx) : EReal := accKer X A Wl Win Wout 4 (y 0) (y 1)

end

end Cert.Spec

end
-- ==== Proof.SpecState.lean ====
/-
  What the kernel's five carried buffers hold after grid point `n` (relation n / 8, row strip n % 8), as functions of
  the argument arrays on the extended reals.

  The transposed features are Xᵀ throughout. Within relation r the augmented source projection holds X·W_in_r in its
  first 64 columns, ones in column 64 and zeros beyond; the augmented transposed reverse projection holds W_out_rᵀ·Xᵀ
  in its first 64 rows, ones in row 64 and zeros beyond. The transposed accumulator after strip i is the sum over the
  strips 0 … i of (512 columns of the augmented transposed projection) times (the strip of A_r), started from zero; after
  the last strip that is the whole product over all 4096 rows of A_r, whose row 64 is the column degree. The output
  block after strip i of relation r has the relation's source term added on the rows of strips 0 … i, and after the last
  strip also the reverse term on every row.
-/
import proofs.«152055_g50646254354673_cont_8to1_c_444_7_alg».proof.Proof.Spec
import Mathlib.Data.EReal.Basic
import Mathlib.Algebra.BigOperators.Fin
import Mathlib.Data.Fintype.BigOperators
import Mathlib.Logic.Equiv.Fin.Basic

noncomputable section

namespace Cert.Spec

open Idealize.ShloMosaic Idealize.ShloMosaic.ValueIdx

section
variable (X : SX.Idx → EReal) (A : SA.Idx → EReal) (Wl : SW.Idx → EReal) (Win Wout : SR.Idx → EReal)

/-- Row `j` of strip `i` of the adjacency. -/
def row (i : ℕ) (j : Fin 512) : Fin 4096 := ⟨(i % 8) * 512 + j.val, by have := j.isLt; have := Nat.mod_lt i (show 0 < 8 by decide); omega⟩

/-- The augmented source projection of relation `r`. -/
def augIn (r : Fin 4) (j : Fin 4096) (k : Fin 128) : EReal :=
  if h : k.val < 64 then hIn X Win r j ⟨k.val, h⟩ else if k.val = 64 then 1 else 0

/-- The augmented transposed reverse projection of relation `r`. -/
def augOutT (r : Fin 4) (k : Fin 72) (j : Fin 4096) : EReal :=
  if h : k.val < 64 then hOutT X Wout r ⟨k.val, h⟩ j else if k.val = 64 then 1 else 0

/-- The transposed accumulator of relation `r` after strips 0 … i. -/
def accT (r : Fin 4) : ℕ → Fin 72 → Fin 4096 → EReal
  | 0 => fun k q => 0 + ∑ j : Fin 512, augOutT X Wout r k (row 0 j) * A (ix3 r (row 0 j) q)
  | i + 1 => fun k q => accT r i k q + ∑ j : Fin 512, augOutT X Wout r k (row (i + 1) j) * A (ix3 r (row (i + 1) j) q)

/-- The output block after grid point `n`. -/
def outAt (n : ℕ) (p : Fin 4096) (o : Fin 64) : EReal :=
  if n % 8 = 7 then accKer X A Wl Win Wout (n / 8 + 1) p o
  else if p.val / 512 ≤ n % 8 then accKer X A Wl Win Wout (n / 8) p o + srcKer X A Win (rel (n / 8)) p o
  else accKer X A Wl Win Wout (n / 8) p o

/-- Eight strips of 512 rows are the 4096 rows: a sum over the rows, strip by strip. -/
theorem sum_strips (f : Fin 4096 → EReal) :
    (((((((((0 : EReal) + ∑ j : Fin 512, f (row 0 j)) + ∑ j : Fin 512, f (row 1 j)) + ∑ j : Fin 512, f (row 2 j))
      + ∑ j : Fin 512, f (row 3 j)) + ∑ j : Fin 512, f (row 4 j)) + ∑ j : Fin 512, f (row 5 j))
      + ∑ j : Fin 512, f (row 6 j)) + ∑ j : Fin 512, f (row 7 j)) = ∑ j : Fin 4096, f j := by
  -- Every row index is uniquely 512 * i + j with i < 8 and j < 512, so the sum over the rows is the
  -- double sum over the pairs (i, j).
  have h : (∑ i : Fin 8, ∑ j : Fin 512, f (row i.val j)) = ∑ j : Fin 4096, f j := by
    rw [← Fintype.sum_prod_type (fun x : Fin 8 × Fin 512 => f (row x.1.val x.2))]
    refine Fintype.sum_equiv (finProdFinEquiv : Fin 8 × Fin 512 ≃ Fin 4096) _ _ (fun x => ?_)
    congr 1
    apply Fin.ext
    have h8 := x.1.isLt
    simp only [row, finProdFinEquiv, Equiv.coe_fn_mk]
    omega
  -- The outer sum over the eight strips, written out, is the left-nested sum of the statement.
  rw [← h, Fin.sum_univ_eight, zero_add]
  rfl

/-- After the last strip the transposed accumulator is the whole product. -/
theorem accT_full (r : Fin 4) (k : Fin 72) (q : Fin 4096) :
    accT X A Wout r 7 k q = ∑ j : Fin 4096, augOutT X Wout r k j * A (ix3 r j q) := by
  -- Eight steps of the recursion give the strip-by-strip sum of the summand j ↦ augOutT k j * A_r(j, q).
  rw [← sum_strips (fun j => augOutT X Wout r k j * A (ix3 r j q))]
  rfl

/-- Its first 64 rows are the propagated transposed reverse projection, -/
theorem accT_full_lt (r : Fin 4) (o : Fin 64) (q : Fin 4096) :
    accT X A Wout r 7 ⟨o.val, by omega⟩ q = ∑ j : Fin 4096, hOutT X Wout r o j * A (ix3 r j q) := by
  rw [accT_full]
  refine Finset.sum_congr rfl (fun j _ => ?_)
  -- Row o < 64 of the augmented projection is row o of the projection itself.
  simp only [augOutT]
  rw [dif_pos o.isLt]

/-- and its row 64 the column degrees. -/
theorem accT_full_deg (r : Fin 4) (q : Fin 4096) :
    accT X A Wout r 7 ⟨64, by omega⟩ q = colDeg A r q := by
  rw [accT_full]
  unfold colDeg
  refine Finset.sum_congr rfl (fun j _ => ?_)
  -- Row 64 of the augmented projection is all ones.
  simp only [augOutT]
  rw [dif_neg (by decide), if_pos trivial, one_mul]

/-- The row degree as the propagated ones column of the augmented source projection. -/
theorem rowDeg_aug (r : Fin 4) (p : Fin 4096) :
    (∑ j : Fin 4096, A (ix3 r p j) * augIn X Win r j ⟨64, by omega⟩) = rowDeg A r p := by
  unfold rowDeg
  refine Finset.sum_congr rfl (fun j _ => ?_)
  -- Column 64 of the augmented projection is all ones.
  simp only [augIn]
  rw [dif_neg (by decide), if_pos trivial, mul_one]

/-- The propagated first 64 columns of the augmented source projection. -/
theorem prop_aug (r : Fin 4) (p : Fin 4096) (o : Fin 64) :
    (∑ j : Fin 4096, A (ix3 r p j) * augIn X Win r j ⟨o.val, by omega⟩) = ∑ j : Fin 4096, A (ix3 r p j) * hIn X Win r j o := by
  refine Finset.sum_congr rfl (fun j _ => ?_)
  -- Column o < 64 of the augmented projection is column o of the projection itself.
  simp only [augIn]
  rw [dif_pos o.isLt]

end

end Cert.Spec

end
-- ==== Proof.KI.SpecAt.lean ====
/-
  The carried contents after grid point `n` as ONE tuple of functions of the argument arrays (the invariant of the
  run over the grid), and the closed forms of the two offsets the body computes from the strip coordinate.
-/
import proofs.«152055_g50646254354673_cont_8to1_c_444_7_alg».proof.Proof.KI.State
import proofs.«152055_g50646254354673_cont_8to1_c_444_7_alg».proof.Proof.SpecState

set_option maxRecDepth 16384

noncomputable section

namespace Cert.KernelIdeal.Val

open Idealize.ShloMosaic Idealize.ShloMosaic.ValueIdx Cert.KernelIdeal Cert.KernelIdeal.Gen Cert.KernelIdeal.Body Cert.Spec

/-- The strip's first row in the output block is 512 times the strip coordinate, -/
theorem off1_eq (i : grid0.Coords) : k0_off1 i = ![512 * (i 1).val, 0] := by
  have h : ∀ v : Fin 8, (Scalar.indexCast (Scalar.muli (BitVec.ofNat 32 v.val) 512#32)).toNat = 512 * v.val := by decide
  unfold k0_off1; dsimp only; rw [h (i 1)]

/-- and so is its first column in the augmented transposed projection. -/
theorem off2_eq (i : grid0.Coords) : k0_off2 i = ![0, 512 * (i 1).val] := by
  have h : ∀ v : Fin 8, (Scalar.indexCast (Scalar.muli (BitVec.ofNat 32 v.val) 512#32)).toNat = 512 * v.val := by decide
  unfold k0_off2; dsimp only; rw [h (i 1)]

section
variable (X : SX.Idx → EReal) (A : SA.Idx → EReal) (Wl : SW.Idx → EReal) (Win Wout : SR.Idx → EReal)

/-- The five carried buffers after grid point `n`: the output block, the transposed features, the two augmented
    projections of relation n / 8, and the transposed accumulator after strip n % 8. -/
def specAt (n : ℕ) : St Ideal :=
  ((fun y => outAt X A Wl Win Wout n (y 0) (y 1) : Vec Ideal S4096x64 .f32),
   (fun y => X (ix2 (y 1) (y 0)) : Vec Ideal S64x4096 .f32),
   (fun y => augIn X Win (rel (n / 8)) (y 0) (y 1) : Vec Ideal S4096x128 .bf16),
   (fun y => augOutT X Wout (rel (n / 8)) (y 0) (y 1) : Vec Ideal S72x4096 .bf16),
   (fun y => accT X A Wout (rel (n / 8)) (n % 8) (y 0) (y 1) : Vec Ideal S72x4096 .f32))

end

end Cert.KernelIdeal.Val

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.LibTransDot.lean ====
/-
  A two-dimensional matrix product whose LEFT operand is read transposed, at an entry.

  For a dot whose dimension numbers contract the LEADING axis of both operands — left contracting axis 0, right
  contracting axis 0, the remaining left axis then the remaining right axis as the result's axes, no batch axis — the
  operands are `contraction × rows` and `contraction × columns`: the left operand's index at result entry `(p, q)` and
  contraction position `k` is `(k, p)`, the right operand's is `(k, q)`. So, on the extended reals, a kernel's `matmul`
  into the zero accumulator and a host `dot_general` are both the sum `∑ k, l (k, p) * r (k, q)` over `k : Fin K`: the
  entry `(p, q)` of `lᵀ · r`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.TransDot

open Idealize.ShloMosaic Idealize.ShloMosaic.ValueIdx

variable {K R C : ℕ} (d : DotDims (⟨2, ![K, R]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's leading coordinate is the contraction position. -/
theorem lhs_lead (hlc : d.lhsContracting = [0]) (j : (⟨2, ![R, C]⟩ : Shape).Idx) (k : d.contr.Idx) :
    (d.lhsIdx j k 0).val = (k ⟨0, by rw [d.rank_contr, hlc]; exact Nat.one_pos⟩).val :=
  d.lhsIdx_val_of_single hlc j k

/-- The left operand's trailing coordinate is the result's row. -/
theorem lhs_trail (hlb : d.lhsBatch = []) (hln : d.lhsNonContracting = [1])
    (j : (⟨2, ![R, C]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's leading coordinate is the contraction position. -/
theorem rhs_lead (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's trailing coordinate is the result's column. -/
theorem rhs_trail (hlb : d.lhsBatch = []) (hrb : d.rhsBatch = []) (hln : d.lhsNonContracting = [1]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [0]) : d.contr.rank = 1 := by rw [d.rank_contr, hlc]; rfl

theorem contr_size (hlc : d.lhsContracting = [0]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(k, p)` and `(k, q)`. -/
theorem sum_contr (hlc : d.lhsContracting = [0]) (hrc : d.rhsContracting = [0]) (hln : d.lhsNonContracting = [1])
    (hrn : d.rhsNonContracting = [1]) (hlb : d.lhsBatch = []) (hrb : d.rhsBatch = [])
    (l : (⟨2, ![K, R]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 k p := by
    funext a; apply Fin.ext
    match a with
    | ⟨0, _⟩ => exact (lhs_lead d hlc _ _).trans hk
    | ⟨1, _⟩ => exact lhs_trail d hlb hln _ _
  have er : d.rhsIdx (ix2 p q) ((contrEquiv1 d K (contr_rank d hlc) (contr_size d hlc)).symm k) = ix2 k q := by
    funext a; apply Fin.ext
    match a with
    | ⟨0, _⟩ => exact (rhs_lead d hrc _ _).trans hk
    | ⟨1, _⟩ => exact rhs_trail d hlb hrb hln hrn _ _
  rw [el, er]

/-- A kernel's matrix product into the zero accumulator, at an entry, on the extended reals. -/
theorem matmul_zero_apply {φ₁ φ₂ : FTy} (hlc : d.lhsContracting = [0]) (hrc : d.rhsContracting = [0]) (hln : d.lhsNonContracting = [1])
    (hrn : d.rhsNonContracting = [1]) (hlb : d.lhsBatch = []) (hrb : d.rhsBatch = []) (prec : Option ContractPrecision)
    (l : FVec Ideal (⟨2, ![K, R]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 k p) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [0]) (hrc : d.rhsContracting = [0]) (hln : d.lhsNonContracting = [1])
    (hrn : d.rhsNonContracting = [1]) (hlb : d.lhsBatch = []) (hrb : d.rhsBatch = []) (prec : Option ContractPrecision) (sched : HostSchedule)
    (l : FVec Ideal (⟨2, ![K, R]⟩ : Shape) φ₁) (r : FVec Ideal (⟨2, ![K, C]⟩ : Shape) φ₂) (p : Fin R) (q : Fin C) :
    FloatOps.dotGeneral d prec sched l r (ix2 p q) = ∑ k : Fin K, l (ix2 k p) * r (ix2 k q) :=
  (Ideal.dotGeneral_apply d prec sched l r (ix2 p q)).trans (sum_contr d hlc hrc hln hrn hlb hrb l r p q)

end Cert.TransDot

end
-- ==== Proof.KI.PayA.lean ====
/-
  The body's matrix products and transposes read at an entry, on the extended reals: the loop term, the transposed
  features, the source projection and the transposed reverse projection.
-/
import proofs.«152055_g50646254354673_cont_8to1_c_444_7_alg».proof.Proof.Gen.KernelIdeal.Skeleton
import proofs.«152055_g50646254354673_cont_8to1_c_444_7_alg».proof.Proof.Spec
import proofs.«152055_g50646254354673_cont_8to1_c_444_7_alg».proof.Proof.LibPlainDot
import proofs.«152055_g50646254354673_cont_8to1_c_444_7_alg».proof.Proof.LibTransDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The loop term: features times loop weight. -/
theorem pay3_apply (x : Vec Ideal S4096x64 .f32) (w : Vec Ideal S64x64 .f32) (p : Fin 4096) (o : Fin 64) :
    k0_pay3 (F := Ideal) x w (ix2 p o) = ∑ d : Fin 64, x (ix2 p d) * w (ix2 d o) := by
  unfold k0_pay3
  exact Cert.PlainDot.matmul_zero_apply dot_S4096x64_S64x64_S4096x64_1_0_0_1_n_n rfl rfl rfl rfl rfl rfl none x w p o

/-- The transposed features. -/
theorem pay4_apply (x : Vec Ideal S4096x64 .f32) (d : Fin 64) (j : Fin 4096) :
    k0_pay4 (F := Ideal) x (ix2 d j) = x (ix2 j d) := by
  unfold k0_pay4
  show shapeCast S64x4096 (transpose S64x4096 [1, 0] x transposes_S4096x64_p1_0_S64x4096) shapeCasts_S64x4096_S64x4096
    (ix2 d j) = _
  rw [shapeCast_self]
  exact transpose_ix2_apply x transposes_S4096x64_p1_0_S64x4096 d j

/-- The source projection: features times the relation's weight block. -/
theorem pay7_apply (x : Vec Ideal S4096x64 .f32) (w : Vec Ideal S1x64x64 .f32) (j : Fin 4096) (o : Fin 64) :
    k0_pay7 (F := Ideal) x w (ix2 j o) = ∑ d : Fin 64, x (ix2 j d) * w (ix3 (0 : Fin 1) d o) := by
  unfold k0_pay7
  show shapeCast S4096x64
      (truncf .bf16
        (matmul dot_S4096x64_S64x64_S4096x64_1_0_0_1_n_n none x (shapeCast S64x64 w shapeCasts_S1x64x64_S64x64)
          (constant (F := Ideal) S4096x64 .f32 0x00000000#32))
        bitsLt_bf16_f32)
      shapeCasts_S4096x64_S4096x64 (ix2 j o) = _
  rw [shapeCast_self, truncf_apply]
  refine (Cert.PlainDot.matmul_zero_apply dot_S4096x64_S64x64_S4096x64_1_0_0_1_n_n rfl rfl rfl rfl rfl rfl none x
    (shapeCast S64x64 w shapeCasts_S1x64x64_S64x64) j o).trans ?_
  refine Finset.sum_congr rfl fun d _ => ?_
  rw [shapeCast_1ab_ab_apply]

/-- The transposed reverse projection: the weight block contracted with the transposed features over their common
    leading axis. -/
theorem pay8_apply (w : Vec Ideal S1x64x64 .f32) (xt : Vec Ideal S64x4096 .f32) (o : Fin 64) (j : Fin 4096) :
    k0_pay8 (F := Ideal) w xt (ix2 o j) = ∑ d : Fin 64, w (ix3 (0 : Fin 1) d o) * xt (ix2 d j) := by
  unfold k0_pay8
  show shapeCast S64x4096
      (truncf .bf16
        (matmul dot_S64x64_S64x4096_S64x4096_0_0_1_1_n_n none (shapeCast S64x64 w shapeCasts_S1x64x64_S64x64) xt
          (constant (F := Ideal) S64x4096 .f32 0x00000000#32))
        bitsLt_bf16_f32)
      shapeCasts_S64x4096_S64x4096 (ix2 o j) = _
  rw [shapeCast_self, truncf_apply]
  refine (Cert.TransDot.matmul_zero_apply dot_S64x64_S64x4096_S64x4096_0_0_1_1_n_n rfl rfl rfl rfl rfl rfl none
    (shapeCast S64x64 w shapeCasts_S1x64x64_S64x64) xt o j).trans ?_
  refine Finset.sum_congr rfl fun d _ => ?_
  rw [shapeCast_1ab_ab_apply]

end Cert.KernelIdeal.Pay

end
-- ==== Proof.KI.PayB.lean ====
/-
  The body's constant strips and its quantised adjacency strip read at an entry, on the extended reals: the
  collector column block (one in its first column, zero elsewhere), the collector row block (one in its first row),
  the zeroed accumulator, and the strip of the adjacency (a change of float format is the identity).
-/
import proofs.«152055_g50646254354673_cont_8to1_c_444_7_alg».proof.Proof.Gen.KernelIdeal.Skeleton
import proofs.«152055_g50646254354673_cont_8to1_c_444_7_alg».proof.Proof.Spec
import proofs.«152055_g50646254354673_cont_8to1_c_444_7_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The single-precision word 0x3F800000 is the extended real one. -/
private theorem ofBits_one : Ideal.ofBits .f32 0x3F800000#32 = (1 : EReal) := by
  rw [show (1 : EReal) = ((1 : ℝ) : EReal) by norm_cast]
  simp [Ideal.ofBits, Ideal.ieee, -EReal.coe_mul]; norm_num

/-- A coordinate below 2³², as a 32-bit word, equals the zero word exactly when it is zero: the select on that
    comparison is the `if` on the coordinate. -/
private theorem select_coord_eq0 {α : Type} (n : Nat) (hn : n < 2 ^ 32) (A B : α) :
    Scalar.select (IntOp.cmpi .eq (BitVec.ofNat 32 n) 0#32) A B = if n = 0 then A else B := by
  by_cases h : n = 0
  · subst h
    rw [if_pos rfl]
    exact select_one A B
  · rw [if_neg h]
    have hne : BitVec.ofNat 32 n ≠ 0#32 := by
      intro e
      have e' := congrArg BitVec.toNat e
      rw [BitVec.toNat_ofNat, Nat.mod_eq_of_lt hn] at e'
      exact h e'
    have hb : IntOp.cmpi .eq (BitVec.ofNat 32 n) 0#32 = 0#1 := by
      unfold IntOp.cmpi
      rw [show (BitVec.ofNat 32 n == 0#32) = false from beq_eq_false_iff_ne.2 hne]
      rfl
    rw [hb]
    exact select_zero A B

/-- The collector column block: one in column 0, zero in the other 63. -/
theorem pay5_apply (j : Fin 4096) (k : Fin 64) :
    k0_pay5 (F := Ideal) (ix2 j k) = if k.val = 0 then (1 : EReal) else 0 := by
  unfold k0_pay5
  rw [shapeCast_self]
  show Scalar.select (IntOp.cmpi .eq (iota .tc S4096x64 32 [1] iota_S4096x64_d1_w32 (ix2 j k)) 0#32)
      (Ideal.ofBits .f32 0x3F800000#32) (Ideal.ofBits .f32 0x00000000#32) = _
  rw [iota_single_apply]
  show Scalar.select (IntOp.cmpi .eq (BitVec.ofNat 32 k.val) 0#32) _ _ = _
  rw [select_coord_eq0 k.val (by have := k.isLt; omega), ofBits_one, Ideal.ofBits_zero_f32]

/-- The collector row block: one in row 0, zero in the other 7. -/
theorem pay6_apply (k : Fin 8) (j : Fin 4096) :
    k0_pay6 (F := Ideal) (ix2 k j) = if k.val = 0 then (1 : EReal) else 0 := by
  unfold k0_pay6
  rw [shapeCast_self]
  show Scalar.select (IntOp.cmpi .eq (iota .tc S8x4096 32 [0] iota_S8x4096_d0_w32 (ix2 k j)) 0#32)
      (Ideal.ofBits .f32 0x3F800000#32) (Ideal.ofBits .f32 0x00000000#32) = _
  rw [iota_single_apply]
  show Scalar.select (IntOp.cmpi .eq (BitVec.ofNat 32 k.val) 0#32) _ _ = _
  rw [select_coord_eq0 k.val (by have := k.isLt; omega), ofBits_one, Ideal.ofBits_zero_f32]

/-- The zeroed accumulator. -/
theorem pay9_apply (y : S72x4096.Idx) : k0_pay9 (F := Ideal) y = 0 := by
  unfold k0_pay9
  rw [shapeCast_self]
  exact Ideal.ofBits_zero_f32

/-- Putting a coordinate in front of a rank-2 index gives the rank-3 index of the three coordinates. -/
private theorem cons_ix2 {n0 n1 n2 : Nat} (a : Fin n0) (b : Fin n1) (c : Fin n2) :
    (Fin.cons a (ix2 b c) : (⟨3, ![n0, n1, n2]⟩ : Shape).Idx) = ix3 a b c := by
  funext d; match d with | ⟨0, _⟩ => rfl | ⟨1, _⟩ => rfl | ⟨2, _⟩ => rfl

/-- The adjacency strip, its unit leading axis dropped. -/
theorem pay10_apply (a : Vec Ideal S1x512x4096 .f32) (p : Fin 512) (j : Fin 4096) :
    k0_pay10 (F := Ideal) a (ix2 p j) = a (ix3 (0 : Fin 1) p j) := by
  unfold k0_pay10
  rw [shapeCast_self]
  rw [truncf_apply]
  refine (shapeCast_dropUnit_apply ![512, 4096] a shapeCasts_S1x512x4096_S512x4096 (ix2 p j)).trans ?_
  exact congrArg a (cons_ix2 _ p j)

end Cert.KernelIdeal.Pay

end
-- ==== Proof.KI.PayC.lean ====
/-
  The body's three updates read at an entry, on the extended reals: a strip of the output block (the strip's product
  with the augmented source projection, its first 64 columns divided by the clamped 65th), the transposed accumulator
  (plus the product of 512 columns of the augmented transposed reverse projection with the strip), and the whole
  output block at a relation's end (plus the transposed accumulator's first 64 rows divided by its clamped 65th row).
-/
import proofs.«152055_g50646254354673_cont_8to1_c_444_7_alg».proof.Proof.Gen.KernelIdeal.Skeleton
import proofs.«152055_g50646254354673_cont_8to1_c_444_7_alg».proof.Proof.Spec
import proofs.«152055_g50646254354673_cont_8to1_c_444_7_alg».proof.Proof.LibPlainDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Pay

open Idealize.ShloMosaic Idealize.ShloMosaic.ValueIdx Cert.KernelIdeal Cert.KernelIdeal.Gen

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal of a clamped degree, as the body spells it: the words of `1.0` and of the clamp read as `1` and `ε`. -/
theorem recip_clamp (x : EReal) :
    Ideal.div (Ideal.ofBits .f32 0x3F800000#32) (max x (Ideal.ofBits .f32 0x2B8CBCCC#32)) = Ideal.div 1 (max x Cert.Spec.eps) := by
  rw [Ideal.ofBits_one_f32]; rfl

/-- A strip of the output block: the old entry plus the propagated source projection times the reciprocal of the
    clamped row degree (column 64 of the same product). -/
theorem pay11_apply (s : Vec Ideal S512x4096 .bf16) (h : Vec Ideal S4096x128 .bf16) (o0 : Vec Ideal S512x64 .f32) (p : Fin 512) (o : Fin 64) :
    k0_pay11 (F := Ideal) s h o0 (ix2 p o)
      = o0 (ix2 p o) + (∑ j : Fin 4096, s (ix2 p j) * h (ix2 j (⟨o.val, by omega⟩ : Fin 128)))
          * Ideal.div 1 (max (∑ j : Fin 4096, s (ix2 p j) * h (ix2 j (⟨64, by omega⟩ : Fin 128))) Cert.Spec.eps) := by
  unfold k0_pay11
  simp only [shapeCast_self]
  show o0 (ix2 p o) + _ * _ = _
  -- the product, read at any column of its 128
  have hdot : ∀ c : Fin 128,
      (matmul (F := Ideal) (φ₁ := .bf16) (φ₂ := .bf16) dot_S512x4096_S4096x128_S512x128_1_0_0_1_n_n none s h (constant S512x128 .f32 0x00000000#32)) (ix2 p c)
        = ∑ j : Fin 4096, s (ix2 p j) * h (ix2 j c) := fun c =>
    Cert.PlainDot.matmul_zero_apply (R := 512) (K := 4096) (C := 128) (φ₁ := .bf16) (φ₂ := .bf16) _ rfl rfl rfl rfl rfl rfl none s h p c
  refine congrArg (o0 (ix2 p o) + ·) ?_
  refine congrArg₂ (· * ·) ?_ ?_
  · -- columns 0 … 63 of the product
    refine (slice2_axis1_apply 0 _ slices_S512x128_o0_0_S512x64 p o (⟨o.val, by omega⟩ : Fin 128) (Nat.zero_add _).symm).trans ?_
    exact hdot _
  · -- the reciprocal of the clamped column 64, the same along the row
    refine (broadcastTo_a1_ab_apply _ broadcasts_S512x1_S512x64 p o).trans ?_
    refine (recip_clamp _).trans ?_
    refine congrArg (fun x => Ideal.div 1 (max x Cert.Spec.eps)) ?_
    refine (slice2_axis1_apply 64 _ slices_S512x128_o0_64_S512x1 p (0 : Fin 1) (⟨64, by omega⟩ : Fin 128) rfl).trans ?_
    exact hdot _

/-- The transposed accumulator: the old entry plus 512 columns of the augmented transposed reverse projection
    against the strip. -/
theorem pay1_apply (acc : Vec Ideal S72x4096 .f32) (g : Vec Ideal S72x512 .bf16) (s : Vec Ideal S512x4096 .bf16) (k : Fin 72) (q : Fin 4096) :
    k0_pay1 (F := Ideal) acc g s (ix2 k q) = acc (ix2 k q) + ∑ j : Fin 512, g (ix2 k j) * s (ix2 j q) := by
  unfold k0_pay1
  simp only [shapeCast_self]
  show acc (ix2 k q) + _ = _
  exact congrArg (acc (ix2 k q) + ·)
    (Cert.PlainDot.matmul_zero_apply (R := 72) (K := 512) (C := 4096) _ rfl rfl rfl rfl rfl rfl none g s k q)

/-- The output block at a relation's end: the old entry plus the transposed accumulator's entry times the reciprocal
    of the clamped column degree. -/
theorem pay2_apply (deg : Vec Ideal S1x4096 .f32) (o0 : Vec Ideal S4096x64 .f32) (y2 : Vec Ideal S64x4096 .f32) (p : Fin 4096) (o : Fin 64) :
    k0_pay2 (F := Ideal) deg o0 y2 (ix2 p o)
      = o0 (ix2 p o) + y2 (ix2 o p) * Ideal.div 1 (max (deg (ix2 (0 : Fin 1) p)) Cert.Spec.eps) := by
  unfold k0_pay2
  simp only [shapeCast_self]
  show o0 (ix2 p o) + _ = _
  refine congrArg (o0 (ix2 p o) + ·) ?_
  refine (transpose_ix2_apply _ transposes_S64x4096_p1_0_S4096x64 p o).trans ?_
  show y2 (ix2 o p) * _ = _
  refine congrArg (y2 (ix2 o p) * ·) ?_
  refine (broadcastTo_1b_ab_apply _ broadcasts_S1x4096_S64x4096 o p).trans ?_
  exact recip_clamp (deg (ix2 (0 : Fin 1) p))

end Cert.KernelIdeal.Pay

end
-- ==== Proof.KI.StepA.lean ====
/-
  The first grid point leaves the invariant at 0: the output block is the loop term with the first relation's source
  term added on the first strip's rows; the transposed features, the two augmented projections of relation 0 and the
  accumulator after strip 0 are as the invariant says.
-/
import proofs.«152055_g50646254354673_cont_8to1_c_444_7_alg».proof.Proof.KI.Closed
import proofs.«152055_g50646254354673_cont_8to1_c_444_7_alg».proof.Proof.KI.SpecAt
import proofs.«152055_g50646254354673_cont_8to1_c_444_7_alg».proof.Proof.KI.PayA
import proofs.«152055_g50646254354673_cont_8to1_c_444_7_alg».proof.Proof.KI.PayB
import proofs.«152055_g50646254354673_cont_8to1_c_444_7_alg».proof.Proof.KI.PayC
import Idealize.ShloMosaic.Lib.WritesUnit

set_option maxRecDepth 16384

noncomputable section

namespace Cert.KernelIdeal.Val

open Idealize.ShloMosaic Idealize.ShloMosaic.ValueIdx Cert.KernelIdeal Cert.KernelIdeal.Gen Cert.KernelIdeal.Body Cert.KernelIdeal.Pay Cert.Spec

variable (X : SX.Idx → EReal) (A : SA.Idx → EReal) (Wl : SW.Idx → EReal) (Win Wout : SR.Idx → EReal)
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec Ideal S4096x64 .f32) (x1 : Vec Ideal S1x512x4096 .f32) (x2 : Vec Ideal S64x64 .f32) (x3 : Vec Ideal S1x64x64 .f32) (x4 : Vec Ideal S1x64x64 .f32)

/-! ## Reading a buffer stored through two rectangles, entry by entry -/

/-- Columns 0 … 63 of the augmented source projection lie under the store made last. -/
theorem canonH_left (w1 w2 : Vec Ideal S4096x64 .bf16) (j : Fin 4096) (k : Fin 64) :
    View.canon (Val := Elt Ideal) [⟨rLeft, w1⟩, ⟨rRight, w2⟩] (ix2 j (⟨k.val, by omega⟩ : Fin 128)) = w1 (ix2 j k) := by
  have h : (ix2 j (⟨k.val, by omega⟩ : Fin 128) : S4096x128.Idx) = rLeft.emb (ix2 j k) := by
    funext a
    match a with
    | ⟨0, _⟩ => exact Fin.ext (show j.val = 0 + 1 * j.val by omega)
    | ⟨1, _⟩ => exact Fin.ext (show k.val = 0 + 1 * k.val by omega)
  rw [h]
  exact View.canon_cons_emb rLeft w1 _ (ix2 j k)

/-- Columns 64 … 127 lie off it and under the earlier store, at local column k − 64. -/
theorem canonH_right (w1 w2 : Vec Ideal S4096x64 .bf16) (j : Fin 4096) (k : Fin 128) (hk : 64 ≤ k.val) :
    View.canon (Val := Elt Ideal) [⟨rLeft, w1⟩, ⟨rRight, w2⟩] (ix2 j k) = w2 (ix2 j (⟨k.val - 64, by omega⟩ : Fin 64)) := by
  have hn : (ix2 j k : S4096x128.Idx) ∉ (⟨rLeft, w1⟩ : View.Piece (Elt Ideal) S4096x128 .bf16).1.set := by
    show (ix2 j k : S4096x128.Idx) ∉ rLeft.set
    rw [Rect.mem_set_unit]
    intro hall
    have h1 := (hall 1).2
    have h2 : ((ix2 j k : S4096x128.Idx) 1).val < 0 + 64 := h1
    have h3 : ((ix2 j k : S4096x128.Idx) 1).val = k.val := rfl
    omega
  rw [View.canon_cons_of_not_mem _ _ hn]
  have h : (ix2 j k : S4096x128.Idx) = rRight.emb (ix2 j (⟨k.val - 64, by omega⟩ : Fin 64)) := by
    funext a
    match a with
    | ⟨0, _⟩ => exact Fin.ext (show j.val = 0 + 1 * j.val by omega)
    | ⟨1, _⟩ => exact Fin.ext (show k.val = 64 + 1 * (k.val - 64) by omega)
  rw [h]
  exact View.canon_cons_emb rRight w2 _ _

/-- Rows 0 … 63 of the augmented transposed reverse projection lie under the store made last. -/
theorem canonG_top (w1 : Vec Ideal S64x4096 .bf16) (w2 : Vec Ideal S8x4096 .bf16) (k : Fin 64) (j : Fin 4096) :
    View.canon (Val := Elt Ideal) [⟨rTop, w1⟩, ⟨rBot, w2⟩] (ix2 (⟨k.val, by omega⟩ : Fin 72) j) = w1 (ix2 k j) := by
  have h : (ix2 (⟨k.val, by omega⟩ : Fin 72) j : S72x4096.Idx) = rTop.emb (ix2 k j) := by
    funext a
    match a with
    | ⟨0, _⟩ => exact Fin.ext (show k.val = 0 + 1 * k.val by omega)
    | ⟨1, _⟩ => exact Fin.ext (show j.val = 0 + 1 * j.val by omega)
  rw [h]
  exact View.canon_cons_emb rTop w1 _ (ix2 k j)

/-- Rows 64 … 71 lie off it and under the earlier store, at local row k − 64. -/
theorem canonG_bot (w1 : Vec Ideal S64x4096 .bf16) (w2 : Vec Ideal S8x4096 .bf16) (k : Fin 72) (j : Fin 4096) (hk : 64 ≤ k.val) :
    View.canon (Val := Elt Ideal) [⟨rTop, w1⟩, ⟨rBot, w2⟩] (ix2 k j) = w2 (ix2 (⟨k.val - 64, by omega⟩ : Fin 8) j) := by
  have hn : (ix2 k j : S72x4096.Idx) ∉ (⟨rTop, w1⟩ : View.Piece (Elt Ideal) S72x4096 .bf16).1.set := by
    show (ix2 k j : S72x4096.Idx) ∉ rTop.set
    rw [Rect.mem_set_unit]
    intro hall
    have h2 : ((ix2 k j : S72x4096.Idx) 0).val < 0 + 64 := (hall 0).2
    have h3 : ((ix2 k j : S72x4096.Idx) 0).val = k.val := rfl
    omega
  rw [View.canon_cons_of_not_mem _ _ hn]
  have h : (ix2 k j : S72x4096.Idx) = rBot.emb (ix2 (⟨k.val - 64, by omega⟩ : Fin 8) j) := by
    funext a
    match a with
    | ⟨0, _⟩ => exact Fin.ext (show k.val = 64 + 1 * (k.val - 64) by omega)
    | ⟨1, _⟩ => exact Fin.ext (show j.val = 0 + 1 * j.val by omega)
  rw [h]
  exact View.canon_cons_emb rBot w2 _ _

/-- On strip 0 the output block's first 512 rows lie under the strip's store. -/
theorem canonO_in (hi : (i 1).val = 0) (w1 : Vec Ideal S512x64 .f32) (w2 : Vec Ideal S4096x64 .f32) (p : Fin 512) (o : Fin 64) :
    View.canon (Val := Elt Ideal) [⟨rowsOf i, w1⟩, ⟨rAll, w2⟩] (ix2 (⟨p.val, by omega⟩ : Fin 4096) o) = w1 (ix2 p o) := by
  have e0 : k0_off1 i 0 = 512 * (i 1).val := congrFun (off1_eq i) 0
  have e1 : k0_off1 i 1 = 0 := congrFun (off1_eq i) 1
  have h : (ix2 (⟨p.val, by omega⟩ : Fin 4096) o : S4096x64.Idx) = (rowsOf i).emb (ix2 p o) := by
    funext a
    match a with
    | ⟨0, _⟩ => exact Fin.ext (show p.val = k0_off1 i 0 + 1 * p.val by omega)
    | ⟨1, _⟩ => exact Fin.ext (show o.val = k0_off1 i 1 + 1 * o.val by omega)
  rw [h]
  exact View.canon_cons_emb (rowsOf i) w1 _ (ix2 p o)

/-- The later rows lie off it and under the whole-block store. -/
theorem canonO_out (hi : (i 1).val = 0) (w1 : Vec Ideal S512x64 .f32) (w2 : Vec Ideal S4096x64 .f32) (p : Fin 4096) (o : Fin 64) (hp : 512 ≤ p.val) :
    View.canon (Val := Elt Ideal) [⟨rowsOf i, w1⟩, ⟨rAll, w2⟩] (ix2 p o) = w2 (ix2 p o) := by
  have e0 : k0_off1 i 0 = 512 * (i 1).val := congrFun (off1_eq i) 0
  have hn : (ix2 p o : S4096x64.Idx) ∉ (⟨rowsOf i, w1⟩ : View.Piece (Elt Ideal) S4096x64 .f32).1.set := by
    show (ix2 p o : S4096x64.Idx) ∉ (rowsOf i).set
    rw [Rect.mem_set_unit]
    intro hall
    have h2 : ((ix2 p o : S4096x64.Idx) 0).val < k0_off1 i 0 + 512 := (hall 0).2
    have h3 : ((ix2 p o : S4096x64.Idx) 0).val = p.val := rfl
    omega
  rw [View.canon_cons_of_not_mem _ _ hn]
  exact congrFun (View.canon_unit_zero (S := S4096x64) hz2 _ w2) _

/-- On strip 0 a load through the strip's rows reads rows 0 … 511, -/
theorem ld_rows (hi : (i 1).val = 0) (L : Vec Ideal S4096x64 .f32) (p : Fin 512) (o : Fin 64) :
    View.ld L (rowsOf i) (ix2 p o) = L (ix2 (⟨p.val, by omega⟩ : Fin 4096) o) := by
  have e0 : k0_off1 i 0 = 512 * (i 1).val := congrFun (off1_eq i) 0
  have e1 : k0_off1 i 1 = 0 := congrFun (off1_eq i) 1
  show L ((rowsOf i).idx (ix2 p o)) = _
  refine congrArg L ?_
  funext a
  match a with
  | ⟨0, _⟩ => exact Fin.ext (show k0_off1 i 0 + 1 * p.val = p.val by omega)
  | ⟨1, _⟩ => exact Fin.ext (show k0_off1 i 1 + 1 * o.val = o.val by omega)

/-- and a load through the strip's columns of the augmented transposed projection reads the columns of strip 0's rows. -/
theorem ld_cols (hi : (i 1).val = 0) (G : Vec Ideal S72x4096 .bf16) (k : Fin 72) (j : Fin 512) :
    View.ld G (colsOf i) (ix2 k j) = G (ix2 k (row (0 % 8) j)) := by
  have e0 : k0_off2 i 0 = 0 := congrFun (off2_eq i) 0
  have e1 : k0_off2 i 1 = 512 * (i 1).val := congrFun (off2_eq i) 1
  show G ((colsOf i).idx (ix2 k j)) = _
  refine congrArg G ?_
  funext a
  match a with
  | ⟨0, _⟩ => exact Fin.ext (show k0_off2 i 0 + 1 * k.val = k.val by omega)
  | ⟨1, _⟩ => exact Fin.ext (show k0_off2 i 1 + 1 * j.val = (0 % 8 % 8) * 512 + j.val by omega)

/-! ## The five buffers after the first grid point -/

/-- The transposed features. -/
theorem xtA (hx0 : ∀ (p : Fin 4096) (d : Fin 64), x0 (ix2 p d) = X (ix2 p d)) :
    k0_pay4 (F := Ideal) x0 = (fun y => X (ix2 (y 1) (y 0)) : Vec Ideal S64x4096 .f32) := by
  funext y
  obtain ⟨d, j, rfl⟩ : ∃ (d : Fin 64) (j : Fin 4096), y = ix2 d j := ⟨y 0, y 1, eq_ix2 y⟩
  rw [pay4_apply, hx0]

/-- The augmented source projection of relation 0: the projection, a column of ones, zeros. -/
theorem hinA (hx0 : ∀ (p : Fin 4096) (d : Fin 64), x0 (ix2 p d) = X (ix2 p d))
    (hx3 : ∀ (d o : Fin 64), x3 (ix3 (0 : Fin 1) d o) = Win (ix3 (rel (0 / 8)) d o)) :
    View.canon (Val := Elt Ideal) (e := .bf16) [⟨rLeft, k0_pay7 x0 x3⟩, ⟨rRight, k0_pay5 (F := Ideal)⟩]
      = (fun y => augIn X Win (rel (0 / 8)) (y 0) (y 1) : Vec Ideal S4096x128 .bf16) := by
  funext y
  obtain ⟨j, k, rfl⟩ : ∃ (j : Fin 4096) (k : Fin 128), y = ix2 j k := ⟨y 0, y 1, eq_ix2 y⟩
  show _ = augIn X Win (rel (0 / 8)) j k
  obtain ⟨k, hk⟩ := k
  unfold augIn
  by_cases h : k < 64
  · rw [dif_pos h]
    refine (canonH_left _ _ j ⟨k, h⟩).trans ?_
    rw [pay7_apply]
    unfold hIn
    refine Finset.sum_congr rfl fun d _ => ?_
    rw [hx0, hx3]
  · rw [dif_neg h]
    refine (canonH_right _ _ j ⟨k, hk⟩ (by show 64 ≤ k; omega)).trans ?_
    rw [pay5_apply]
    show (if k - 64 = 0 then (1 : EReal) else 0) = if k = 64 then 1 else 0
    by_cases h64 : k = 64
    · rw [if_pos (by omega), if_pos h64]
    · rw [if_neg (by omega), if_neg h64]

/-- The augmented transposed reverse projection of relation 0: the projection, a row of ones, zeros. -/
theorem houtA (hx0 : ∀ (p : Fin 4096) (d : Fin 64), x0 (ix2 p d) = X (ix2 p d))
    (hx4 : ∀ (d o : Fin 64), x4 (ix3 (0 : Fin 1) d o) = Wout (ix3 (rel (0 / 8)) d o)) :
    View.canon (Val := Elt Ideal) (e := .bf16) [⟨rTop, k0_pay8 x4 (k0_pay4 x0)⟩, ⟨rBot, k0_pay6 (F := Ideal)⟩]
      = (fun y => augOutT X Wout (rel (0 / 8)) (y 0) (y 1) : Vec Ideal S72x4096 .bf16) := by
  funext y
  obtain ⟨k, j, rfl⟩ : ∃ (k : Fin 72) (j : Fin 4096), y = ix2 k j := ⟨y 0, y 1, eq_ix2 y⟩
  show _ = augOutT X Wout (rel (0 / 8)) k j
  obtain ⟨k, hk⟩ := k
  unfold augOutT
  by_cases h : k < 64
  · rw [dif_pos h]
    refine (canonG_top _ _ ⟨k, h⟩ j).trans ?_
    rw [pay8_apply]
    unfold hOutT
    refine Finset.sum_congr rfl fun d _ => ?_
    rw [pay4_apply, hx0, hx4]
  · rw [dif_neg h]
    refine (canonG_bot _ _ ⟨k, hk⟩ j (by show 64 ≤ k; omega)).trans ?_
    rw [pay6_apply]
    show (if k - 64 = 0 then (1 : EReal) else 0) = if k = 64 then 1 else 0
    by_cases h64 : k = 64
    · rw [if_pos (by omega), if_pos h64]
    · rw [if_neg (by omega), if_neg h64]

/-- The transposed accumulator after strip 0: zero plus the strip's 512 columns of the augmented transposed projection
    against the strip of the adjacency. -/
theorem accA (hi : (i 1).val = 0)
    (hx1 : ∀ (p : Fin 512) (j : Fin 4096), x1 (ix3 (0 : Fin 1) p j) = A (ix3 (rel (0 / 8)) (row (0 % 8) p) j)) :
    k0_pay1 (F := Ideal) (k0_pay9 (F := Ideal)) (View.ld (fun y => augOutT X Wout (rel (0 / 8)) (y 0) (y 1) : Vec Ideal S72x4096 .bf16) (colsOf i)) (k0_pay10 x1)
      = (fun y => accT X A Wout (rel (0 / 8)) (0 % 8) (y 0) (y 1) : Vec Ideal S72x4096 .f32) := by
  funext y
  obtain ⟨k, q, rfl⟩ : ∃ (k : Fin 72) (q : Fin 4096), y = ix2 k q := ⟨y 0, y 1, eq_ix2 y⟩
  refine (pay1_apply _ _ _ k q).trans ?_
  rw [pay9_apply]
  show _ = 0 + ∑ j : Fin 512, augOutT X Wout (rel (0 / 8)) k (row (0 % 8) j) * A (ix3 (rel (0 / 8)) (row (0 % 8) j) q)
  refine congrArg (0 + ·) (Finset.sum_congr rfl fun j _ => ?_)
  rw [ld_cols i hi, pay10_apply, hx1]

/-- The output block after the first grid point: the loop term, with relation 0's source term added on strip 0. -/
theorem outA (hi : (i 1).val = 0)
    (hx0 : ∀ (p : Fin 4096) (d : Fin 64), x0 (ix2 p d) = X (ix2 p d))
    (hx1 : ∀ (p : Fin 512) (j : Fin 4096), x1 (ix3 (0 : Fin 1) p j) = A (ix3 (rel (0 / 8)) (row (0 % 8) p) j))
    (hx2 : ∀ (d o : Fin 64), x2 (ix2 d o) = Wl (ix2 d o)) :
    View.canon (Val := Elt Ideal) (e := .f32) [⟨rowsOf i, k0_pay11 (k0_pay10 x1) (fun y => augIn X Win (rel (0 / 8)) (y 0) (y 1) : Vec Ideal S4096x128 .bf16) (View.ld (k0_pay3 x0 x2) (rowsOf i))⟩, ⟨rAll, k0_pay3 x0 x2⟩]
      = (fun y => outAt X A Wl Win Wout 0 (y 0) (y 1) : Vec Ideal S4096x64 .f32) := by
  funext y
  obtain ⟨p, o, rfl⟩ : ∃ (p : Fin 4096) (o : Fin 64), y = ix2 p o := ⟨y 0, y 1, eq_ix2 y⟩
  show _ = outAt X A Wl Win Wout 0 p o
  -- the whole-block store's payload is the loop term
  have hloop : ∀ (p : Fin 4096) (o : Fin 64), k0_pay3 (F := Ideal) x0 x2 (ix2 p o) = loopT X Wl p o := fun p o => by
    rw [pay3_apply]
    unfold loopT
    exact Finset.sum_congr rfl fun d _ => by rw [hx0, hx2]
  obtain ⟨p, hp4⟩ := p
  unfold outAt
  rw [if_neg (by decide)]
  by_cases hp : p < 512
  · -- a row of strip 0
    rw [if_pos (by show p / 512 ≤ 0 % 8; omega)]
    refine (canonO_in i hi _ _ ⟨p, hp⟩ o).trans ?_
    rw [pay11_apply, ld_rows i hi, hloop]
    have hrow : row (0 % 8) (⟨p, hp⟩ : Fin 512) = (⟨p, hp4⟩ : Fin 4096) :=
      Fin.ext (show (0 % 8 % 8) * 512 + p = p by omega)
    have hA : ∀ j : Fin 4096, k0_pay10 (F := Ideal) x1 (ix2 (⟨p, hp⟩ : Fin 512) j) = A (ix3 (rel (0 / 8)) ⟨p, hp4⟩ j) := fun j => by
      rw [pay10_apply, hx1, hrow]
    show loopT X Wl ⟨p, hp4⟩ o + _ = loopT X Wl ⟨p, hp4⟩ o + srcKer X A Win (rel (0 / 8)) ⟨p, hp4⟩ o
    refine congrArg (loopT X Wl ⟨p, hp4⟩ o + ·) ?_
    unfold srcKer
    refine congrArg₂ (· * ·) ?_ ?_
    · refine (Finset.sum_congr rfl fun j _ => ?_).trans (prop_aug X A Win (rel (0 / 8)) ⟨p, hp4⟩ o)
      exact congrArg (fun a => a * augIn X Win (rel (0 / 8)) j ⟨o.val, by omega⟩) (hA j)
    · refine congrArg (fun x => Ideal.div 1 (max x eps)) ?_
      refine (Finset.sum_congr rfl fun j _ => ?_).trans (rowDeg_aug X A Win (rel (0 / 8)) ⟨p, hp4⟩)
      exact congrArg (fun a => a * augIn X Win (rel (0 / 8)) j ⟨64, by omega⟩) (hA j)
  · -- a later row
    rw [if_neg (by show ¬ p / 512 ≤ 0 % 8; omega)]
    refine (canonO_out i hi _ _ ⟨p, hp4⟩ o (by show 512 ≤ p; omega)).trans ?_
    exact hloop _ _

theorem stepA (hc0 : cond0 i) (hc1 : cond1 i) (hc2 : ¬cond2 i) (hi : (i 1).val = 0)
    (hx0 : ∀ (p : Fin 4096) (d : Fin 64), x0 (ix2 p d) = X (ix2 p d)) (hx1 : ∀ (p : Fin 512) (j : Fin 4096), x1 (ix3 (0 : Fin 1) p j) = A (ix3 (rel (0 / 8)) (row (0 % 8) p) j)) (hx2 : ∀ (d o : Fin 64), x2 (ix2 d o) = Wl (ix2 d o)) (hx3 : ∀ (d o : Fin 64), x3 (ix3 (0 : Fin 1) d o) = Win (ix3 (rel (0 / 8)) d o)) (hx4 : ∀ (d o : Fin 64), x4 (ix3 (0 : Fin 1) d o) = Wout (ix3 (rel (0 / 8)) d o)) :
    soutA (F := Ideal) c i arg2 harg2 arg3 harg3 arg4 harg4 arg5 harg5 arg6 harg6 arg7 harg7 arg8 harg8 arg9 harg9 arg10 harg10 arg11 harg11 arg12 harg12 x0 x1 x2 x3 x4 hc0 hc1 hc2 = specAt X A Wl Win Wout 0 := by
  -- the two augmented projections first: the accumulator and the output block are computed from them
  have hH := (soutA_hin (F := Ideal) c i arg2 harg2 arg3 harg3 arg4 harg4 arg5 harg5 arg6 harg6 arg7 harg7 arg8 harg8 arg9 harg9 arg10 harg10 arg11 harg11 arg12 harg12 x0 x1 x2 x3 x4 hc0 hc1 hc2).trans
    (hinA X Win x0 x3 hx0 hx3)
  have hG := (soutA_hout (F := Ideal) c i arg2 harg2 arg3 harg3 arg4 harg4 arg5 harg5 arg6 harg6 arg7 harg7 arg8 harg8 arg9 harg9 arg10 harg10 arg11 harg11 arg12 harg12 x0 x1 x2 x3 x4 hc0 hc1 hc2).trans
    (houtA X Wout x0 x4 hx0 hx4)
  refine Prod.ext ?_ (Prod.ext ?_ (Prod.ext ?_ (Prod.ext ?_ ?_)))
  · -- the output block
    refine (soutA_out (F := Ideal) c i arg2 harg2 arg3 harg3 arg4 harg4 arg5 harg5 arg6 harg6 arg7 harg7 arg8 harg8 arg9 harg9 arg10 harg10 arg11 harg11 arg12 harg12 x0 x1 x2 x3 x4 hc0 hc1 hc2).trans ?_
    rw [hH]
    exact outA X A Wl Win Wout i x0 x1 x2 hi hx0 hx1 hx2
  · -- the transposed features
    exact (soutA_xt (F := Ideal) c i arg2 harg2 arg3 harg3 arg4 harg4 arg5 harg5 arg6 harg6 arg7 harg7 arg8 harg8 arg9 harg9 arg10 harg10 arg11 harg11 arg12 harg12 x0 x1 x2 x3 x4 hc0 hc1 hc2).trans
      (xtA X x0 hx0)
  · exact hH
  · exact hG
  · -- the transposed accumulator
    refine (soutA_acc (F := Ideal) c i arg2 harg2 arg3 harg3 arg4 harg4 arg5 harg5 arg6 harg6 arg7 harg7 arg8 harg8 arg9 harg9 arg10 harg10 arg11 harg11 arg12 harg12 x0 x1 x2 x3 x4 hc0 hc1 hc2).trans ?_
    rw [hG]
    exact accA X A Wout i x1 hi hx1

end Cert.KernelIdeal.Val

end
-- ==== Proof.KI.StepB.lean ====
/-
  An inner strip takes the invariant at n − 1 to the invariant at n: the strip's rows of the output block gain the
  relation's source term, the accumulator gains the strip's product; the rest is untouched.
-/
import proofs.«152055_g50646254354673_cont_8to1_c_444_7_alg».proof.Proof.KI.Closed
import proofs.«152055_g50646254354673_cont_8to1_c_444_7_alg».proof.Proof.KI.SpecAt
import proofs.«152055_g50646254354673_cont_8to1_c_444_7_alg».proof.Proof.KI.PayA
import proofs.«152055_g50646254354673_cont_8to1_c_444_7_alg».proof.Proof.KI.PayB
import proofs.«152055_g50646254354673_cont_8to1_c_444_7_alg».proof.Proof.KI.PayC
import Idealize.ShloMosaic.Lib.WritesUnit

set_option maxRecDepth 16384

noncomputable section

namespace Cert.KernelIdeal.Val

open Idealize.ShloMosaic Idealize.ShloMosaic.ValueIdx Cert.KernelIdeal Cert.KernelIdeal.Gen Cert.KernelIdeal.Body Cert.KernelIdeal.Pay Cert.Spec

variable (X : SX.Idx → EReal) (A : SA.Idx → EReal) (Wl : SW.Idx → EReal) (Win Wout : SR.Idx → EReal)

/-- Column `j` of the 512 columns of the augmented transposed projection that strip `n % 8` is multiplied with is
    column `row (n % 8) j` of the whole. -/
theorem colsOf_idx (i : grid0.Coords) (n : ℕ) (hi : (i 1).val = n % 8) (k : Fin 72) (j : Fin 512) :
    (colsOf i).idx (ix2 k j) = ix2 k (row (n % 8) j) := by
  funext a
  apply Fin.ext
  show k0_off2 i a + 1 * ((ix2 k j) a).val = ((ix2 k (row (n % 8) j)) a).val
  rw [off2_eq i]
  match a with
  | ⟨0, _⟩ =>
    show 0 + 1 * k.val = k.val
    omega
  | ⟨1, _⟩ =>
    show 512 * (i 1).val + 1 * j.val = (n % 8 % 8) * 512 + j.val
    rw [hi]
    omega

/-- Row `p'` of strip `n % 8` of the output block is row `row (n % 8) p'` of the whole. -/
theorem rowsOf_idx (i : grid0.Coords) (n : ℕ) (hi : (i 1).val = n % 8) (p' : Fin 512) (o : Fin 64) :
    (rowsOf i).idx (ix2 p' o) = ix2 (row (n % 8) p') o := by
  funext a
  apply Fin.ext
  show k0_off1 i a + 1 * ((ix2 p' o) a).val = ((ix2 (row (n % 8) p') o) a).val
  rw [off1_eq i]
  match a with
  | ⟨0, _⟩ =>
    show 512 * (i 1).val + 1 * p'.val = (n % 8 % 8) * 512 + p'.val
    rw [hi]
    omega
  | ⟨1, _⟩ =>
    show 0 + 1 * o.val = o.val
    omega

/-- THE ACCUMULATOR after an inner strip: the strip before's sum plus this strip's product, which is the recursion's
    step from strip `n % 8 − 1` to strip `n % 8`. -/
theorem stepB_acc (i : grid0.Coords) (x1 : Vec Ideal S1x512x4096 .f32) (xg : Vec Ideal S72x4096 .bf16) (xa : Vec Ideal S72x4096 .f32)
    (n : ℕ) (h1 : n % 8 ≠ 0) (hi : (i 1).val = n % 8)
    (hx1 : ∀ (p : Fin 512) (j : Fin 4096), x1 (ix3 (0 : Fin 1) p j) = A (ix3 (rel (n / 8)) (row (n % 8) p) j))
    (hxg : ∀ (k : Fin 72) (j : Fin 4096), xg (ix2 k j) = augOutT X Wout (rel (n / 8)) k j)
    (hxa : ∀ (k : Fin 72) (q : Fin 4096), xa (ix2 k q) = accT X A Wout (rel (n / 8)) (n % 8 - 1) k q)
    (k : Fin 72) (q : Fin 4096) :
    k0_pay1 (F := Ideal) xa (View.ld xg (colsOf i)) (k0_pay10 x1) (ix2 k q) = accT X A Wout (rel (n / 8)) (n % 8) k q := by
  rw [pay1_apply, hxa]
  -- each summand: column `row (n % 8) j` of the augmented transposed projection against row `row (n % 8) j` of the adjacency
  have hs : ∀ j : Fin 512, View.ld xg (colsOf i) (ix2 k j) * k0_pay10 (F := Ideal) x1 (ix2 j q)
      = augOutT X Wout (rel (n / 8)) k (row (n % 8) j) * A (ix3 (rel (n / 8)) (row (n % 8) j) q) := fun j => by
    rw [pay10_apply, hx1]
    show xg ((colsOf i).idx (ix2 k j)) * _ = _
    rw [colsOf_idx i n hi, hxg]
  rw [Finset.sum_congr rfl (fun j _ => hs j)]
  -- the strip index is a successor, and the recursion's step at a successor is this sum
  obtain ⟨m, hm⟩ : ∃ m, n % 8 = m + 1 := ⟨n % 8 - 1, by omega⟩
  rw [hm, Nat.add_sub_cancel]
  rfl

/-- THE OUTPUT BLOCK after an inner strip, at an entry. A row of the strip gains the relation's source term: the strip's
    product with the first 64 columns of the augmented source projection is the propagated projection, its product with
    column 64 the row degree, and the entry before was the running result of the relations before (the strip before
    had not reached this row). A row outside the strip keeps its entry, which both invariants describe alike: with
    the source term if the row's strip is an earlier one, without it if it is a later one. -/
theorem stepB_out (i : grid0.Coords) (arg7 : Memref sig .tc .vmem S4096x64 .f32) (harg7 : arg7.IsWhole)
    (x1 : Vec Ideal S1x512x4096 .f32) (xo : Vec Ideal S4096x64 .f32) (xh : Vec Ideal S4096x128 .bf16)
    (n : ℕ) (h1 : n % 8 ≠ 0) (h2 : n % 8 ≠ 7) (hi : (i 1).val = n % 8)
    (hx1 : ∀ (p : Fin 512) (j : Fin 4096), x1 (ix3 (0 : Fin 1) p j) = A (ix3 (rel (n / 8)) (row (n % 8) p) j))
    (hxo : ∀ (p : Fin 4096) (o : Fin 64), xo (ix2 p o) = outAt X A Wl Win Wout (n - 1) p o)
    (hxh : ∀ (j : Fin 4096) (c : Fin 128), xh (ix2 j c) = augIn X Win (rel (n / 8)) j c)
    (p : Fin 4096) (o : Fin 64) :
    arg7.view.read (Elt Ideal) (arg7.view.writes (Elt Ideal) (harg7.unread xo)
        [⟨rowsOf i, k0_pay11 (k0_pay10 x1) xh (View.ld xo (rowsOf i))⟩]) (ix2 p o) = outAt X A Wl Win Wout n p o := by
  have e1 : (n - 1) / 8 = n / 8 := by omega
  have hp : p.val < 4096 := p.isLt
  by_cases hs : p.val / 512 = n % 8
  · -- a row of the strip: local row p − 512·(n % 8)
    have hlt : p.val - 512 * (n % 8) < 512 := by omega
    have hrow : row (n % 8) ⟨p.val - 512 * (n % 8), hlt⟩ = p := by
      apply Fin.ext
      show (n % 8 % 8) * 512 + (p.val - 512 * (n % 8)) = p.val
      omega
    refine (View.read_writes_cons_rows_of_mem arg7.view (harg7.unread xo) (k0_off1_inb i) _ [] (ix2 p o)
      (ix2 (⟨p.val - 512 * (n % 8), hlt⟩ : Fin 512) o) (off1_eq i)
      (by show p.val = 512 * (i 1).val + (p.val - 512 * (n % 8)); rw [hi]; omega) rfl).trans ?_
    rw [pay11_apply]
    -- the entry before, read through the strip's rectangle, is the block's entry at (p, o)
    have hold : View.ld xo (rowsOf i) (ix2 (⟨p.val - 512 * (n % 8), hlt⟩ : Fin 512) o) = accKer X A Wl Win Wout (n / 8) p o := by
      show xo ((rowsOf i).idx (ix2 _ o)) = _
      rw [rowsOf_idx i n hi, hrow, hxo]
      unfold outAt
      rw [e1, if_neg (by omega), if_neg (by omega)]
    -- the strip's row against a column of the augmented source projection
    have hsum : ∀ c : Fin 128, (∑ j : Fin 4096, k0_pay10 (F := Ideal) x1 (ix2 (⟨p.val - 512 * (n % 8), hlt⟩ : Fin 512) j) * xh (ix2 j c))
        = ∑ j : Fin 4096, A (ix3 (rel (n / 8)) p j) * augIn X Win (rel (n / 8)) j c := fun c =>
      Finset.sum_congr rfl fun j _ => by rw [pay10_apply, hx1, hrow, hxh]
    rw [hold, hsum, hsum, prop_aug, rowDeg_aug]
    unfold outAt
    rw [if_neg h2, if_pos (by omega)]
    rfl
  · -- a row outside the strip keeps its entry
    refine (View.read_writes_cons_rows_of_not_mem arg7.view (harg7.unread xo) (k0_off1_inb i) _ [] (ix2 p o)
      (off1_eq i) (W := 512) rfl
      (by show p.val < 512 * (i 1).val ∨ 512 * (i 1).val + 512 ≤ p.val; rw [hi]; omega)).trans ?_
    rw [View.writes_nil, harg7.read_unread, hxo]
    unfold outAt
    rw [e1]
    by_cases hlt : p.val / 512 < n % 8
    · -- an earlier strip: the source term is there before and after
      rw [if_neg (by omega), if_pos (by omega), if_neg h2, if_pos (by omega)]
    · -- a later strip: the source term is not there yet
      rw [if_neg (by omega), if_neg (by omega), if_neg h2, if_neg (by omega)]

/-- The invariant's transposed features are the transpose of the features at every point. -/
theorem specAt_xt (n : ℕ) : (specAt X A Wl Win Wout n).2.1 = fun y => X (ix2 (y 1) (y 0)) := rfl

variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec Ideal S4096x64 .f32) (x1 : Vec Ideal S1x512x4096 .f32) (x2 : Vec Ideal S64x64 .f32) (x3 : Vec Ideal S1x64x64 .f32) (x4 : Vec Ideal S1x64x64 .f32)
variable (xo : Vec Ideal S4096x64 .f32) (xt : Vec Ideal S64x4096 .f32) (xh : Vec Ideal S4096x128 .bf16) (xg : Vec Ideal S72x4096 .bf16) (xa : Vec Ideal S72x4096 .f32)

/-- The output block's component of the step. -/
theorem stepB_c1 (hc0 : ¬cond0 i) (hc1 : ¬cond1 i) (hc2 : ¬cond2 i) (n : ℕ) (h1 : n % 8 ≠ 0) (h2 : n % 8 ≠ 7)
    (hi : (i 1).val = n % 8) (hx1 : ∀ (p : Fin 512) (j : Fin 4096), x1 (ix3 (0 : Fin 1) p j) = A (ix3 (rel (n / 8)) (row (n % 8) p) j))
    (hxo : xo = (specAt X A Wl Win Wout (n - 1)).1) (hxh : xh = (specAt X A Wl Win Wout (n - 1)).2.2.1) :
    (soutB (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).1 = (specAt X A Wl Win Wout n).1 := by
  have e1 : (n - 1) / 8 = n / 8 := by omega
  refine (soutB_out c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans ?_
  funext y
  obtain ⟨p, o, rfl⟩ : ∃ (p : Fin 4096) (o : Fin 64), y = ix2 p o := ⟨y 0, y 1, eq_ix2 y⟩
  exact stepB_out X A Wl Win Wout i arg7 harg7 x1 xo xh n h1 h2 hi hx1
    (fun p o => congrFun hxo (ix2 p o))
    (fun j c => (congrFun hxh (ix2 j c)).trans (by
      show augIn X Win (rel ((n - 1) / 8)) j c = _
      rw [e1])) p o

/-- The accumulator's component of the step. -/
theorem stepB_c5 (hc0 : ¬cond0 i) (hc1 : ¬cond1 i) (hc2 : ¬cond2 i) (n : ℕ) (h1 : n % 8 ≠ 0)
    (hi : (i 1).val = n % 8) (hx1 : ∀ (p : Fin 512) (j : Fin 4096), x1 (ix3 (0 : Fin 1) p j) = A (ix3 (rel (n / 8)) (row (n % 8) p) j))
    (hxg : xg = (specAt X A Wl Win Wout (n - 1)).2.2.2.1) (hxa : xa = (specAt X A Wl Win Wout (n - 1)).2.2.2.2) :
    (soutB (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.2 = (specAt X A Wl Win Wout n).2.2.2.2 := by
  have e1 : (n - 1) / 8 = n / 8 := by omega
  have e2 : (n - 1) % 8 = n % 8 - 1 := by omega
  refine (soutB_acc c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans ?_
  funext y
  obtain ⟨k, q, rfl⟩ : ∃ (k : Fin 72) (q : Fin 4096), y = ix2 k q := ⟨y 0, y 1, eq_ix2 y⟩
  exact stepB_acc X A Wout i x1 xg xa n h1 hi hx1
    (fun k j => (congrFun hxg (ix2 k j)).trans (by
      show augOutT X Wout (rel ((n - 1) / 8)) k j = _
      rw [e1]))
    (fun k q => (congrFun hxa (ix2 k q)).trans (by
      show accT X A Wout (rel ((n - 1) / 8)) ((n - 1) % 8) k q = _
      rw [e1, e2])) k q

theorem stepB (hc0 : ¬cond0 i) (hc1 : ¬cond1 i) (hc2 : ¬cond2 i) (n : ℕ) (hn : n < 32) (h1 : n % 8 ≠ 0) (h2 : n % 8 ≠ 7)
    (hi : (i 1).val = n % 8) (hx1 : ∀ (p : Fin 512) (j : Fin 4096), x1 (ix3 (0 : Fin 1) p j) = A (ix3 (rel (n / 8)) (row (n % 8) p) j))
    (hprev : ((xo, xt, xh, xg, xa) : St Ideal) = specAt X A Wl Win Wout (n - 1)) :
    soutB (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2 = specAt X A Wl Win Wout n := by
  -- the point before lies in the same relation
  have e1 : (n - 1) / 8 = n / 8 := by omega
  -- the five buffers before are the invariant's five components at n − 1
  have hxo : xo = (specAt X A Wl Win Wout (n - 1)).1 := congrArg Prod.fst hprev
  have hxt : xt = (specAt X A Wl Win Wout (n - 1)).2.1 := congrArg (fun s => s.2.1) hprev
  have hxh : xh = (specAt X A Wl Win Wout (n - 1)).2.2.1 := congrArg (fun s => s.2.2.1) hprev
  have hxg : xg = (specAt X A Wl Win Wout (n - 1)).2.2.2.1 := congrArg (fun s => s.2.2.2.1) hprev
  have hxa : xa = (specAt X A Wl Win Wout (n - 1)).2.2.2.2 := congrArg (fun s => s.2.2.2.2) hprev
  refine Prod.ext ?_ (Prod.ext ?_ (Prod.ext ?_ (Prod.ext ?_ ?_)))
  · -- the output block: the strip's rows overwritten
    exact stepB_c1 X A Wl Win Wout c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2 n h1 h2 hi hx1 hxo hxh
  · -- the transposed features are untouched and do not depend on the point
    exact (soutB_xt c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans (hxt.trans
      ((specAt_xt X A Wl Win Wout (n - 1)).trans (specAt_xt X A Wl Win Wout n).symm))
  · -- the augmented source projection is untouched, and the relation is the same
    refine (soutB_hin c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans (hxh.trans ?_)
    funext y
    show augIn X Win (rel ((n - 1) / 8)) (y 0) (y 1) = augIn X Win (rel (n / 8)) (y 0) (y 1)
    rw [e1]
  · -- so is the augmented transposed reverse projection
    refine (soutB_hout c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans (hxg.trans ?_)
    funext y
    show augOutT X Wout (rel ((n - 1) / 8)) (y 0) (y 1) = augOutT X Wout (rel (n / 8)) (y 0) (y 1)
    rw [e1]
  · -- the accumulator: one more strip's product
    exact stepB_c5 X A Wl Win Wout c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2 n h1 hi hx1 hxg hxa

end Cert.KernelIdeal.Val

end
-- ==== Proof.KI.StepC.lean ====
/-
  The last strip of a relation takes the invariant at n − 1 to the invariant at n: as an inner strip, and then the
  whole output block gains the relation's reverse term, the accumulator being the whole transposed product by then.
-/
import proofs.«152055_g50646254354673_cont_8to1_c_444_7_alg».proof.Proof.KI.Closed
import proofs.«152055_g50646254354673_cont_8to1_c_444_7_alg».proof.Proof.KI.SpecAt
import proofs.«152055_g50646254354673_cont_8to1_c_444_7_alg».proof.Proof.KI.PayA
import proofs.«152055_g50646254354673_cont_8to1_c_444_7_alg».proof.Proof.KI.PayB
import proofs.«152055_g50646254354673_cont_8to1_c_444_7_alg».proof.Proof.KI.PayC
import Idealize.ShloMosaic.Lib.WritesUnit

set_option maxRecDepth 16384

noncomputable section

namespace Cert.KernelIdeal.Val

open Idealize.ShloMosaic Idealize.ShloMosaic.ValueIdx Cert.KernelIdeal Cert.KernelIdeal.Gen Cert.KernelIdeal.Body Cert.KernelIdeal.Pay Cert.Spec

/-! ## Where the loads and the store of the last strip land -/

theorem lastStrip_off1_0 (i : grid0.Coords) : k0_off1 i 0 = 512 * (i 1).val := congrFun (off1_eq i) 0
theorem lastStrip_off1_1 (i : grid0.Coords) : k0_off1 i 1 = 0 := congrFun (off1_eq i) 1
theorem lastStrip_off2_0 (i : grid0.Coords) : k0_off2 i 0 = 0 := congrFun (off2_eq i) 0
theorem lastStrip_off2_1 (i : grid0.Coords) : k0_off2 i 1 = 512 * (i 1).val := congrFun (off2_eq i) 1

/-- Column `j` of the 512 columns of the augmented transposed projection the last strip loads is row `j` of strip 7. -/
theorem lastStrip_colsOf_idx (i : grid0.Coords) (hi : (i 1).val = 7) (k : Fin 72) (j : Fin 512) :
    (colsOf i).idx (ix2 k j) = ix2 k (row 7 j) := by
  have h0 := lastStrip_off2_0 i
  have h1 := lastStrip_off2_1 i
  funext a
  match a with
  | ⟨0, _⟩ => exact Fin.ext (by show k0_off2 i 0 + 1 * k.val = k.val; omega)
  | ⟨1, _⟩ => exact Fin.ext (by show k0_off2 i 1 + 1 * j.val = (7 % 8) * 512 + j.val; omega)

/-- Row `j` of the 512 rows of the output block the last strip updates is row `j` of strip 7. -/
theorem lastStrip_rowsOf_idx (i : grid0.Coords) (hi : (i 1).val = 7) (j : Fin 512) (o : Fin 64) :
    (rowsOf i).idx (ix2 j o) = ix2 (row 7 j) o := by
  have h0 := lastStrip_off1_0 i
  have h1 := lastStrip_off1_1 i
  funext a
  match a with
  | ⟨0, _⟩ => exact Fin.ext (by show k0_off1 i 0 + 1 * j.val = (7 % 8) * 512 + j.val; omega)
  | ⟨1, _⟩ => exact Fin.ext (by show k0_off1 i 1 + 1 * o.val = o.val; omega)

/-- The degree row of the accumulator is its row 64. -/
theorem lastStrip_rDeg_idx (p : Fin 4096) : rDeg.idx (ix2 (0 : Fin 1) p) = ix2 (⟨64, by omega⟩ : Fin 72) p := by
  funext a
  match a with
  | ⟨0, _⟩ => exact Fin.ext (by show 64 + 1 * 0 = 64; rfl)
  | ⟨1, _⟩ => exact Fin.ext (by show 0 + 1 * p.val = p.val; omega)

/-- The first 64 rows of the accumulator, read as a block. -/
theorem lastStrip_rTop_idx (o : Fin 64) (p : Fin 4096) : rTop.idx (ix2 o p) = ix2 (⟨o.val, by omega⟩ : Fin 72) p := by
  funext a
  match a with
  | ⟨0, _⟩ => exact Fin.ext (by show 0 + 1 * o.val = o.val; omega)
  | ⟨1, _⟩ => exact Fin.ext (by show 0 + 1 * p.val = p.val; omega)

/-! ## The transposed accumulator after the last strip -/

section acc
variable (X : SX.Idx → EReal) (A : SA.Idx → EReal) (Wout : SR.Idx → EReal)

/-- The accumulator over strips 0 … 6 plus the strip-7 product is the accumulator over all eight strips. -/
theorem lastStrip_acc (i : grid0.Coords) (hi : (i 1).val = 7) (r : Fin 4) (x1 : Vec Ideal S1x512x4096 .f32)
    (hx1 : ∀ (p : Fin 512) (j : Fin 4096), x1 (ix3 (0 : Fin 1) p j) = A (ix3 r (row 7 p) j)) :
    k0_pay1 (F := Ideal) (fun y => accT X A Wout r 6 (y 0) (y 1) : Vec Ideal S72x4096 .f32)
        (View.ld (fun y => augOutT X Wout r (y 0) (y 1) : Vec Ideal S72x4096 .bf16) (colsOf i)) (k0_pay10 x1)
      = (fun y => accT X A Wout r 7 (y 0) (y 1) : Vec Ideal S72x4096 .f32) := by
  funext y
  obtain ⟨k, q, rfl⟩ : ∃ (k : Fin 72) (q : Fin 4096), y = ix2 k q := ⟨y 0, y 1, eq_ix2 y⟩
  rw [pay1_apply]
  -- one more step of the accumulator's recursion
  show accT X A Wout r 6 k q + _
    = accT X A Wout r 6 k q + ∑ j : Fin 512, augOutT X Wout r k (row (6 + 1) j) * A (ix3 r (row (6 + 1) j) q)
  refine congrArg (accT X A Wout r 6 k q + ·) (Finset.sum_congr rfl fun j _ => ?_)
  rw [pay10_apply, hx1]
  show augOutT X Wout r ((colsOf i).idx (ix2 k j) 0) ((colsOf i).idx (ix2 k j) 1) * _ = _
  rw [lastStrip_colsOf_idx i hi k j]

end acc

/-! ## The output block after the strip's own update -/

section ob
variable (X : SX.Idx → EReal) (A : SA.Idx → EReal) (Win : SR.Idx → EReal)
variable (arg7 : Memref sig .tc .vmem S4096x64 .f32) (harg7 : arg7.IsWhole)

/-- Every row of the output block then carries the relation's source term: the rows of strips 0 … 6 from the strips
    before, the rows of strip 7 from this one. -/
theorem lastStrip_out (i : grid0.Coords) (hi : (i 1).val = 7) (r : Fin 4) (B : Fin 4096 → Fin 64 → EReal)
    (x1 : Vec Ideal S1x512x4096 .f32) (xo : Vec Ideal S4096x64 .f32) (xh : Vec Ideal S4096x128 .bf16)
    (hx1 : ∀ (p : Fin 512) (j : Fin 4096), x1 (ix3 (0 : Fin 1) p j) = A (ix3 r (row 7 p) j))
    (hxo : ∀ (p : Fin 4096) (o : Fin 64), xo (ix2 p o) = if p.val / 512 ≤ 6 then B p o + srcKer X A Win r p o else B p o)
    (hxh : ∀ (j : Fin 4096) (c : Fin 128), xh (ix2 j c) = augIn X Win r j c)
    (p : Fin 4096) (o : Fin 64) :
    arg7.view.read (Elt Ideal) (arg7.view.writes (Elt Ideal) (harg7.unread xo)
        [⟨rowsOf i, k0_pay11 (k0_pay10 x1) xh (View.ld xo (rowsOf i))⟩]) (ix2 p o)
      = B p o + srcKer X A Win r p o := by
  have hp := p.isLt
  by_cases hs : 3584 ≤ p.val
  · -- a row of strip 7: the stored payload at the row's place in the strip
    have hj : p.val - 3584 < 512 := by omega
    have hrow : row 7 ⟨p.val - 3584, hj⟩ = p := Fin.ext (by show (7 % 8) * 512 + (p.val - 3584) = p.val; omega)
    rw [View.read_writes_cons_rows_of_mem arg7.view (harg7.unread xo) (k0_off1_inb i) _ [] (ix2 p o)
      (ix2 (⟨p.val - 3584, hj⟩ : Fin 512) o) (off1_eq i) (by show p.val = 512 * (i 1).val + (p.val - 3584); omega) rfl]
    rw [pay11_apply]
    -- the old entry, loaded through the strip's rows
    have hold : View.ld xo (rowsOf i) (ix2 (⟨p.val - 3584, hj⟩ : Fin 512) o) = B p o := by
      show xo ((rowsOf i).idx (ix2 (⟨p.val - 3584, hj⟩ : Fin 512) o)) = _
      rw [lastStrip_rowsOf_idx i hi, hrow, hxo, if_neg (by omega)]
    rw [hold]
    refine congrArg (B p o + ·) ?_
    -- the strip's rows of the adjacency against the augmented projection
    have hsum : ∀ c : Fin 128, (∑ j : Fin 4096, k0_pay10 (F := Ideal) x1 (ix2 (⟨p.val - 3584, hj⟩ : Fin 512) j) * xh (ix2 j c))
        = ∑ j : Fin 4096, A (ix3 r p j) * augIn X Win r j c := fun c =>
      Finset.sum_congr rfl fun j _ => by rw [pay10_apply, hx1, hrow, hxh]
    rw [hsum, hsum, prop_aug, rowDeg_aug]
    rfl
  · -- a row of an earlier strip: untouched by this store
    rw [View.read_writes_cons_rows_of_not_mem arg7.view (harg7.unread xo) (k0_off1_inb i) _ [] (ix2 p o) (off1_eq i)
      (show S512x64.size (0 : Fin 2) = 512 from rfl) (Or.inl (by show p.val < 512 * (i 1).val; omega))]
    rw [View.writes_nil, harg7.read_unread, hxo, if_pos (by omega)]

end ob

/-! ## The step -/

variable (X : SX.Idx → EReal) (A : SA.Idx → EReal) (Wl : SW.Idx → EReal) (Win Wout : SR.Idx → EReal)
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec Ideal S4096x64 .f32) (x1 : Vec Ideal S1x512x4096 .f32) (x2 : Vec Ideal S64x64 .f32) (x3 : Vec Ideal S1x64x64 .f32) (x4 : Vec Ideal S1x64x64 .f32)
variable (xo : Vec Ideal S4096x64 .f32) (xt : Vec Ideal S64x4096 .f32) (xh : Vec Ideal S4096x128 .bf16) (xg : Vec Ideal S72x4096 .bf16) (xa : Vec Ideal S72x4096 .f32)

theorem stepC (hc0 : ¬cond0 i) (hc1 : ¬cond1 i) (hc2 : cond2 i) (n : ℕ) (hn : n < 32) (h2 : n % 8 = 7)
    (hi : (i 1).val = n % 8) (hx1 : ∀ (p : Fin 512) (j : Fin 4096), x1 (ix3 (0 : Fin 1) p j) = A (ix3 (rel (n / 8)) (row (n % 8) p) j))
    (hprev : ((xo, xt, xh, xg, xa) : St Ideal) = specAt X A Wl Win Wout (n - 1)) :
    soutC (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2 = specAt X A Wl Win Wout n := by
  -- the strip is the last of its relation: strip 7 of relation n / 8, the point before being strip 6 of the same
  rw [h2] at hi hx1
  have h8 : (n - 1) / 8 = n / 8 := by omega
  have h6 : (n - 1) % 8 = 6 := by omega
  -- the five buffers the point before left
  have hxo : xo = (fun y => outAt X A Wl Win Wout (n - 1) (y 0) (y 1) : Vec Ideal S4096x64 .f32) := congrArg Prod.fst hprev
  have hxt : xt = (fun y => X (ix2 (y 1) (y 0)) : Vec Ideal S64x4096 .f32) := congrArg (fun s => s.2.1) hprev
  have hxh : xh = (fun y => augIn X Win (rel (n / 8)) (y 0) (y 1) : Vec Ideal S4096x128 .bf16) :=
    (congrArg (fun s => s.2.2.1) hprev).trans
      (congrArg (fun m => (fun y => augIn X Win (rel m) (y 0) (y 1) : Vec Ideal S4096x128 .bf16)) h8)
  have hxg : xg = (fun y => augOutT X Wout (rel (n / 8)) (y 0) (y 1) : Vec Ideal S72x4096 .bf16) :=
    (congrArg (fun s => s.2.2.2.1) hprev).trans
      (congrArg (fun m => (fun y => augOutT X Wout (rel m) (y 0) (y 1) : Vec Ideal S72x4096 .bf16)) h8)
  have hxa : xa = (fun y => accT X A Wout (rel (n / 8)) 6 (y 0) (y 1) : Vec Ideal S72x4096 .f32) :=
    (congrArg (fun s => s.2.2.2.2) hprev).trans
      (congrArg₂ (fun m s => (fun y => accT X A Wout (rel m) s (y 0) (y 1) : Vec Ideal S72x4096 .f32)) h8 h6)
  -- the accumulator this strip leaves
  have hacc : k0_pay1 (F := Ideal) xa (View.ld xg (colsOf i)) (k0_pay10 x1)
      = (fun y => accT X A Wout (rel (n / 8)) 7 (y 0) (y 1) : Vec Ideal S72x4096 .f32) := by
    rw [hxa, hxg]; exact lastStrip_acc X A Wout i hi (rel (n / 8)) x1 hx1
  refine Prod.ext ?_ (Prod.ext ?_ (Prod.ext ?_ (Prod.ext ?_ ?_)))
  · -- the output block: every row has the source term by now, and gains the reverse term
    rw [soutC_out, hacc]
    show _ = (fun y => outAt X A Wl Win Wout n (y 0) (y 1) : Vec Ideal S4096x64 .f32)
    funext y
    obtain ⟨p, o, rfl⟩ : ∃ (p : Fin 4096) (o : Fin 64), y = ix2 p o := ⟨y 0, y 1, eq_ix2 y⟩
    rw [pay2_apply]
    rw [lastStrip_out X A Win arg7 harg7 i hi (rel (n / 8)) (accKer X A Wl Win Wout (n / 8)) x1 xo xh hx1
      (fun p o => by rw [hxo]; show outAt X A Wl Win Wout (n - 1) p o = _; unfold outAt; rw [h6, h8, if_neg (by decide)])
      (fun j c => by rw [hxh]) p o]
    show _ + (fun y => accT X A Wout (rel (n / 8)) 7 (y 0) (y 1) : Vec Ideal S72x4096 .f32) (rTop.idx (ix2 o p))
        * Ideal.div 1 (max ((fun y => accT X A Wout (rel (n / 8)) 7 (y 0) (y 1) : Vec Ideal S72x4096 .f32) (rDeg.idx (ix2 (0 : Fin 1) p))) eps)
      = outAt X A Wl Win Wout n p o
    rw [lastStrip_rTop_idx, lastStrip_rDeg_idx]
    show _ + accT X A Wout (rel (n / 8)) 7 ⟨o.val, by omega⟩ p * Ideal.div 1 (max (accT X A Wout (rel (n / 8)) 7 ⟨64, by omega⟩ p) eps) = _
    rw [accT_full_lt, accT_full_deg]
    unfold outAt
    rw [if_pos h2]
    rfl
  · exact hxt
  · exact hxh
  · exact hxg
  · rw [soutC_acc, hacc]
    show _ = (fun y => accT X A Wout (rel (n / 8)) (n % 8) (y 0) (y 1) : Vec Ideal S72x4096 .f32)
    rw [h2]

end Cert.KernelIdeal.Val

end
-- ==== Proof.KI.StepD.lean ====
/-
  The first strip of a later relation takes the invariant at n − 1 (the end of the relation before) to the invariant
  at n: the two projections are renewed beside their constant collector strips, the accumulator restarts from zero with
  the first strip's product, and the first strip's rows of the output block gain the new relation's source term.
-/
import proofs.«152055_g50646254354673_cont_8to1_c_444_7_alg».proof.Proof.KI.Closed
import proofs.«152055_g50646254354673_cont_8to1_c_444_7_alg».proof.Proof.KI.SpecAt
import proofs.«152055_g50646254354673_cont_8to1_c_444_7_alg».proof.Proof.KI.PayA
import proofs.«152055_g50646254354673_cont_8to1_c_444_7_alg».proof.Proof.KI.PayB
import proofs.«152055_g50646254354673_cont_8to1_c_444_7_alg».proof.Proof.KI.PayC
import Idealize.ShloMosaic.Lib.WritesUnit

set_option maxRecDepth 16384

noncomputable section

namespace Cert.KernelIdeal.Val

open Idealize.ShloMosaic Idealize.ShloMosaic.ValueIdx Cert.KernelIdeal Cert.KernelIdeal.Gen Cert.KernelIdeal.Body Cert.KernelIdeal.Pay Cert.Spec

variable (X : SX.Idx → EReal) (A : SA.Idx → EReal) (Wl : SW.Idx → EReal) (Win Wout : SR.Idx → EReal)
variable (c : Dev nD) (i : grid0.Coords) (arg2 : Memref sig .tc .vmem S4096x64 .f32) (harg2 : arg2.IsWhole) (arg3 : Memref sig .tc .vmem S1x512x4096 .f32) (harg3 : arg3.IsWhole) (arg4 : Memref sig .tc .vmem S64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S4096x64 .f32) (harg7 : arg7.IsWhole) (arg8 : Memref sig .tc .vmem S64x4096 .f32) (harg8 : arg8.IsWhole) (arg9 : Memref sig .tc .vmem S4096x128 .bf16) (harg9 : arg9.IsWhole) (arg10 : Memref sig .tc .vmem S72x4096 .bf16) (harg10 : arg10.IsWhole) (arg11 : Memref sig .tc .vmem S72x4096 .f32) (harg11 : arg11.IsWhole) (arg12 : Memref sig .tc .vmem S512x4096 .bf16) (harg12 : arg12.IsWhole)
variable (x0 : Vec Ideal S4096x64 .f32) (x1 : Vec Ideal S1x512x4096 .f32) (x2 : Vec Ideal S64x64 .f32) (x3 : Vec Ideal S1x64x64 .f32) (x4 : Vec Ideal S1x64x64 .f32)
variable (xo : Vec Ideal S4096x64 .f32) (xt : Vec Ideal S64x4096 .f32) (xh : Vec Ideal S4096x128 .bf16) (xg : Vec Ideal S72x4096 .bf16) (xa : Vec Ideal S72x4096 .f32)

/-- The renewed augmented source projection at an entry: a column below 64 holds the new relation's projection, a
    column from 64 on keeps its constant (one in column 64, zero beyond), the same for every relation. -/
theorem stepD_hin_at (n : ℕ) (r' : Fin 4) (hx0 : ∀ (p : Fin 4096) (d : Fin 64), x0 (ix2 p d) = X (ix2 p d))
    (hx3 : ∀ (d o : Fin 64), x3 (ix3 (0 : Fin 1) d o) = Win (ix3 (rel (n / 8)) d o))
    (hxh : ∀ (j : Fin 4096) (k : Fin 128), xh (ix2 j k) = augIn X Win r' j k)
    (j : Fin 4096) (k : Fin 128) :
    arg9.view.read (Elt Ideal) (arg9.view.writes (Elt Ideal) (harg9.unread xh) [⟨rLeft, k0_pay7 x0 x3⟩]) (ix2 j k)
      = augIn X Win (rel (n / 8)) j k := by
  by_cases h : k.val < 64
  · refine (View.read_writes_cons_unit_of_mem arg9.view (harg9.unread xh) inb_S4096x128_S4096x64_0_0 (k0_pay7 x0 x3) []
      (ix2 j k) (ix2 j (⟨k.val, h⟩ : Fin 64)) (rfl : (![0, 0] : Fin 2 → ℕ) = ![0, 0])
      (Fin.forall_fin_two.mpr ⟨(Nat.zero_add _).symm, (Nat.zero_add _).symm⟩)).trans ?_
    rw [pay7_apply]
    unfold augIn
    rw [dif_pos h]
    unfold hIn
    exact Finset.sum_congr rfl fun d _ => by rw [hx0, hx3]
  · refine (View.read_writes_cons_unit_of_not_mem arg9.view (harg9.unread xh) inb_S4096x128_S4096x64_0_0 (k0_pay7 x0 x3) []
      (ix2 j k) (rfl : (![0, 0] : Fin 2 → ℕ) = ![0, 0]) (1 : Fin 2) (Or.inr (by show 0 + 64 ≤ k.val; omega))).trans ?_
    rw [View.writes_nil, harg9.read_unread, hxh]
    unfold augIn
    rw [dif_neg h, dif_neg h]

/-- The renewed augmented transposed reverse projection at an entry: a row below 64 holds the new relation's
    transposed projection, a row from 64 on keeps its constant (one in row 64, zero beyond). -/
theorem stepD_hout_at (n : ℕ) (r' : Fin 4)
    (hx4 : ∀ (d o : Fin 64), x4 (ix3 (0 : Fin 1) d o) = Wout (ix3 (rel (n / 8)) d o))
    (hxt : ∀ (d : Fin 64) (j : Fin 4096), xt (ix2 d j) = X (ix2 j d))
    (hxg : ∀ (k : Fin 72) (j : Fin 4096), xg (ix2 k j) = augOutT X Wout r' k j)
    (k : Fin 72) (j : Fin 4096) :
    arg10.view.read (Elt Ideal) (arg10.view.writes (Elt Ideal) (harg10.unread xg) [⟨rTop, k0_pay8 x4 xt⟩]) (ix2 k j)
      = augOutT X Wout (rel (n / 8)) k j := by
  by_cases h : k.val < 64
  · refine (View.read_writes_cons_unit_of_mem arg10.view (harg10.unread xg) inb_S72x4096_S64x4096_0_0 (k0_pay8 x4 xt) []
      (ix2 k j) (ix2 (⟨k.val, h⟩ : Fin 64) j) (rfl : (![0, 0] : Fin 2 → ℕ) = ![0, 0])
      (Fin.forall_fin_two.mpr ⟨(Nat.zero_add _).symm, (Nat.zero_add _).symm⟩)).trans ?_
    rw [pay8_apply]
    unfold augOutT
    rw [dif_pos h]
    unfold hOutT
    exact Finset.sum_congr rfl fun d _ => by rw [hx4, hxt]
  · refine (View.read_writes_cons_unit_of_not_mem arg10.view (harg10.unread xg) inb_S72x4096_S64x4096_0_0 (k0_pay8 x4 xt) []
      (ix2 k j) (rfl : (![0, 0] : Fin 2 → ℕ) = ![0, 0]) (0 : Fin 2) (Or.inr (by show 0 + 64 ≤ k.val; omega))).trans ?_
    rw [View.writes_nil, harg10.read_unread, hxg]
    unfold augOutT
    rw [dif_neg h, dif_neg h]

/-- The strip's first column in the augmented transposed projection, at the first strip: local column j is row j of
    strip 0. -/
theorem stepD_colsOf_idx (hi : (i 1).val = 0) (k : Fin 72) (j : Fin 512) :
    (colsOf i).idx (ix2 k j) = ix2 k (row 0 j) := by
  funext a
  apply Fin.ext
  have h2 := congrFun (off2_eq i) a
  match a with
  | ⟨0, _⟩ =>
    show k0_off2 i 0 + 1 * k.val = k.val
    have h2' : k0_off2 i 0 = 0 := h2
    rw [h2']; omega
  | ⟨1, _⟩ =>
    show k0_off2 i 1 + 1 * j.val = 0 % 8 * 512 + j.val
    have h2' : k0_off2 i 1 = 512 * (i 1).val := h2
    rw [h2', hi]; omega

/-- The transposed accumulator restarted: zero plus the first strip's product. -/
theorem stepD_acc_at (n : ℕ) (hi : (i 1).val = 0)
    (hx1 : ∀ (p : Fin 512) (j : Fin 4096), x1 (ix3 (0 : Fin 1) p j) = A (ix3 (rel (n / 8)) (row 0 p) j))
    (k : Fin 72) (q : Fin 4096) :
    k0_pay1 (F := Ideal) (k0_pay9 (F := Ideal)) (View.ld (fun y => augOutT X Wout (rel (n / 8)) (y 0) (y 1) : Vec Ideal S72x4096 .bf16) (colsOf i)) (k0_pay10 x1) (ix2 k q)
      = accT X A Wout (rel (n / 8)) 0 k q := by
  rw [pay1_apply, pay9_apply]
  show _ = 0 + ∑ j : Fin 512, augOutT X Wout (rel (n / 8)) k (row 0 j) * A (ix3 (rel (n / 8)) (row 0 j) q)
  refine congrArg ((0 : EReal) + ·) (Finset.sum_congr rfl fun j _ => ?_)
  rw [pay10_apply, hx1]
  show augOutT X Wout (rel (n / 8)) (((colsOf i).idx (ix2 k j)) 0) (((colsOf i).idx (ix2 k j)) 1) * _ = _
  rw [stepD_colsOf_idx i hi k j]

/-- The strip's first row in the output block, at the first strip: local row p is row p. -/
theorem stepD_rowsOf_idx (hi : (i 1).val = 0) (p : Fin 4096) (hp : p.val < 512) (o : Fin 64) :
    (rowsOf i).idx (ix2 (⟨p.val, hp⟩ : Fin 512) o) = ix2 p o := by
  funext a
  apply Fin.ext
  have h1 := congrFun (off1_eq i) a
  match a with
  | ⟨0, _⟩ =>
    show k0_off1 i 0 + 1 * p.val = p.val
    have h1' : k0_off1 i 0 = 512 * (i 1).val := h1
    rw [h1', hi]; omega
  | ⟨1, _⟩ =>
    show k0_off1 i 1 + 1 * o.val = o.val
    have h1' : k0_off1 i 1 = 0 := h1
    rw [h1']; omega

/-- A row below 512 is its own row of strip 0. -/
theorem stepD_row_zero (p : Fin 4096) (hp : p.val < 512) : row 0 (⟨p.val, hp⟩ : Fin 512) = p :=
  Fin.ext (by show 0 % 8 * 512 + p.val = p.val; omega)

/-- The output block after the first strip of a later relation: the rows of strip 0 gain the new relation's source
    term over the finished relations' total, the other rows keep that total. -/
theorem stepD_out_at (n : ℕ) (hz : n ≠ 0) (h1 : n % 8 = 0) (hi : (i 1).val = 0)
    (hx1 : ∀ (p : Fin 512) (j : Fin 4096), x1 (ix3 (0 : Fin 1) p j) = A (ix3 (rel (n / 8)) (row 0 p) j))
    (hxo : ∀ (p : Fin 4096) (o : Fin 64), xo (ix2 p o) = outAt X A Wl Win Wout (n - 1) p o)
    (p : Fin 4096) (o : Fin 64) :
    arg7.view.read (Elt Ideal) (arg7.view.writes (Elt Ideal) (harg7.unread xo)
        [⟨rowsOf i, k0_pay11 (k0_pay10 x1) (fun y => augIn X Win (rel (n / 8)) (y 0) (y 1) : Vec Ideal S4096x128 .bf16) (View.ld xo (rowsOf i))⟩]) (ix2 p o)
      = outAt X A Wl Win Wout n p o := by
  -- the block before: every row holds the total of the finished relations
  have hold : ∀ (p : Fin 4096) (o : Fin 64), xo (ix2 p o) = accKer X A Wl Win Wout (n / 8) p o := fun p o => by
    rw [hxo]
    unfold outAt
    rw [if_pos (by omega), show (n - 1) / 8 + 1 = n / 8 by omega]
  have h7 : ¬ n % 8 = 7 := by omega
  by_cases hp : p.val < 512
  · refine (View.read_writes_cons_rows_of_mem arg7.view (harg7.unread xo) (k0_off1_inb i) _ [] (ix2 p o)
      (ix2 (⟨p.val, hp⟩ : Fin 512) o) (off1_eq i) (by show p.val = 512 * (i 1).val + p.val; omega) rfl).trans ?_
    rw [pay11_apply]
    show xo ((rowsOf i).idx (ix2 (⟨p.val, hp⟩ : Fin 512) o)) + _ = _
    rw [stepD_rowsOf_idx i hi p hp o, hold]
    unfold outAt
    rw [if_neg h7, if_pos (by omega)]
    unfold srcKer
    refine congrArg (accKer X A Wl Win Wout (n / 8) p o + ·) ?_
    have hs : ∀ j : Fin 4096, k0_pay10 (F := Ideal) x1 (ix2 (⟨p.val, hp⟩ : Fin 512) j) = A (ix3 (rel (n / 8)) p j) := fun j => by
      rw [pay10_apply, hx1, stepD_row_zero p hp]
    refine congrArg₂ (· * ·) ?_ ?_
    · refine (Finset.sum_congr rfl fun j _ => ?_).trans (prop_aug X A Win (rel (n / 8)) p o)
      rw [hs]
    · refine congrArg (fun x => Ideal.div 1 (max x eps)) ?_
      refine (Finset.sum_congr rfl fun j _ => ?_).trans (rowDeg_aug X A Win (rel (n / 8)) p)
      rw [hs]
  · refine (View.read_writes_cons_rows_of_not_mem arg7.view (harg7.unread xo) (k0_off1_inb i) _ [] (ix2 p o)
      (off1_eq i) (rfl : S512x64.size (0 : Fin 2) = 512) (Or.inr (by show 512 * (i 1).val + 512 ≤ p.val; omega))).trans ?_
    rw [View.writes_nil, harg7.read_unread, hold]
    unfold outAt
    rw [if_neg h7, if_neg (by omega)]

theorem stepD (hc0 : ¬cond0 i) (hc1 : cond1 i) (hc2 : ¬cond2 i) (n : ℕ) (hn : n < 32) (hz : n ≠ 0) (h1 : n % 8 = 0)
    (hi : (i 1).val = 0) (hx0 : ∀ (p : Fin 4096) (d : Fin 64), x0 (ix2 p d) = X (ix2 p d)) (hx1 : ∀ (p : Fin 512) (j : Fin 4096), x1 (ix3 (0 : Fin 1) p j) = A (ix3 (rel (n / 8)) (row (n % 8) p) j)) (hx3 : ∀ (d o : Fin 64), x3 (ix3 (0 : Fin 1) d o) = Win (ix3 (rel (n / 8)) d o)) (hx4 : ∀ (d o : Fin 64), x4 (ix3 (0 : Fin 1) d o) = Wout (ix3 (rel (n / 8)) d o))
    (hprev : ((xo, xt, xh, xg, xa) : St Ideal) = specAt X A Wl Win Wout (n - 1)) :
    soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2 = specAt X A Wl Win Wout n := by
  -- the strip is strip 0
  rw [h1] at hx1
  -- what the point before left, buffer by buffer
  have hxo : xo = (specAt X A Wl Win Wout (n - 1)).1 := congrArg Prod.fst hprev
  have hxt : xt = (specAt X A Wl Win Wout (n - 1)).2.1 := congrArg (fun s => s.2.1) hprev
  have hxh : xh = (specAt X A Wl Win Wout (n - 1)).2.2.1 := congrArg (fun s => s.2.2.1) hprev
  have hxg : xg = (specAt X A Wl Win Wout (n - 1)).2.2.2.1 := congrArg (fun s => s.2.2.2.1) hprev
  -- the transposed features are untouched
  have e2 : (soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.1 = (fun y => X (ix2 (y 1) (y 0)) : Vec Ideal S64x4096 .f32) :=
    (soutD_xt (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).trans hxt
  -- the two projections are the new relation's
  have e3 : (soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.1 = (fun y => augIn X Win (rel (n / 8)) (y 0) (y 1) : Vec Ideal S4096x128 .bf16) := by
    rw [soutD_hin]
    funext y
    obtain ⟨j, k, rfl⟩ : ∃ (j : Fin 4096) (k : Fin 128), y = ix2 j k := ⟨y 0, y 1, eq_ix2 y⟩
    exact stepD_hin_at X Win arg9 harg9 x0 x3 xh n (rel ((n - 1) / 8)) hx0 hx3 (fun j k => congrFun hxh (ix2 j k)) j k
  have e4 : (soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.1 = (fun y => augOutT X Wout (rel (n / 8)) (y 0) (y 1) : Vec Ideal S72x4096 .bf16) := by
    rw [soutD_hout]
    funext y
    obtain ⟨k, j, rfl⟩ : ∃ (k : Fin 72) (j : Fin 4096), y = ix2 k j := ⟨y 0, y 1, eq_ix2 y⟩
    exact stepD_hout_at X Wout arg10 harg10 x4 xt xg n (rel ((n - 1) / 8)) hx4 (fun d j => congrFun hxt (ix2 d j))
      (fun k j => congrFun hxg (ix2 k j)) k j
  -- the accumulator restarts over the new transposed projection
  have e5 : (soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).2.2.2.2 = (fun y => accT X A Wout (rel (n / 8)) (n % 8) (y 0) (y 1) : Vec Ideal S72x4096 .f32) := by
    rw [soutD_acc, e4, h1]
    funext y
    obtain ⟨k, q, rfl⟩ : ∃ (k : Fin 72) (q : Fin 4096), y = ix2 k q := ⟨y 0, y 1, eq_ix2 y⟩
    exact stepD_acc_at X A Wout i x1 n hi hx1 k q
  -- the output block's first strip gains the new relation's source term
  have e1 : (soutD (F := Ideal) c i arg2 harg2 arg3 harg3 arg4 harg4 arg5 harg5 arg6 harg6 arg7 harg7 arg8 harg8 arg9 harg9 arg10 harg10 arg11 harg11 arg12 harg12 x0 x1 x2 x3 x4 xo xt xh xg xa hc0 hc1 hc2).1 = (fun y => outAt X A Wl Win Wout n (y 0) (y 1) : Vec Ideal S4096x64 .f32) := by
    rw [soutD_out, e3]
    funext y
    obtain ⟨p, o, rfl⟩ : ∃ (p : Fin 4096) (o : Fin 64), y = ix2 p o := ⟨y 0, y 1, eq_ix2 y⟩
    exact stepD_out_at X A Wl Win Wout i arg7 harg7 x1 xo n hz h1 hi hx1 (fun p o => congrFun hxo (ix2 p o)) p o
  exact Prod.ext e1 (Prod.ext e2 (Prod.ext e3 (Prod.ext e4 e5)))

end Cert.KernelIdeal.Val

end
-- ==== Proof.KI.Blocks.lean ====
/-
  Each input window's block at a grid point, read off its argument array: the features and the loop weight are staged
  whole at every point; at point t (relation t / 8, row strip t % 8) the adjacency window holds rows
  512·(t % 8) … 512·(t % 8) + 511 of relation t / 8's matrix, and the two weight windows hold that relation's blocks.

  A window's block at point t is the rectangle of its array whose corner on each axis is the window's block index
  there times the block's extent; so the element at coordinate y of the block sits at index × extent + y of the
  array. The block indices are functions of the point alone, and the grid has 32 points: each index map is read off
  once, over all of them.
-/
import proofs.«152055_g50646254354673_cont_8to1_c_444_7_alg».proof.Proof.Gen.KernelIdeal.Frame
import proofs.«152055_g50646254354673_cont_8to1_c_444_7_alg».proof.Proof.Spec
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The block indices at a point -/

/-- The features window's block index is (0, 0) at every point. -/
theorem index_feat : ∀ t : Fin cfg0.N, win0_0.index t (0 : Fin 2) = 0 ∧ win0_0.index t (1 : Fin 2) = 0 :=
  (by decide +kernel : ∀ t : Fin grid0.N, _)

/-- The adjacency window's block index at point t is (t / 8, t % 8, 0): the relation, and the strip of 512 rows. -/
theorem index_adj : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)

/-- The loop-weight window's block index is (0, 0) at every point. -/
theorem index_loop : ∀ t : Fin cfg0.N, win0_2.index t (0 : Fin 2) = 0 ∧ win0_2.index t (1 : Fin 2) = 0 :=
  (by decide +kernel : ∀ t : Fin grid0.N, _)

/-- The source-weight window's block index at point t is (t / 8, 0, 0): the relation. -/
theorem index_src : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-- The reverse-weight window's block index at point t is (t / 8, 0, 0): the relation. -/
theorem index_rev : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-! ## The blocks, element by element -/

/-- The features window holds the whole feature array. -/
theorem iblk0_apply (c : Dev nD) (t : Fin cfg0.N) (p : Fin 4096) (d : Fin 64) :
    (iblk m c 0 t : Vec F S4096x64 .f32) (ix2 p d) = (V m c main_arg0 : Vec F S4096x64 .f32) (ix2 p d) := by
  obtain ⟨e0, e1⟩ := index_feat t
  show V m c main_arg0 (((cfg0.win 0).blk t).view.emb (ix2 p d)) = V m c main_arg0 _
  refine congrArg _ ?_
  funext a; apply Fin.ext
  match a with
  | ⟨0, _⟩ =>
    -- axis 0: block index 0, extent 4096
    show win0_0.index t (0 : Fin 2) * 4096 + 1 * p.val = p.val
    omega
  | ⟨1, _⟩ =>
    -- axis 1: block index 0, extent 64
    show win0_0.index t (1 : Fin 2) * 64 + 1 * d.val = d.val
    omega

/-- The adjacency window holds the point's strip of the point's relation. -/
theorem iblk1_apply (c : Dev nD) (t : Fin cfg0.N) (p : Fin 512) (j : Fin 4096) :
    (iblk m c 1 t : Vec F S1x512x4096 .f32) (ix3 (0 : Fin 1) p j)
      = (V m c main_arg1 : Vec F S4x4096x4096 .f32) (ix3 (Cert.Spec.rel (t.val / 8)) (⟨(t.val % 8) * 512 + p.val, by have := p.isLt; have := Nat.mod_lt t.val (show 0 < 8 by decide); omega⟩ : Fin 4096) j) := by
  obtain ⟨e0, e1, e2⟩ := index_adj t
  have ht : t.val < 32 := t.isLt
  show V m c main_arg1 (((cfg0.win 1).blk t).view.emb (ix3 (0 : Fin 1) p j)) = V m c main_arg1 _
  refine congrArg _ ?_
  funext a; apply Fin.ext
  match a with
  | ⟨0, _⟩ =>
    -- axis 0: block index t / 8 < 4, extent 1; the relation's number is its own residue mod 4
    show win0_1.index t (0 : Fin 3) * 1 + 1 * 0 = (t.val / 8) % 4
    omega
  | ⟨1, _⟩ =>
    -- axis 1: block index t % 8, extent 512
    show win0_1.index t (1 : Fin 3) * 512 + 1 * p.val = (t.val % 8) * 512 + p.val
    omega
  | ⟨2, _⟩ =>
    -- axis 2: block index 0, extent 4096
    show win0_1.index t (2 : Fin 3) * 4096 + 1 * j.val = j.val
    omega

/-- The loop-weight window holds the whole loop weight. -/
theorem iblk2_apply (c : Dev nD) (t : Fin cfg0.N) (d : Fin 64) (o : Fin 64) :
    (iblk m c 2 t : Vec F S64x64 .f32) (ix2 d o) = (V m c main_arg2 : Vec F S64x64 .f32) (ix2 d o) := by
  obtain ⟨e0, e1⟩ := index_loop t
  show V m c main_arg2 (((cfg0.win 2).blk t).view.emb (ix2 d o)) = V m c main_arg2 _
  refine congrArg _ ?_
  funext a; apply Fin.ext
  match a with
  | ⟨0, _⟩ =>
    show win0_2.index t (0 : Fin 2) * 64 + 1 * d.val = d.val
    omega
  | ⟨1, _⟩ =>
    show win0_2.index t (1 : Fin 2) * 64 + 1 * o.val = o.val
    omega

/-- The source-weight window holds the point's relation's block. -/
theorem iblk3_apply (c : Dev nD) (t : Fin cfg0.N) (d : Fin 64) (o : Fin 64) :
    (iblk m c 3 t : Vec F S1x64x64 .f32) (ix3 (0 : Fin 1) d o)
      = (V m c main_arg3 : Vec F S4x64x64 .f32) (ix3 (Cert.Spec.rel (t.val / 8)) d o) := by
  obtain ⟨e0, e1, e2⟩ := index_src t
  have ht : t.val < 32 := t.isLt
  show V m c main_arg3 (((cfg0.win 3).blk t).view.emb (ix3 (0 : Fin 1) d o)) = V m c main_arg3 _
  refine congrArg _ ?_
  funext a; apply Fin.ext
  match a with
  | ⟨0, _⟩ =>
    -- axis 0: block index t / 8 < 4, extent 1
    show win0_3.index t (0 : Fin 3) * 1 + 1 * 0 = (t.val / 8) % 4
    omega
  | ⟨1, _⟩ =>
    show win0_3.index t (1 : Fin 3) * 64 + 1 * d.val = d.val
    omega
  | ⟨2, _⟩ =>
    show win0_3.index t (2 : Fin 3) * 64 + 1 * o.val = o.val
    omega

/-- The reverse-weight window holds the point's relation's block. -/
theorem iblk4_apply (c : Dev nD) (t : Fin cfg0.N) (d : Fin 64) (o : Fin 64) :
    (iblk m c 4 t : Vec F S1x64x64 .f32) (ix3 (0 : Fin 1) d o)
      = (V m c main_arg4 : Vec F S4x64x64 .f32) (ix3 (Cert.Spec.rel (t.val / 8)) d o) := by
  obtain ⟨e0, e1, e2⟩ := index_rev t
  have ht : t.val < 32 := t.isLt
  show V m c main_arg4 (((cfg0.win 4).blk t).view.emb (ix3 (0 : Fin 1) d o)) = V m c main_arg4 _
  refine congrArg _ ?_
  funext a; apply Fin.ext
  match a with
  | ⟨0, _⟩ =>
    -- axis 0: block index t / 8 < 4, extent 1
    show win0_4.index t (0 : Fin 3) * 1 + 1 * 0 = (t.val / 8) % 4
    omega
  | ⟨1, _⟩ =>
    show win0_4.index t (1 : Fin 3) * 64 + 1 * d.val = d.val
    omega
  | ⟨2, _⟩ =>
    show win0_4.index t (2 : Fin 3) * 64 + 1 * o.val = o.val
    omega

end Cert.KernelIdeal.Blocks

end
-- ==== Proof.KI.Inv.lean ====
/-
  The invariant of the run over the grid: after every grid point the five carried buffers hold the explicit functions
  of the argument arrays. By induction on the point: the first point is its own case; a later point is the first,
  the last, or an inner strip of its relation, and in each the case's step takes the invariant at the point before to
  the invariant at this point, the point's input blocks being the stated blocks of the argument arrays.
-/
import proofs.«152055_g50646254354673_cont_8to1_c_444_7_alg».proof.Proof.KI.StepA
import proofs.«152055_g50646254354673_cont_8to1_c_444_7_alg».proof.Proof.KI.StepB
import proofs.«152055_g50646254354673_cont_8to1_c_444_7_alg».proof.Proof.KI.StepC
import proofs.«152055_g50646254354673_cont_8to1_c_444_7_alg».proof.Proof.KI.StepD
import proofs.«152055_g50646254354673_cont_8to1_c_444_7_alg».proof.Proof.KI.Blocks

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body Cert.Spec

variable (m : (ℓ : Loc nD τ sig) → Buf (Elt Ideal) ℓ) (c : Dev nD)

/-- The five argument arrays as the region finds them. -/
abbrev aX : SX.Idx → EReal := (V m c main_arg0 : Vec Ideal S4096x64 .f32)
abbrev aA : SA.Idx → EReal := (V m c main_arg1 : Vec Ideal S4x4096x4096 .f32)
abbrev aWl : SW.Idx → EReal := (V m c main_arg2 : Vec Ideal S64x64 .f32)
abbrev aWin : SR.Idx → EReal := (V m c main_arg3 : Vec Ideal S4x64x64 .f32)
abbrev aWout : SR.Idx → EReal := (V m c main_arg4 : Vec Ideal S4x64x64 .f32)

/-- The strip coordinate of grid point `t` is `t % 8`. -/
theorem coord1 : ∀ t : Fin cfg0.N, ((grid0.coords t) 1).val = t.val % 8 :=
  (by decide +kernel : ∀ t : Fin grid0.N, ((grid0.coords t) 1).val = t.val % 8)

/-- The strip's rows, spelt either way. -/
theorem row_eq (k : ℕ) (p : Fin 512) (h : (k % 8) * 512 + p.val < 4096) :
    (⟨(k % 8) * 512 + p.val, h⟩ : Fin 4096) = row (k % 8) p :=
  Fin.ext (by simp [row, Nat.mod_mod])

theorem hx1_of (t : Fin cfg0.N) (p : Fin 512) (j : Fin 4096) :
    (iblk m c 1 t : Vec Ideal S1x512x4096 .f32) (ix3 (0 : Fin 1) p j) = aA m c (ix3 (rel (t.val / 8)) (row (t.val % 8) p) j) :=
  (Blocks.iblk1_apply m c t p j).trans (congrArg (fun r => aA m c (ix3 (rel (t.val / 8)) r j)) (row_eq t.val p _))

/-- THE INVARIANT. -/
theorem inv : ∀ (n : ℕ) (hn : n < cfg0.N), outsAt m c n hn = specAt (aX m c) (aA m c) (aWl m c) (aWin m c) (aWout m c) n
  | 0, hn => by
    let t : Fin cfg0.N := ⟨0, hn⟩
    have hc0 : cond0 (grid0.coords t) := (hcond0 t).mpr (Nat.zero_mod _)
    have hc1 : cond1 (grid0.coords t) := (hcond1 t).mpr (Nat.zero_mod _)
    have hc2 : ¬cond2 (grid0.coords t) := fun h => by have := (hcond2 t).mp h; dsimp only [t] at this; omega
    refine (outsAt_A m c t rfl hc0 hc1 hc2).trans ?_
    exact stepA (aX m c) (aA m c) (aWl m c) (aWin m c) (aWout m c) c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) hc0 hc1 hc2 ((coord1 t).trans (Nat.zero_mod _))
      (Blocks.iblk0_apply m c t) (hx1_of m c t) (Blocks.iblk2_apply m c t) (Blocks.iblk3_apply m c t) (Blocks.iblk4_apply m c t)
  | n + 1, hn => by
    let t : Fin cfg0.N := ⟨n + 1, hn⟩
    have hN : n + 1 < 32 := lt_of_lt_of_eq hn N32
    have ih : outsAt m c n (Nat.lt_of_succ_lt hn) = specAt (aX m c) (aA m c) (aWl m c) (aWin m c) (aWout m c) (n + 1 - 1) := inv n (Nat.lt_of_succ_lt hn)
    have hz : t.val ≠ 0 := Nat.succ_ne_zero n
    have hc0 : ¬cond0 (grid0.coords t) := not_cond0 t hz
    by_cases h1 : (n + 1) % 8 = 0
    · have hc1 : cond1 (grid0.coords t) := (hcond1 t).mpr h1
      have hc2 : ¬cond2 (grid0.coords t) := fun h => by have := (hcond2 t).mp h; dsimp only [t] at this; omega
      refine (outsAt_D m c t hz h1 hc0 hc1 hc2).trans ?_
      exact stepD (aX m c) (aA m c) (aWl m c) (aWin m c) (aWout m c) c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) _ _ _ _ _ hc0 hc1 hc2 (n + 1) hN (Nat.succ_ne_zero n) h1 ((coord1 t).trans h1)
        (Blocks.iblk0_apply m c t) (hx1_of m c t) (Blocks.iblk3_apply m c t) (Blocks.iblk4_apply m c t) ih
    · have hc1 : ¬cond1 (grid0.coords t) := fun h => h1 ((hcond1 t).mp h)
      by_cases h2 : (n + 1) % 8 = 7
      · have hc2 : cond2 (grid0.coords t) := (hcond2 t).mpr h2
        refine (outsAt_C m c t h1 h2 hc0 hc1 hc2).trans ?_
        exact stepC (aX m c) (aA m c) (aWl m c) (aWin m c) (aWout m c) c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) _ _ _ _ _ hc0 hc1 hc2 (n + 1) hN h2 (coord1 t) (hx1_of m c t) ih
      · have hc2 : ¬cond2 (grid0.coords t) := fun h => h2 ((hcond2 t).mp h)
        refine (outsAt_B m c t h1 h2 hc0 hc1 hc2).trans ?_
        exact stepB (aX m c) (aA m c) (aWl m c) (aWin m c) (aWout m c) c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (iblk m c 0 t) (iblk m c 1 t) (iblk m c 2 t) (iblk m c 3 t) (iblk m c 4 t) _ _ _ _ _ hc0 hc1 hc2 (n + 1) hN h1 h2 (coord1 t) (hx1_of m c t) ih

end Cert.KernelIdeal.Val

end
-- ==== Proof.KI.Frame.lean ====
/-
  The frame of the program: the proof data of its one pipeline, the body obligation at every grid point, and the run.
  After the body at point `t` each input window's buffer holds its block and the output window's buffer holds the
  carried output block; between points the output block is not written back (only after the last point), so before a
  later point its buffer holds what the point before left. The body obligation splits on the point's case; in each the
  case's run applies, the invariant handing the body the four carried scratch operands at what the point before left
  and taking them back at this point's contents.
-/
import proofs.«152055_g50646254354673_cont_8to1_c_444_7_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body at point `t` each input's buffer at its block
    and the output's at the carried output block; the invariant tracking the carried scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Before a later point the output window's buffer holds what the body left at the point before: the window is
    written back after the last point only, and is never idle nor cut. -/
theorem before5 (c : Dev nD) (t : Fin cfg0.N) (hz : t.val ≠ 0) (d) :
    (dats m 0 c).before 5 t d = (outsAt m c (t.val - 1) (Nat.lt_of_le_of_lt (Nat.sub_le _ _) t.isLt)).1 := by
  have hN : t.val < 32 := lt_of_lt_of_eq t.isLt N32
  rw [Dat.before_out_kept _ 5 rfl t hz (Bool.eq_false_iff.mpr fun h => by have := (flush0_5 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.succ = PhiS m c (t.val + 1) t.isLt from rfl, PhiS_succ]
  have hN : t.val < 32 := lt_of_lt_of_eq t.isLt N32
  by_cases hz : t.val = 0
  · -- the first grid point
    rw [outsAt_A m c t hz ((hcond0 t).mpr (by omega)) ((hcond1 t).mpr (by omega)) (fun h => by have := (hcond2 t).mp h; omega)]
    unfold soutA; dsimp only
    rw [PhiS_castSucc m c t, PhiS_zero m c _ _ hz, PhiA_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
    iapply ((runA c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) ((hcond0 t).mpr (by omega)) ((hcond1 t).mpr (by omega)) (fun h => by have := (hcond2 t).mp h; omega) (iblk m c 0 t) (iblk m c 1 t) (iblk m c 2 t) (iblk m c 3 t) (iblk m c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%es0, HS0⟩, ⟨%es1, HS1⟩, ⟨%es2, HS2⟩, ⟨%es3, HS3⟩, HS4⟩
    isplitl [HS0 HS1 HS2 HS3 HS4 Hg]
    · isplitl [HS0 HS1 HS2 HS3 HS4]
      · isplitl [HS0]
        · unfold owns; iexists _; isplitr; swap; · iexact HS0
          ipureintro; exact View.read_writes_of_cover _ _ _ _ _ (coverA_T _ _ _ _ _ _ _ _ _ _ _ _ _ _ _ _ _ _ _ _ _ _ _ _ _ _ _ _ _ _ _ _)
        isplitl [HS1]
        · unfold owns; iexists _; isplitr; swap; · iexact HS1
          ipureintro; exact View.read_writes_of_cover _ _ _ _ _ (coverA_H _ _ _ _ _ _ _ _ _ _ _ _ _ _ _ _ _ _ _ _ _ _ _ _ _ _ _ _ _ _ _ _)
        isplitl [HS2]
        · unfold owns; iexists _; isplitr; swap; · iexact HS2
          ipureintro; exact View.read_writes_of_cover _ _ _ _ _ (coverA_G _ _ _ _ _ _ _ _ _ _ _ _ _ _ _ _ _ _ _ _ _ _ _ _ _ _ _ _ _ _ _ _)
        isplitl [HS3]
        · unfold owns; iexists _; isplitr; swap; · iexact HS3
          ipureintro; exact View.read_writes_of_cover _ _ _ _ _ (coverA_A _ _ _ _ _ _ _ _ _ _ _ _ _ _ _ _ _ _ _ _ _ _ _ _ _ _ _ _ _ _ _ _)
        iexact HS4
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr; swap; · iexact H5
    ipureintro; exact View.read_writes_of_cover _ _ _ _ _ (coverA_O _ _ _ _ _ _ _ _ _ _ _ _ _ _ _ _ _ _ _ _ _ _ _ _ _ _ _ _ _ _ _ _)
  · simp only [before5 m c t hz]
    rw [PhiS_castSucc m c t, PhiS_pos m c _ _ hz]
    by_cases h1 : t.val % 8 = 0
    · -- the first strip of a later relation
      rw [outsAt_D m c t hz h1 (not_cond0 t hz) ((hcond1 t).mpr h1) (fun h => by have := (hcond2 t).mp h; omega)]
      unfold soutD; dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runD c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) ((hcond1 t).mpr h1) (fun h => by have := (hcond2 t).mp h; omega) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, ⟨%es3, HS3⟩, HS4⟩
      isplitl [HS0 HS1 HS2 HS3 HS4 Hg]
      · isplitl [HS0 HS1 HS2 HS3 HS4]
        · isplitl [HS0]
          · iexact HS0
          isplitl [HS1]
          · unfold owns; iexists _; isplitr; swap; · iexact HS1
            ipureintro; rfl
          isplitl [HS2]
          · unfold owns; iexists _; isplitr; swap; · iexact HS2
            ipureintro; rfl
          isplitl [HS3]
          · unfold owns; iexists _; isplitr; swap; · iexact HS3
            ipureintro; exact View.read_writes_of_cover _ _ _ _ _ (coverD_A _ _ _ _ _ _ _ _ _ _ _ _ _ _ _ _ _ _ _ _ _ _ _ _ _ _ _ _ _ _ _ _ _ _ _ _ _)
          iexact HS4
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr; swap; · iexact H5
      ipureintro; rfl
    · by_cases h2 : t.val % 8 = 7
      · -- the last strip of a relation
        rw [outsAt_C m c t h1 h2 (not_cond0 t hz) (fun h => h1 ((hcond1 t).mp h)) ((hcond2 t).mpr h2)]
        unfold soutC; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) (fun h => h1 ((hcond1 t).mp h)) ((hcond2 t).mpr h2) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        iintro ⟨H0, H1, H2, H3, H4, ⟨%e5, H5⟩, HS0, HS1, HS2, ⟨%es3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr; swap; · iexact HS3
              ipureintro; exact View.read_writes_of_cover _ _ _ _ _ (coverC_A _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr; swap; · iexact H5
        ipureintro; exact View.read_writes_of_cover _ _ _ _ _ (coverC_O _ _ _ _ _ _ _ _ _ _ _ _ _ _ _ _ _ _ _ _ _ _ _ _ _ _ _ _ _ _ _ _ _ _ _ _ _)
      · -- an inner strip
        rw [outsAt_B m c t h1 h2 (not_cond0 t hz) (fun h => h1 ((hcond1 t).mp h)) (fun h => h2 ((hcond2 t).mp h))]
        unfold soutB; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scXT (Memref.isWhole_whole _) scHin (Memref.isWhole_whole _) scHout (Memref.isWhole_whole _) scAcc (Memref.isWhole_whole _) scStrip (Memref.isWhole_whole _) (not_cond0 t hz) (fun h => h1 ((hcond1 t).mp h)) (fun h => h2 ((hcond2 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2).2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        iintro ⟨H0, H1, H2, H3, H4, H5, HS0, HS1, HS2, ⟨%es3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr; swap; · iexact HS3
              ipureintro; exact View.read_writes_of_cover _ _ _ _ _ (coverB_A _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr; swap; · iexact H5
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 32 := N32; omega)

set_option backward.isDefEq.respectTransparency.types false in
/-- Every weakly fair execution of @main terminates, and every final state has each array of the pipeline at what
    the proof data gives — an input its entry contents, the output those overwritten by the carried output block at
    the one write-back — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KI.Final.lean ====
/-
  The result: the output window is written back once, after the last grid point, and its block is the whole result
  array; so the array ends holding the carried output block after point 31, which by the invariant is the kernel-side
  function of the specification.
-/
import proofs.«152055_g50646254354673_cont_8to1_c_444_7_alg».proof.Proof.KI.Inv
import proofs.«152055_g50646254354673_cont_8to1_c_444_7_alg».proof.Proof.KI.Frame
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.Spec

variable (m : (ℓ : Loc nD τ sig) → Buf (Elt Ideal) ℓ) (ρ : Dev nD → PrngReg)

/-- The last grid point. -/
abbrev tLast : Fin cfg0.N := ⟨31, by rw [N32]; decide⟩

/-- The carried output block after the last point, as contents of the result array. -/
abbrev result (c : Dev nD) : Buf (Elt Ideal) ((c : Thread nD τ).loc main_v0) := (outsAt m c 31 (tLast).isLt).1

/-- The one write-back writes it: block (0, 0) of the result array read through zero offsets is the array. -/
theorem flushed_eq (c : Dev nD) (t : Fin cfg0.N) (hf : (cfg0.win 5).flush t = true) :
    (dats m 0 c).flushed 5 t = ((cfg0.win 5).blk t).view.read (Elt Ideal) (result m c) := by
  have h31 : t.val = 31 := by have := (flush0_5 t).mp hf; have := lt_of_lt_of_eq t.isLt N32; omega
  obtain rfl : t = tLast := Fin.ext h31
  show (cfg0.win 5).cut (grid0.coords tLast) ((dats m 0 c).after 5 tLast) = _
  rw [after5]
  have hz' : (fun a => win0_5.index tLast a * main_v0.ty.shape.size a) = fun _ => 0 := funext fun a => by fin_cases a <;> decide
  exact (Memref.read_access_unit_zero (Elt Ideal) main_v0 hz' (fun a => by rw [congrFun hz' a]; simp) (result m c)).symm

/-- So the result array ends holding it: the last point's block covers the array. -/
theorem final_out (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v0).slice (win0_5.rect tLast)).set
      rw [View.set_slice_whole, Rect.mem_set_unit]
      intro a
      have h0 : (i 0 : Nat) < 4096 := (i 0).isLt
      have h1 : (i 1 : Nat) < 64 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 4096 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 64 from by decide +kernel]; omega⟩

/-- By the invariant at the last point, that is the kernel-side function of the specification. -/
theorem result_eq (c : Dev nD) : result m c = Gker (aX m c) (aA m c) (aWl m c) (aWin m c) (aWout m c) := by
  show (outsAt m c 31 _).1 = _
  rw [inv m c 31 _]
  rfl

/-- The run, read: the result array at the specification's kernel-side function of the arguments, the arguments unchanged. -/
theorem run_value : θ_run defs (onTc (τ := τ) (main (F := Ideal))) ⟨m, fun _ => 0, ρ⟩ fun r => ∀ c : Dev nD,
      r.2.mem ((c.tc : Thread nD τ).loc main_v0) = Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans ((final_out m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Val

end
-- ==== Proof.RefValue.lean ====
/-
  The reference's run read as the specification: its result array is `Cert.Spec.Gref` of the argument arrays.

  The reference program is the loop product followed by four relations' worth of the same operations. Each kind of
  operation is named once as a function of its operands and read at an entry; one lemma says that a relation's two terms
  take the specification's running result after `n` relations to the one after `n + 1`; the program's own stages are
  these functions of the arguments, so four uses of that lemma read the last stage as `Gref`.
-/
import proofs.«152055_g50646254354673_cont_8to1_c_444_7_alg».proof.Defs
import proofs.«152055_g50646254354673_cont_8to1_c_444_7_alg».proof.Proof.Gen.ReferenceIdeal
import proofs.«152055_g50646254354673_cont_8to1_c_444_7_alg».proof.Proof.Gen.ReferenceIdeal.Run
import proofs.«152055_g50646254354673_cont_8to1_c_444_7_alg».proof.Proof.Gen.ReferenceIdeal.Read
import proofs.«152055_g50646254354673_cont_8to1_c_444_7_alg».proof.Proof.Spec
import proofs.«152055_g50646254354673_cont_8to1_c_444_7_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Idealize.ShloMosaic.ValueIdx Cert.ReferenceIdeal.Gen

/-- An array of single-precision values of a literal shape, read on the extended reals. -/
abbrev V (S : Shape) : Type := FVec Ideal S .f32

/-! ## One relation's operations, as functions of their operands

The reference treats its four relations alike: it cuts slab `n` out of the stacked adjacency and out of a stacked weight,
projects the features by the weight slab, divides every row of the adjacency slab by the row's sum clamped below by ε,
multiplies the normalised matrix by the projection, and adds; then the same over the transposed slab with the other
weight. Each piece is named here over its operands, and read at an entry. -/

/-- Slab `n` of the stacked adjacency, as a matrix. -/
def slabA (n : ℕ) (h : S4x4096x4096.Slices ![n, 0, 0] S1x4096x4096) (x1 : V S4x4096x4096) : V S4096x4096 :=
  shapeCast S4096x4096 (extractStridedSlice S1x4096x4096 ![n, 0, 0] x1 h) shapeCasts_S1x4096x4096_S4096x4096

/-- Slab `n` of a stacked weight, as a matrix. -/
def slabW (n : ℕ) (h : S4x64x64.Slices ![n, 0, 0] S1x64x64) (w : V S4x64x64) : V S64x64 :=
  shapeCast S64x64 (extractStridedSlice S1x64x64 ![n, 0, 0] w h) shapeCasts_S1x64x64_S64x64

/-- The features times a weight matrix. -/
def proj (x0 : V S4096x64) (w2 : V S64x64) : V S4096x64 :=
  Host.dotGeneral (F := Ideal) dot_S4096x64_S64x64_S4096x64_1_0_0_1_n_n none x0 w2

/-- The matrix whose entry (p, j) is row p's sum clamped below by ε, whatever j. -/
def rowClamp (a2 : V S4096x4096) : V S4096x4096 :=
  broadcastInDim S4096x4096 ![0, 1] bcast_S4096x1_S4096x4096_0_1
    (maximumf
      (broadcastInDim S4096x1 ![0] bcast_S4096_S4096x1_0
        (Host.reduceAdd a2 (constant (F := Ideal) S_ .f32 0x00000000#32) reducesTo_S4096x4096_S4096_d1 h_S_))
      (broadcastInDim S4096x1 ![] bcast_S_S4096x1 (constant (F := Ideal) S_ .f32 0x2B8CBCCC#32)))

/-- The row-normalised matrix times a projection. -/
def msg (a2 : V S4096x4096) (hh : V S4096x64) : V S4096x64 :=
  Host.dotGeneral (F := Ideal) dot_S4096x4096_S4096x64_S4096x64_1_0_0_1_n_n none (Host.divf a2 (rowClamp a2)) hh

/-- The transposed matrix. -/
def tr (a2 : V S4096x4096) : V S4096x4096 :=
  transpose S4096x4096 [1, 0] a2 transposes_S4096x4096_S4096x4096_1_0

/-- The running result after one more relation: the source term, then the reverse term. -/
def relStep (acc x0 : V S4096x64) (x1 : V S4x4096x4096) (x3 x4 : V S4x64x64) (n : ℕ)
    (hA : S4x4096x4096.Slices ![n, 0, 0] S1x4096x4096) (hW : S4x64x64.Slices ![n, 0, 0] S1x64x64) : V S4096x64 :=
  addf (F := Ideal) (addf (F := Ideal) acc (msg (slabA n hA x1) (proj x0 (slabW n hW x3)))) (msg (tr (slabA n hA x1)) (proj x0 (slabW n hW x4)))

/-- Entry (p, j) of adjacency slab `n` is entry (n, p, j) of the stack: the slab starts at (n, 0, 0), and dropping its
    unit axis keeps the row-major position. -/
theorem slabA_apply (n : ℕ) (hn : n < 4) (h : S4x4096x4096.Slices ![n, 0, 0] S1x4096x4096) (x1 : V S4x4096x4096)
    (p j : Fin 4096) : slabA n h x1 (ix2 p j) = x1 (ix3 (⟨n, hn⟩ : Fin 4) p j) := by
  unfold slabA
  refine (shapeCast_apply _ shapeCasts_S1x4096x4096_S4096x4096 (ix2 p j) (ix3 (0 : Fin 1) p j) ?_).trans ?_
  · rewrite [Shape.rowMajor_val_three, Shape.rowMajor_val_two]
    show (0 * 4096 + p.val) * 4096 + j.val = p.val * 4096 + j.val
    omega
  · exact extractStridedSlice_apply ![n, 0, 0] x1 h _ (ix3 (⟨n, hn⟩ : Fin 4) p j) (fun a => match a with
      | ⟨0, _⟩ => by show n = n + 0; omega
      | ⟨1, _⟩ => by show p.val = 0 + p.val; omega
      | ⟨2, _⟩ => by show j.val = 0 + j.val; omega)

/-- Entry (d, o) of weight slab `n` is entry (n, d, o) of the stack. -/
theorem slabW_apply (n : ℕ) (hn : n < 4) (h : S4x64x64.Slices ![n, 0, 0] S1x64x64) (w : V S4x64x64)
    (d o : Fin 64) : slabW n h w (ix2 d o) = w (ix3 (⟨n, hn⟩ : Fin 4) d o) := by
  unfold slabW
  refine (shapeCast_apply _ shapeCasts_S1x64x64_S64x64 (ix2 d o) (ix3 (0 : Fin 1) d o) ?_).trans ?_
  · rewrite [Shape.rowMajor_val_three, Shape.rowMajor_val_two]
    show (0 * 64 + d.val) * 64 + o.val = d.val * 64 + o.val
    omega
  · exact extractStridedSlice_apply ![n, 0, 0] w h _ (ix3 (⟨n, hn⟩ : Fin 4) d o) (fun a => match a with
      | ⟨0, _⟩ => by show n = n + 0; omega
      | ⟨1, _⟩ => by show d.val = 0 + d.val; omega
      | ⟨2, _⟩ => by show o.val = 0 + o.val; omega)

/-- The projection at (j, o): the sum over the feature axis. -/
theorem proj_apply (x0 : V S4096x64) (w2 : V S64x64) (j : Fin 4096) (o : Fin 64) :
    proj x0 w2 (ix2 j o) = ∑ d : Fin 64, x0 (ix2 j d) * w2 (ix2 d o) := by
  unfold proj
  exact Cert.PlainDot.dotGeneral_apply dot_S4096x64_S64x64_S4096x64_1_0_0_1_n_n rfl rfl rfl rfl rfl rfl none .single x0 w2 j o

/-- The row sum at p: the initial value is the zero word, so only the sum over the row is left. -/
theorem rowSum_apply (a2 : V S4096x4096) (p : Fin 4096) :
    Host.reduceAdd a2 (constant (F := Ideal) S_ .f32 0x00000000#32) reducesTo_S4096x4096_S4096_d1 h_S_ (ix1 p)
      = ∑ j : Fin 4096, a2 (ix2 p j) := by
  simp only [Host.reduceAdd, Ideal.hostReduceAdd_def]
  rw [Ideal.hostReduceAdd_single reducesTo_S4096x4096_S4096_d1 (by decide)]
  rw [constant_apply, Ideal.ofBits_zero_f32, zero_add]
  refine Finset.sum_congr rfl fun k _ => ?_
  exact congrArg a2 (funext fun a => Fin.ext (by match a with | ⟨0, _⟩ => rfl | ⟨1, _⟩ => rfl))

/-- The clamped row sum at (p, j) does not depend on j: both broadcasts read row p of a column. -/
theorem rowClamp_apply (a2 : V S4096x4096) (p j : Fin 4096) :
    rowClamp a2 (ix2 p j) = max (∑ j' : Fin 4096, a2 (ix2 p j')) Cert.Spec.eps := by
  unfold rowClamp
  refine (broadcastInDim_apply _ bcast_S4096x1_S4096x4096_0_1 _ (ix2 p j) (ix2 p (0 : Fin 1)) (fun a => match a with
    | ⟨0, _⟩ => by show p.val = if (4096 : Nat) = 1 then 0 else p.val; rw [if_neg (by decide)]
    | ⟨1, _⟩ => by show 0 = if (1 : Nat) = 1 then 0 else j.val; rw [if_pos rfl])).trans ?_
  rw [maximumf_apply]
  refine congrArg₂ max ?_ ?_
  · refine (broadcastInDim_apply _ bcast_S4096_S4096x1_0 _ (ix2 p (0 : Fin 1)) (ix1 p) (fun a => match a with
      | ⟨0, _⟩ => by show p.val = if (4096 : Nat) = 1 then 0 else p.val; rw [if_neg (by decide)])).trans ?_
    exact rowSum_apply a2 p
  · exact (broadcastInDim_apply _ bcast_S_S4096x1 _ (ix2 p (0 : Fin 1)) ix0 (fun a => a.elim0)).trans rfl

/-- The normalised product at (p, o): each entry of row p divided by the row's clamped sum, times the projection. -/
theorem msg_apply (a2 : V S4096x4096) (hh : V S4096x64) (p : Fin 4096) (o : Fin 64) :
    msg a2 hh (ix2 p o)
      = ∑ j : Fin 4096, Ideal.div (a2 (ix2 p j)) (max (∑ j' : Fin 4096, a2 (ix2 p j')) Cert.Spec.eps) * hh (ix2 j o) := by
  unfold msg
  refine (Cert.PlainDot.dotGeneral_apply dot_S4096x4096_S4096x64_S4096x64_1_0_0_1_n_n rfl rfl rfl rfl rfl rfl none .single _ hh p o).trans ?_
  refine Finset.sum_congr rfl fun j _ => ?_
  show Ideal.div (a2 (ix2 p j)) (rowClamp a2 (ix2 p j)) * hh (ix2 j o) = _
  rw [rowClamp_apply]

/-- The transpose at (p, j) is the matrix at (j, p). -/
theorem tr_apply (a2 : V S4096x4096) (p j : Fin 4096) : tr a2 (ix2 p j) = a2 (ix2 j p) := by
  unfold tr
  exact transpose_apply [1, 0] a2 transposes_S4096x4096_S4096x4096_1_0 (ix2 p j) (ix2 j p) (fun b => match b with
    | ⟨0, _⟩ => rfl
    | ⟨1, _⟩ => rfl)

/-- ONE RELATION: if the running result is the specification's after `n` relations, then after relation `n`'s source and
    reverse terms are added it is the specification's after `n + 1`. -/
theorem relStep_apply (x0 : V S4096x64) (x1 : V S4x4096x4096) (x2 : V S64x64) (x3 x4 : V S4x64x64) (acc : V S4096x64)
    (n : ℕ) (hn : n < 4) (hA : S4x4096x4096.Slices ![n, 0, 0] S1x4096x4096) (hW : S4x64x64.Slices ![n, 0, 0] S1x64x64)
    (hacc : ∀ (p : Fin 4096) (o : Fin 64), acc (ix2 p o) = Cert.Spec.accRef x0 x1 x2 x3 x4 n p o) (p : Fin 4096) (o : Fin 64) :
    relStep acc x0 x1 x3 x4 n hA hW (ix2 p o) = Cert.Spec.accRef x0 x1 x2 x3 x4 (n + 1) p o := by
  have hrel : Cert.Spec.rel n = (⟨n, hn⟩ : Fin 4) := Fin.ext (Nat.mod_eq_of_lt hn)
  rw [show Cert.Spec.accRef x0 x1 x2 x3 x4 (n + 1) p o
        = (Cert.Spec.accRef x0 x1 x2 x3 x4 n p o + Cert.Spec.srcRef x0 x1 x3 (Cert.Spec.rel n) p o)
          + Cert.Spec.revRef x0 x1 x4 (Cert.Spec.rel n) p o from rfl, hrel]
  unfold relStep
  rw [addf_apply, addf_apply, hacc, msg_apply, msg_apply]
  unfold Cert.Spec.srcRef Cert.Spec.revRef Cert.Spec.rowDeg Cert.Spec.colDeg Cert.Spec.hIn Cert.Spec.hOut
  simp only [slabA_apply n hn, slabW_apply n hn, tr_apply, proj_apply]

/-! ## The program's stages, relation by relation

The stage after relation `n`'s reverse term is `relStep` of the stage after relation `n - 1` (of the loop product for
`n = 0`): the same operations on the same operands, under the program's buffer numbers. -/

section
variable (x0 : V S4096x64) (x1 : V S4x4096x4096) (x2 : V S64x64) (x3 x4 : V S4x64x64)

theorem stage1 : Read.val_main_v25 (F := Ideal) x0 x1 x2 x3 x4
    = relStep (Read.val_main_v0 (F := Ideal) x0 x2) x0 x1 x3 x4 0
        slices_S4x4096x4096_S1x4096x4096_0_0_0 slices_S4x64x64_S1x64x64_0_0_0 := rfl

theorem stage2 : Read.val_main_v50 (F := Ideal) x0 x1 x2 x3 x4
    = relStep (Read.val_main_v25 (F := Ideal) x0 x1 x2 x3 x4) x0 x1 x3 x4 1
        slices_S4x4096x4096_S1x4096x4096_1_0_0 slices_S4x64x64_S1x64x64_1_0_0 := rfl

theorem stage3 : Read.val_main_v75 (F := Ideal) x0 x1 x2 x3 x4
    = relStep (Read.val_main_v50 (F := Ideal) x0 x1 x2 x3 x4) x0 x1 x3 x4 2
        slices_S4x4096x4096_S1x4096x4096_2_0_0 slices_S4x64x64_S1x64x64_2_0_0 := rfl

theorem stage4 : Read.val_main_v100 (F := Ideal) x0 x1 x2 x3 x4
    = relStep (Read.val_main_v75 (F := Ideal) x0 x1 x2 x3 x4) x0 x1 x3 x4 3
        slices_S4x4096x4096_S1x4096x4096_3_0_0 slices_S4x64x64_S1x64x64_3_0_0 := rfl

/-- Before any relation: the loop product. -/
theorem after0 (p : Fin 4096) (o : Fin 64) :
    Read.val_main_v0 (F := Ideal) x0 x2 (ix2 p o) = Cert.Spec.accRef x0 x1 x2 x3 x4 0 p o :=
  proj_apply x0 x2 p o

theorem after1 (p : Fin 4096) (o : Fin 64) :
    Read.val_main_v25 (F := Ideal) x0 x1 x2 x3 x4 (ix2 p o) = Cert.Spec.accRef x0 x1 x2 x3 x4 1 p o :=
  (congrFun (stage1 x0 x1 x2 x3 x4) (ix2 p o)).trans
    (relStep_apply x0 x1 x2 x3 x4 _ 0 (by decide) _ _ (after0 x0 x1 x2 x3 x4) p o)

theorem after2 (p : Fin 4096) (o : Fin 64) :
    Read.val_main_v50 (F := Ideal) x0 x1 x2 x3 x4 (ix2 p o) = Cert.Spec.accRef x0 x1 x2 x3 x4 2 p o :=
  (congrFun (stage2 x0 x1 x2 x3 x4) (ix2 p o)).trans
    (relStep_apply x0 x1 x2 x3 x4 _ 1 (by decide) _ _ (after1 x0 x1 x2 x3 x4) p o)

theorem after3 (p : Fin 4096) (o : Fin 64) :
    Read.val_main_v75 (F := Ideal) x0 x1 x2 x3 x4 (ix2 p o) = Cert.Spec.accRef x0 x1 x2 x3 x4 3 p o :=
  (congrFun (stage3 x0 x1 x2 x3 x4) (ix2 p o)).trans
    (relStep_apply x0 x1 x2 x3 x4 _ 2 (by decide) _ _ (after2 x0 x1 x2 x3 x4) p o)

theorem after4 (p : Fin 4096) (o : Fin 64) :
    Read.val_main_v100 (F := Ideal) x0 x1 x2 x3 x4 (ix2 p o) = Cert.Spec.accRef x0 x1 x2 x3 x4 4 p o :=
  (congrFun (stage4 x0 x1 x2 x3 x4) (ix2 p o)).trans
    (relStep_apply x0 x1 x2 x3 x4 _ 3 (by decide) _ _ (after3 x0 x1 x2 x3 x4) p o)

/-- The last stage is the specification's reference-side function, entry by entry. -/
theorem result_eq : Read.val_main_v100 (F := Ideal) x0 x1 x2 x3 x4 = Cert.Spec.Gref x0 x1 x2 x3 x4 := by
  funext y
  obtain ⟨p, o, rfl⟩ : ∃ (p : Fin 4096) (o : Fin 64), y = ix2 p o := ⟨y 0, y 1, eq_ix2 y⟩
  exact after4 x0 x1 x2 x3 x4 p o

end

/-- Every weakly fair execution of the reference ends with its result at the specification's reference-side function
    of the arguments, the arguments unchanged. -/
theorem run_spec (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v100) = Cert.Spec.Gref (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((Read.val_main_v100_eq m c).trans (result_eq _ _ _ _ _)), (h c).2⟩)
    (Cert.ReferenceIdeal.Value.run (F := Ideal) m g)

end Cert.ReferenceIdeal.RefValue

end
-- ==== Proof.Algebra.lean ====
/-
  The law that joins the two sides: on arrays whose entries are all real numbers, normalising before or after the
  propagation gives the same array.

  Every quantity in sight is then a real number: a finite sum of products of reals is real, and the clamped degree
  D = max(d, ε) is a real with D ≥ ε > 0. Division by such a D is multiplication by the real 1/D, so

      (Σ_j a_j · h_j) · (1 · (1/D))  =  Σ_j (a_j · (1/D)) · h_j

  is distributivity and commutativity in ℝ. The reverse direction differs only in the order of the factors inside the
  sums (W·X against X·W, and Hᵀ·A against A·H), which commutativity of the product on the extended reals removes.
-/
import proofs.«152055_g50646254354673_cont_8to1_c_444_7_alg».proof.Proof.Spec
import Mathlib.Data.EReal.Basic
import Mathlib.Algebra.BigOperators.Ring.Finset

noncomputable section

namespace Cert.Spec

open Idealize.ShloMosaic Idealize.ShloMosaic.ValueIdx

/-- The clamp's word has sign 0, exponent field 87 and fraction 0x0CBCCC: it denotes (2^23 + 834764) · 2^(87-127-23). -/
theorem eps_val : eps = (((9223372 : ℝ) * (2 : ℝ) ^ (-63 : ℤ) : ℝ) : EReal) := by
  unfold eps
  simp [Ideal.ofBits, Ideal.ieee, -EReal.coe_mul]

/-- The clamp is a positive real. -/
theorem eps_pos : ∃ e : ℝ, 0 < e ∧ eps = (e : EReal) :=
  ⟨_, by positivity, eps_val⟩

/-! ### General facts: real sums and maxima inside the extended reals -/

/-- The inclusion of ℝ in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ in the extended reals is monotone, so it commutes with the maximum of two numbers. -/
theorem coe_max (a b : ℝ) : ((max a b : ℝ) : EReal) = max (a : EReal) (b : EReal) :=
  EReal.coe_strictMono.monotone.map_max

/-- Normalising a real row after the propagation or before it: with D = max(Σ_j a_j, e) ≥ e > 0,
    (Σ_j a_j · h_j) · (1 / D) = Σ_j (a_j / D) · h_j. -/
theorem norm_comm {ι : Type*} [Fintype ι] (a h : ι → ℝ) {e : ℝ} (he : 0 < e) :
    (∑ j, (a j : EReal) * (h j : EReal)) * Ideal.div 1 (max (∑ j, (a j : EReal)) (e : EReal))
      = ∑ j, Ideal.div (a j : EReal) (max (∑ j, (a j : EReal)) (e : EReal)) * (h j : EReal) := by
  have hD : max (∑ j, (a j : EReal)) (e : EReal) = ((max (∑ j, a j) e : ℝ) : EReal) := by
    rw [coe_max, coe_sum]
  have hne : max (∑ j, a j) e ≠ 0 := (lt_of_lt_of_le he (le_max_right _ _)).ne'
  rw [hD]
  simp only [Ideal.div_coe hne]
  rw [one_mul]
  simp only [← EReal.coe_mul, ← coe_sum]
  congr 1
  rw [Finset.sum_mul]
  exact Finset.sum_congr rfl fun j _ => by ring

/-! ### The two laws per relation and entry -/

section
variable (X : SX.Idx → EReal) (A : SA.Idx → EReal) (Win Wout : SR.Idx → EReal)

/-- The transposed reverse projection is the reverse projection: W_outᵀ·Xᵀ at (o, j) is X·W_out at (j, o). -/
theorem hOutT_eq (r : Fin 4) (o : Fin 64) (j : Fin 4096) : hOutT X Wout r o j = hOut X Wout r j o := by
  unfold hOutT hOut
  exact Finset.sum_congr rfl fun d _ => mul_comm _ _

variable {X A Win Wout}
variable {x : SX.Idx → ℝ} {a : SA.Idx → ℝ} {win wout : SR.Idx → ℝ}

/-- A projection of real features by real weights is real. -/
theorem hIn_real (hx : ∀ y, X y = (x y : EReal)) (hwin : ∀ y, Win y = (win y : EReal))
    (r : Fin 4) (j : Fin 4096) (o : Fin 64) :
    hIn X Win r j o = ((∑ d : Fin 64, x (ix2 j d) * win (ix3 r d o) : ℝ) : EReal) := by
  simp only [hIn, coe_sum, EReal.coe_mul, hx, hwin]

theorem hOut_real (hx : ∀ y, X y = (x y : EReal)) (hwout : ∀ y, Wout y = (wout y : EReal))
    (r : Fin 4) (j : Fin 4096) (o : Fin 64) :
    hOut X Wout r j o = ((∑ d : Fin 64, x (ix2 j d) * wout (ix3 r d o) : ℝ) : EReal) := by
  simp only [hOut, coe_sum, EReal.coe_mul, hx, hwout]

/-- The source term: propagate-then-normalise is normalise-then-propagate. -/
theorem srcKer_eq_srcRef {e : ℝ} (he : 0 < e) (heps : eps = (e : EReal))
    (hx : ∀ y, X y = (x y : EReal)) (ha : ∀ y, A y = (a y : EReal)) (hwin : ∀ y, Win y = (win y : EReal))
    (r : Fin 4) (p : Fin 4096) (o : Fin 64) :
    srcKer X A Win r p o = srcRef X A Win r p o := by
  simp only [srcKer, srcRef, rowDeg, hIn_real hx hwin, ha, heps]
  exact norm_comm (fun j : Fin 4096 => a (ix3 r p j))
    (fun j : Fin 4096 => ∑ d : Fin 64, x (ix2 j d) * win (ix3 r d o)) he

/-- The reverse term: the same law over the transposed adjacency, after the factors inside the kernel's sums are
    put in the reference's order. -/
theorem revKer_eq_revRef {e : ℝ} (he : 0 < e) (heps : eps = (e : EReal))
    (hx : ∀ y, X y = (x y : EReal)) (ha : ∀ y, A y = (a y : EReal)) (hwout : ∀ y, Wout y = (wout y : EReal))
    (r : Fin 4) (p : Fin 4096) (o : Fin 64) :
    revKer X A Wout r p o = revRef X A Wout r p o := by
  have hcomm : (∑ j : Fin 4096, hOutT X Wout r o j * A (ix3 r j p))
      = ∑ j : Fin 4096, A (ix3 r j p) * hOut X Wout r j o :=
    Finset.sum_congr rfl fun j _ => by rw [hOutT_eq, mul_comm]
  unfold revKer revRef
  rw [hcomm]
  simp only [colDeg, hOut_real hx hwout, ha, heps]
  exact norm_comm (fun j : Fin 4096 => a (ix3 r j p))
    (fun j : Fin 4096 => ∑ d : Fin 64, x (ix2 j d) * wout (ix3 r d o)) he

end

/-- On real-valued arrays the kernel's result array is the reference's. -/
theorem Gker_eq_Gref (X : SX.Idx → EReal) (A : SA.Idx → EReal) (Wl : SW.Idx → EReal) (Win Wout : SR.Idx → EReal)
    (hX : ∀ y, ∃ x : ℝ, X y = (x : EReal)) (hA : ∀ y, ∃ x : ℝ, A y = (x : EReal)) (hWl : ∀ y, ∃ x : ℝ, Wl y = (x : EReal))
    (hWin : ∀ y, ∃ x : ℝ, Win y = (x : EReal)) (hWout : ∀ y, ∃ x : ℝ, Wout y = (x : EReal)) :
    Gker X A Wl Win Wout = Gref X A Wl Win Wout := by
  obtain ⟨e, he, heps⟩ := eps_pos
  choose x hx using hX
  choose a ha using hA
  choose win hwin using hWin
  choose wout hwout using hWout
  -- the two running results agree after any number of relations: the recursions differ only in the two terms
  have hacc : ∀ n, accKer X A Wl Win Wout n = accRef X A Wl Win Wout n := by
    intro n
    induction n with
    | zero => rfl
    | succ n ih =>
      funext p o
      simp only [accKer, accRef]
      rw [ih, srcKer_eq_srcRef he heps hx ha hwin, revKer_eq_revRef he heps hx ha hwout]
  funext y
  unfold Gker Gref
  rw [hacc]

end Cert.Spec

end
-- ==== Proof.Finite.lean ====
/-
  What the precondition says of the arguments: every entry of every argument array is a real number.

  The precondition is the conjunction, over the five argument arrays, of "every entry x has |x| < +∞".
  Over the extended reals |x| is max x (-x); it equals +∞ exactly at x = ⊥ and x = ⊤, so the strict bound
  holds exactly when x is (the image of) a real number.
-/
import proofs.«152055_g50646254354673_cont_8to1_c_444_7_alg».proof.Defs
import proofs.«152055_g50646254354673_cont_8to1_c_444_7_alg».proof.Proof.Gen.KernelIdeal
import proofs.«152055_g50646254354673_cont_8to1_c_444_7_alg».proof.Proof.Gen.Pre_finite_inputs
import Idealize.ShloMosaic.Lib.ReduceAll

noncomputable section

namespace Cert.Finite

open Idealize.ShloMosaic Idealize.ShloMosaic.TcCoe Idealize.SL.Sem

/-- The binary32 pattern with sign 0, exponent all ones and significand 0 denotes +∞. -/
theorem ofBits_inf : Ideal.ofBits .f32 0x7F800000#32 = (⊤ : EReal) := by
  simp [Ideal.ofBits, Ideal.ieee]

/-- An extended real whose absolute value max x (-x) is strictly below +∞ is a real number:
    at ⊥ the absolute value is max ⊥ ⊤ = ⊤ and at ⊤ it is max ⊤ ⊥ = ⊤, neither below ⊤. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Under the precondition every entry of each of the five argument arrays is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ y, ∃ x : ℝ, m ((c.tc : Thread Cert.KernelIdeal.nD Cert.KernelIdeal.τ).loc Cert.KernelIdeal.main_arg0) y = (x : EReal))
    ∧ (∀ y, ∃ x : ℝ, m ((c.tc : Thread Cert.KernelIdeal.nD Cert.KernelIdeal.τ).loc Cert.KernelIdeal.main_arg1) y = (x : EReal))
    ∧ (∀ y, ∃ x : ℝ, m ((c.tc : Thread Cert.KernelIdeal.nD Cert.KernelIdeal.τ).loc Cert.KernelIdeal.main_arg2) y = (x : EReal))
    ∧ (∀ y, ∃ x : ℝ, m ((c.tc : Thread Cert.KernelIdeal.nD Cert.KernelIdeal.τ).loc Cert.KernelIdeal.main_arg3) y = (x : EReal))
    ∧ (∀ y, ∃ x : ℝ, m ((c.tc : Thread Cert.KernelIdeal.nD Cert.KernelIdeal.τ).loc Cert.KernelIdeal.main_arg4) y = (x : EReal)) := by
  -- a rank-0 shape has exactly one index
  haveI : Subsingleton Cert.Pre_finite_inputs.S_.Idx := ⟨fun a b => funext fun d => d.elim0⟩
  -- the predicate's one result word is 1
  have h0 := congrFun (h c) (fun a => a.elim0)
  dsimp only [Cert.Pre_finite_inputs.fn, Cert.Pre_finite_inputs.fn_part1] at h0
  -- a conjunction of one-bit words is 1 exactly when each conjunct is: one conjunct per argument array
  simp only [andi, IntOp.andi_eq_one] at h0
  obtain ⟨⟨⟨⟨e0, e1⟩, e2⟩, e3⟩, e4⟩ := h0
  -- a conjunction over all entries that is 1 is 1 at each entry y, which says |entry y| < +∞
  exact ⟨fun y => real_of_abs_lt_inf _ (Host.reduce_andi_all _ _ _ _ _ e0 y),
    fun y => real_of_abs_lt_inf _ (Host.reduce_andi_all _ _ _ _ _ e1 y),
    fun y => real_of_abs_lt_inf _ (Host.reduce_andi_all _ _ _ _ _ e2 y),
    fun y => real_of_abs_lt_inf _ (Host.reduce_andi_all _ _ _ _ _ e3 y),
    fun y => real_of_abs_lt_inf _ (Host.reduce_andi_all _ _ _ _ _ e4 y)⟩

end Cert.Finite

end
-- ==== Proof.lean ====
/-
  One layer of a relational graph convolution over four relations, 4096 nodes and 64 features:

      res = X·W_loop + Σ_r [ N(A_r)·(X·W_in_r) + N(A_rᵀ)·(X·W_out_r) ],

  where N divides each row of its matrix by the row's sum clamped below by a small positive constant.

  The reference normalises each adjacency first and then propagates. The kernel streams each 512-row strip of A_r once
  and normalises last: for the source direction it multiplies the strip with the projection X·W_in_r augmented by a
  column of ones, so that the same product carries the row degrees, and adds the first 64 columns times the reciprocal
  of the clamped 65th to the strip's rows of the result; for the reverse direction it accumulates, transposed, the
  product of W_out_rᵀ·Xᵀ augmented by a row of ones with the strips, and after the relation's last strip adds the
  accumulator's first 64 rows times the reciprocal of its clamped 65th row, transposed back, to the whole result.

  On the extended reals the two agree entry by entry when every input entry is a real number: the clamped degree is then
  a positive real, division by it is multiplication by its reciprocal, and a common real factor moves across a finite sum
  of reals. Changes of float format are the identity there, and both programs spell the clamp by the same word.

  The frames: each program terminates without a fault and leaves its arguments unchanged. For the kernel this is shown
  at any float instance, by running its body symbolically in each of its four cases (the first grid point; the first,
  an inner, and the last strip of a relation) on named contents, and tracking what the five buffers it carries from
  point to point hold; the same tracking, read at the extended reals, gives the result array.
-/
import proofs.«152055_g50646254354673_cont_8to1_c_444_7_alg».proof.Defs
import proofs.«152055_g50646254354673_cont_8to1_c_444_7_alg».proof.Proof.Gen.Kernel
import proofs.«152055_g50646254354673_cont_8to1_c_444_7_alg».proof.Proof.Gen.KernelIdeal
import proofs.«152055_g50646254354673_cont_8to1_c_444_7_alg».proof.Proof.Gen.ReferenceIdeal
import proofs.«152055_g50646254354673_cont_8to1_c_444_7_alg».proof.Proof.Gen.Pre_finite_inputs
import proofs.«152055_g50646254354673_cont_8to1_c_444_7_alg».proof.Proof.K.Frame
import proofs.«152055_g50646254354673_cont_8to1_c_444_7_alg».proof.Proof.KI.Final
import proofs.«152055_g50646254354673_cont_8to1_c_444_7_alg».proof.Proof.RefValue
import proofs.«152055_g50646254354673_cont_8to1_c_444_7_alg».proof.Proof.Algebra
import proofs.«152055_g50646254354673_cont_8to1_c_444_7_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the kernel read at the extended reals. -/
theorem frame_ki : Cert.frame_KernelIdeal := fun m ρ _ => Cert.KernelIdeal.Body.frame m ρ

/-- So does the reference: its run to the specification, the result dropped. -/
theorem frame_ri : Cert.frame_ReferenceIdeal := fun m ρ _ =>
  (θ_run (Cert.ReferenceIdeal.defs (F := Ideal)) _ _).mono (fun _ h c => (h c).2) (Cert.ReferenceIdeal.RefValue.run_spec m ρ)

/-- From memories agreeing on the arguments both programs end with the same result array: the kernel's at the
    specification's kernel-side function, the reference's at its reference-side function, and under the precondition
    (every entry real) the two functions are one. -/
theorem algebraic : Cert.algebraic_KernelIdeal_ReferenceIdeal := by
  intro m ρ m' ρ' hpre hagree
  refine ⟨fun c => Cert.Spec.Gker (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Val.run_value m ρ, ?_⟩
  refine (θ_run (Cert.ReferenceIdeal.defs (F := Ideal)) _ _).mono (fun _ h c => ⟨(h c).1.trans ?_, (h c).2⟩)
    (Cert.ReferenceIdeal.RefValue.run_spec m' ρ')
  obtain ⟨h0, h1, h2, h3, h4⟩ := Cert.Finite.real_of_pre m hpre c
  rw [(hagree c).1, (hagree c).2.1, (hagree c).2.2.1, (hagree c).2.2.2.1, (hagree c).2.2.2.2]
  exact (Cert.Spec.Gker_eq_Gref _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
